-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x384x8x96x96 : Shape := ⟨5, ![2, 384, 8, 96, 96]⟩
abbrev S6x1x1 : Shape := ⟨3, ![6, 1, 1]⟩
abbrev S_ : Shape := ⟨0, ![]⟩

class Facts : Prop where
  bcast_S_S2x384x8x96x96 : S_.BroadcastsInDim S2x384x8x96x96 (![] : Fin 0 → Fin S2x384x8x96x96.rank)
  reducesTo_S2x384x8x96x96_S_d0_1_2_3_4 : S2x384x8x96x96.ReducesTo [0, 1, 2, 3, 4] S_
  h_S_ : 0 < S_.numel
  bcast_S_S6x1x1 : S_.BroadcastsInDim S6x1x1 (![] : Fin 0 → Fin S6x1x1.rank)
  reducesTo_S6x1x1_S_d0_1_2 : S6x1x1.ReducesTo [0, 1, 2] S_

variable [Facts]

def fn_part1 {F : FTy → Type} [FloatOps F] (main_arg4 : FVec F S6x1x1 .f32) (main_v13 : IVec S_ 1) (main_v16 : IVec S6x1x1 1) : IVec S_ 1 :=
  let main_c_5 : IVec S_ 1 := constantI S_ 1 1#1
  let main_v17 : IVec S_ 1 := (fun x v => Host.reduce IntOp.andi x v reducesTo_S6x1x1_S_d0_1_2 h_S_) main_v16 main_c_5
  let main_v18 : IVec S_ 1 := andi main_v13 main_v17
  let main_v19 : FVec F S6x1x1 .f32 := Host.absf main_arg4
  let main_cst_6 : FVec F S_ .f32 := constant S_ .f32 0x7F800000#32
  let main_v20 : FVec F S6x1x1 .f32 := broadcastInDim S6x1x1 ![] bcast_S_S6x1x1 main_cst_6
  let main_v21 : IVec S6x1x1 1 := cmpf .olt main_v19 main_v20
  let main_c_7 : IVec S_ 1 := constantI S_ 1 1#1
  let main_v22 : IVec S_ 1 := (fun x v => Host.reduce IntOp.andi x v reducesTo_S6x1x1_S_d0_1_2 h_S_) main_v21 main_c_7
  let main_v23 : IVec S_ 1 := andi main_v18 main_v22
  main_v23

def fn {F : FTy → Type} [FloatOps F] (main_arg0 : FVec F S2x384x8x96x96 .f32) (main_arg1 : FVec F S2x384x8x96x96 .f32) (main_arg2 : FVec F S2x384x8x96x96 .f32) (main_arg3 : FVec F S6x1x1 .f32) (main_arg4 : FVec F S6x1x1 .f32) : IVec S_ 1 :=
  let main_v0 : FVec F S2x384x8x96x96 .f32 := Host.absf main_arg0
  let main_cst : FVec F S_ .f32 := constant S_ .f32 0x7F800000#32
  let main_v1 : FVec F S2x384x8x96x96 .f32 := broadcastInDim S2x384x8x96x96 ![] bcast_S_S2x384x8x96x96 main_cst
  let main_v2 : IVec S2x384x8x96x96 1 := cmpf .olt main_v0 main_v1
  let main_c : IVec S_ 1 := constantI S_ 1 1#1
  let main_v3 : IVec S_ 1 := (fun x v => Host.reduce IntOp.andi x v reducesTo_S2x384x8x96x96_S_d0_1_2_3_4 h_S_) main_v2 main_c
  let main_v4 : FVec F S2x384x8x96x96 .f32 := Host.absf main_arg1
  let main_cst_0 : FVec F S_ .f32 := constant S_ .f32 0x7F800000#32
  let main_v5 : FVec F S2x384x8x96x96 .f32 := broadcastInDim S2x384x8x96x96 ![] bcast_S_S2x384x8x96x96 main_cst_0
  let main_v6 : IVec S2x384x8x96x96 1 := cmpf .olt main_v4 main_v5
  let main_c_1 : IVec S_ 1 := constantI S_ 1 1#1
  let main_v7 : IVec S_ 1 := (fun x v => Host.reduce IntOp.andi x v reducesTo_S2x384x8x96x96_S_d0_1_2_3_4 h_S_) main_v6 main_c_1
  let main_v8 : IVec S_ 1 := andi main_v3 main_v7
  let main_v9 : FVec F S2x384x8x96x96 .f32 := Host.absf main_arg2
  let main_cst_2 : FVec F S_ .f32 := constant S_ .f32 0x7F800000#32
  let main_v10 : FVec F S2x384x8x96x96 .f32 := broadcastInDim S2x384x8x96x96 ![] bcast_S_S2x384x8x96x96 main_cst_2
  let main_v11 : IVec S2x384x8x96x96 1 := cmpf .olt main_v9 main_v10
  let main_c_3 : IVec S_ 1 := constantI S_ 1 1#1
  let main_v12 : IVec S_ 1 := (fun x v => Host.reduce IntOp.andi x v reducesTo_S2x384x8x96x96_S_d0_1_2_3_4 h_S_) main_v11 main_c_3
  let main_v13 : IVec S_ 1 := andi main_v8 main_v12
  let main_v14 : FVec F S6x1x1 .f32 := Host.absf main_arg3
  let main_cst_4 : FVec F S_ .f32 := constant S_ .f32 0x7F800000#32
  let main_v15 : FVec F S6x1x1 .f32 := broadcastInDim S6x1x1 ![] bcast_S_S6x1x1 main_cst_4
  let main_v16 : IVec S6x1x1 1 := cmpf .olt main_v14 main_v15
  fn_part1 (F := F) main_arg4 main_v13 main_v16
-- ==== Kernel.lean ====
abbrev S2x384x8x96x96 : Shape := ⟨5, ![2, 384, 8, 96, 96]⟩
abbrev S6x1x1 : Shape := ⟨3, ![6, 1, 1]⟩
abbrev S2x6x64x8x24x4x12x8 : Shape := ⟨8, ![2, 6, 64, 8, 24, 4, 12, 8]⟩
abbrev S2x8x24x12x6x4x8x64 : Shape := ⟨8, ![2, 8, 24, 12, 6, 4, 8, 64]⟩
abbrev S4608x6x32x64 : Shape := ⟨4, ![4608, 6, 32, 64]⟩
abbrev S2x6x64x8x96x96 : Shape := ⟨6, ![2, 6, 64, 8, 96, 96]⟩
abbrev S2x96x96x6x8x64 : Shape := ⟨6, ![2, 96, 96, 6, 8, 64]⟩
abbrev S18432x6x8x64 : Shape := ⟨4, ![18432, 6, 8, 64]⟩
abbrev S_ : Shape := ⟨0, ![]⟩
abbrev S256x1x32x64 : Shape := ⟨4, ![256, 1, 32, 64]⟩
abbrev S1x1x1 : Shape := ⟨3, ![1, 1, 1]⟩
abbrev S256x32x64 : Shape := ⟨3, ![256, 32, 64]⟩
abbrev S256x32 : Shape := ⟨2, ![256, 32]⟩
abbrev S256x32x1 : Shape := ⟨3, ![256, 32, 1]⟩
abbrev S256x32x32 : Shape := ⟨3, ![256, 32, 32]⟩
abbrev S1x1 : Shape := ⟨2, ![1, 1]⟩
abbrev S2x24x4x12x8x6x8x64 : Shape := ⟨8, ![2, 24, 4, 12, 8, 6, 8, 64]⟩
abbrev S1024x1x8x64 : Shape := ⟨4, ![1024, 1, 8, 64]⟩
abbrev S1024x8x64 : Shape := ⟨3, ![1024, 8, 64]⟩
abbrev S1024x8 : Shape := ⟨2, ![1024, 8]⟩
abbrev S1024x8x1 : Shape := ⟨3, ![1024, 8, 1]⟩
abbrev S1024x8x8 : Shape := ⟨3, ![1024, 8, 8]⟩

abbrev nBuf : Space → Nat
  | .hbm => 36
  | .vmem => 20
  | .smem => 0
  | _ => 0

abbrev bufTy : (tb : Table) → Fin (tcTables nBuf tb) → BufTy
  | .hbm, ⟨0, _⟩ => ⟨S2x384x8x96x96, .f32⟩
  | .hbm, ⟨1, _⟩ => ⟨S2x384x8x96x96, .f32⟩
  | .hbm, ⟨2, _⟩ => ⟨S2x384x8x96x96, .f32⟩
  | .hbm, ⟨3, _⟩ => ⟨S6x1x1, .f32⟩
  | .hbm, ⟨4, _⟩ => ⟨S6x1x1, .f32⟩
  | .hbm, ⟨5, _⟩ => ⟨S2x6x64x8x24x4x12x8, .f32⟩
  | .hbm, ⟨6, _⟩ => ⟨S2x8x24x12x6x4x8x64, .f32⟩
  | .hbm, ⟨7, _⟩ => ⟨S4608x6x32x64, .f32⟩
  | .hbm, ⟨8, _⟩ => ⟨S2x6x64x8x24x4x12x8, .f32⟩
  | .hbm, ⟨9, _⟩ => ⟨S2x8x24x12x6x4x8x64, .f32⟩
  | .hbm, ⟨10, _⟩ => ⟨S4608x6x32x64, .f32⟩
  | .hbm, ⟨11, _⟩ => ⟨S2x6x64x8x24x4x12x8, .f32⟩
  | .hbm, ⟨12, _⟩ => ⟨S2x8x24x12x6x4x8x64, .f32⟩
  | .hbm, ⟨13, _⟩ => ⟨S4608x6x32x64, .f32⟩
  | .hbm, ⟨14, _⟩ => ⟨S2x6x64x8x96x96, .f32⟩
  | .hbm, ⟨15, _⟩ => ⟨S2x96x96x6x8x64, .f32⟩
  | .hbm, ⟨16, _⟩ => ⟨S18432x6x8x64, .f32⟩
  | .hbm, ⟨17, _⟩ => ⟨S2x6x64x8x96x96, .f32⟩
  | .hbm, ⟨18, _⟩ => ⟨S2x96x96x6x8x64, .f32⟩
  | .hbm, ⟨19, _⟩ => ⟨S18432x6x8x64, .f32⟩
  | .hbm, ⟨20, _⟩ => ⟨S_, .f32⟩
  | .hbm, ⟨21, _⟩ => ⟨S6x1x1, .f32⟩
  | .hbm, ⟨22, _⟩ => ⟨S6x1x1, .f32⟩
  | .hbm, ⟨23, _⟩ => ⟨S6x1x1, .f32⟩
  | .hbm, ⟨24, _⟩ => ⟨S_, .f32⟩
  | .hbm, ⟨25, _⟩ => ⟨S6x1x1, .f32⟩
  | .hbm, ⟨26, _⟩ => ⟨S6x1x1, .f32⟩
  | .hbm, ⟨27, _⟩ => ⟨S6x1x1, .f32⟩
  | .hbm, ⟨28, _⟩ => ⟨S4608x6x32x64, .f32⟩
  | .hbm, ⟨29, _⟩ => ⟨S2x8x24x12x6x4x8x64, .f32⟩
  | .hbm, ⟨30, _⟩ => ⟨S2x24x4x12x8x6x8x64, .f32⟩
  | .hbm, ⟨31, _⟩ => ⟨S18432x6x8x64, .f32⟩
  | .hbm, ⟨32, _⟩ => ⟨S18432x6x8x64, .f32⟩
  | .hbm, ⟨33, _⟩ => ⟨S2x24x4x12x8x6x8x64, .f32⟩
  | .hbm, ⟨34, _⟩ => ⟨S2x6x64x8x24x4x12x8, .f32⟩
  | .hbm, ⟨35, _⟩ => ⟨S2x384x8x96x96, .f32⟩
  | .local _ .vmem, ⟨0, _⟩ => ⟨S256x1x32x64, .f32⟩
  | .local _ .vmem, ⟨1, _⟩ => ⟨S256x1x32x64, .f32⟩
  | .local _ .vmem, ⟨2, _⟩ => ⟨S256x1x32x64, .f32⟩
  | .local _ .vmem, ⟨3, _⟩ => ⟨S256x1x32x64, .f32⟩
  | .local _ .vmem, ⟨4, _⟩ => ⟨S256x1x32x64, .f32⟩
  | .local _ .vmem, ⟨5, _⟩ => ⟨S256x1x32x64, .f32⟩
  | .local _ .vmem, ⟨6, _⟩ => ⟨S1x1x1, .f32⟩
  | .local _ .vmem, ⟨7, _⟩ => ⟨S1x1x1, .f32⟩
  | .local _ .vmem, ⟨8, _⟩ => ⟨S256x1x32x64, .f32⟩
  | .local _ .vmem, ⟨9, _⟩ => ⟨S256x1x32x64, .f32⟩
  | .local _ .vmem, ⟨10, _⟩ => ⟨S1024x1x8x64, .f32⟩
  | .local _ .vmem, ⟨11, _⟩ => ⟨S1024x1x8x64, .f32⟩
  | .local _ .vmem, ⟨12, _⟩ => ⟨S1024x1x8x64, .f32⟩
  | .local _ .vmem, ⟨13, _⟩ => ⟨S1024x1x8x64, .f32⟩
  | .local _ .vmem, ⟨14, _⟩ => ⟨S1024x1x8x64, .f32⟩
  | .local _ .vmem, ⟨15, _⟩ => ⟨S1024x1x8x64, .f32⟩
  | .local _ .vmem, ⟨16, _⟩ => ⟨S1x1x1, .f32⟩
  | .local _ .vmem, ⟨17, _⟩ => ⟨S1x1x1, .f32⟩
  | .local _ .vmem, ⟨18, _⟩ => ⟨S1024x1x8x64, .f32⟩
  | .local _ .vmem, ⟨19, _⟩ => ⟨S1024x1x8x64, .f32⟩
  | _, _ => ⟨S2x384x8x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![18, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![18, 6], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1024x1x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1x8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1x8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x384x8x96x96_S2x6x64x8x24x4x12x8 : S2x384x8x96x96.ShapeCasts S2x6x64x8x24x4x12x8
  transposes_S2x6x64x8x24x4x12x8_S2x8x24x12x6x4x8x64_0_3_4_6_1_5_7_2 : S2x6x64x8x24x4x12x8.Transposes [0, 3, 4, 6, 1, 5, 7, 2] S2x8x24x12x6x4x8x64
  shapeCasts_S2x8x24x12x6x4x8x64_S4608x6x32x64 : S2x8x24x12x6x4x8x64.ShapeCasts S4608x6x32x64
  shapeCasts_S2x384x8x96x96_S2x6x64x8x96x96 : S2x384x8x96x96.ShapeCasts S2x6x64x8x96x96
  transposes_S2x6x64x8x96x96_S2x96x96x6x8x64_0_4_5_1_3_2 : S2x6x64x8x96x96.Transposes [0, 4, 5, 1, 3, 2] S2x96x96x6x8x64
  shapeCasts_S2x96x96x6x8x64_S18432x6x8x64 : S2x96x96x6x8x64.ShapeCasts S18432x6x8x64
  bcast_S_S6x1x1 : S_.BroadcastsInDim S6x1x1 (![] : Fin 0 → Fin S6x1x1.rank)
  inb_S256x1x32x64_S256x1x32x64_0_0_0_0 : ∀ a, (![0, 0, 0, 0] : Fin 4 → Nat) a + S256x1x32x64.size a ≤ S256x1x32x64.size a
  h_S256x1x32x64 : 0 < S256x1x32x64.numel
  shapeCasts_S256x1x32x64_S256x32x64 : S256x1x32x64.ShapeCasts S256x32x64
  reduces_S256x32x64_S256x32 : S256x32x64.Reduces [2] S256x32
  shapeCasts_S256x32_S256x32x1 : S256x32.ShapeCasts S256x32x1
  broadcasts_S256x32x1_S256x32x64 : S256x32x1.Broadcasts S256x32x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  broadcasts_S1x1x1_S256x32x32 : S1x1x1.Broadcasts S256x32x32
  reduces_S256x32x32_S256x32 : S256x32x32.Reduces [2] S256x32
  broadcasts_S256x32x1_S256x32x32 : S256x32x1.Broadcasts S256x32x32
  shapeCasts_S256x32x64_S256x1x32x64 : S256x32x64.ShapeCasts S256x1x32x64
  shapeCasts_S4608x6x32x64_S2x8x24x12x6x4x8x64 : S4608x6x32x64.ShapeCasts S2x8x24x12x6x4x8x64
  transposes_S2x8x24x12x6x4x8x64_S2x24x4x12x8x6x8x64_0_2_5_3_6_4_1_7 : S2x8x24x12x6x4x8x64.Transposes [0, 2, 5, 3, 6, 4, 1, 7] S2x24x4x12x8x6x8x64
  shapeCasts_S2x24x4x12x8x6x8x64_S18432x6x8x64 : S2x24x4x12x8x6x8x64.ShapeCasts S18432x6x8x64
  inb_S1024x1x8x64_S1024x1x8x64_0_0_0_0 : ∀ a, (![0, 0, 0, 0] : Fin 4 → Nat) a + S1024x1x8x64.size a ≤ S1024x1x8x64.size a
  h_S1024x1x8x64 : 0 < S1024x1x8x64.numel
  shapeCasts_S1024x1x8x64_S1024x8x64 : S1024x1x8x64.ShapeCasts S1024x8x64
  reduces_S1024x8x64_S1024x8 : S1024x8x64.Reduces [2] S1024x8
  shapeCasts_S1024x8_S1024x8x1 : S1024x8.ShapeCasts S1024x8x1
  broadcasts_S1024x8x1_S1024x8x64 : S1024x8x1.Broadcasts S1024x8x64
  broadcasts_S1x1x1_S1024x8x8 : S1x1x1.Broadcasts S1024x8x8
  reduces_S1024x8x8_S1024x8 : S1024x8x8.Reduces [2] S1024x8
  broadcasts_S1024x8x1_S1024x8x8 : S1024x8x1.Broadcasts S1024x8x8
  shapeCasts_S1024x8x64_S1024x1x8x64 : S1024x8x64.ShapeCasts S1024x1x8x64
  shapeCasts_S18432x6x8x64_S2x24x4x12x8x6x8x64 : S18432x6x8x64.ShapeCasts S2x24x4x12x8x6x8x64
  transposes_S2x24x4x12x8x6x8x64_S2x6x64x8x24x4x12x8_0_5_7_6_1_2_3_4 : S2x24x4x12x8x6x8x64.Transposes [0, 5, 7, 6, 1, 2, 3, 4] S2x6x64x8x24x4x12x8
  shapeCasts_S2x6x64x8x24x4x12x8_S2x384x8x96x96 : S2x6x64x8x24x4x12x8.ShapeCasts S2x384x8x96x96
  dot_S256x32x64_S256x32x64_S256x32x32_2_2_1_1_0_0_wf : DotDims.WF S256x32x64 S256x32x64 S256x32x32 [2] [2] [1] [1] [0] [0]
  dot_S256x32x32_S256x32x64_S256x32x64_2_1_1_2_0_0_wf : DotDims.WF S256x32x32 S256x32x64 S256x32x64 [2] [1] [1] [2] [0] [0]
  dot_S1024x8x64_S1024x8x64_S1024x8x8_2_2_1_1_0_0_wf : DotDims.WF S1024x8x64 S1024x8x64 S1024x8x8 [2] [2] [1] [1] [0] [0]
  dot_S1024x8x8_S1024x8x64_S1024x8x64_2_1_1_2_0_0_wf : DotDims.WF S1024x8x8 S1024x8x64 S1024x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x32x64.size a ≤ S4608x6x32x64.size a
  hwx0_0 : ∀ i : grid0.Coords, EltTy.bits .f32 = 32 ∨ (Rect.block (s := S4608x6x32x64) S256x1x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1x32x64.size a ≤ S4608x6x32x64.size a
  hwx0_1 : ∀ i : grid0.Coords, EltTy.bits .f32 = 32 ∨ (Rect.block (s := S4608x6x32x64) S256x1x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1x32x64.size a ≤ S4608x6x32x64.size a
  hwx0_2 : ∀ i : grid0.Coords, EltTy.bits .f32 = 32 ∨ (Rect.block (s := S4608x6x32x64) S256x1x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S6x1x1.size a
  hwx0_3 : ∀ i : grid0.Coords, EltTy.bits .f32 = 32 ∨ (Rect.block (s := S6x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1x32x64.size a ≤ S4608x6x32x64.size a
  hwx0_4 : ∀ i : grid0.Coords, EltTy.bits .f32 = 32 ∨ (Rect.block (s := S4608x6x32x64) S256x1x32x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1x8x64.size a ≤ S18432x6x8x64.size a
  hwx1_0 : ∀ i : grid1.Coords, EltTy.bits .f32 = 32 ∨ (Rect.block (s := S18432x6x8x64) S1024x1x8x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1x8x64.size a ≤ S18432x6x8x64.size a
  hwx1_1 : ∀ i : grid1.Coords, EltTy.bits .f32 = 32 ∨ (Rect.block (s := S18432x6x8x64) S1024x1x8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1x8x64.size a ≤ S18432x6x8x64.size a
  hwx1_2 : ∀ i : grid1.Coords, EltTy.bits .f32 = 32 ∨ (Rect.block (s := S18432x6x8x64) S1024x1x8x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S6x1x1.size a
  hwx1_3 : ∀ i : grid1.Coords, EltTy.bits .f32 = 32 ∨ (Rect.block (s := S6x1x1) S1x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1x8x64.size a ≤ S18432x6x8x64.size a
  hwx1_4 : ∀ i : grid1.Coords, EltTy.bits .f32 = 32 ∨ (Rect.block (s := S18432x6x8x64) S1024x1x8x64.size (cc1_transform_4 i) (hinb1_4 i)).WholeWords (EltTy.packing .f32)

variable [Facts₀]

def dot_S256x32x64_S256x32x64_S256x32x32_2_2_1_1_0_0 : DotDims S256x32x64 S256x32x64 S256x32x32 where
  lhsContracting := [2]
  rhsContracting := [2]
  lhsNonContracting := [1]
  rhsNonContracting := [1]
  lhsBatch := [0]
  rhsBatch := [0]
  wf := dot_S256x32x64_S256x32x64_S256x32x32_2_2_1_1_0_0_wf
def dot_S256x32x32_S256x32x64_S256x32x64_2_1_1_2_0_0 : DotDims S256x32x32 S256x32x64 S256x32x64 where
  lhsContracting := [2]
  rhsContracting := [1]
  lhsNonContracting := [1]
  rhsNonContracting := [2]
  lhsBatch := [0]
  rhsBatch := [0]
  wf := dot_S256x32x32_S256x32x64_S256x32x64_2_1_1_2_0_0_wf
def dot_S1024x8x64_S1024x8x64_S1024x8x8_2_2_1_1_0_0 : DotDims S1024x8x64 S1024x8x64 S1024x8x8 where
  lhsContracting := [2]
  rhsContracting := [2]
  lhsNonContracting := [1]
  rhsNonContracting := [1]
  lhsBatch := [0]
  rhsBatch := [0]
  wf := dot_S1024x8x64_S1024x8x64_S1024x8x8_2_2_1_1_0_0_wf
def dot_S1024x8x8_S1024x8x64_S1024x8x64_2_1_1_2_0_0 : DotDims S1024x8x8 S1024x8x64 S1024x8x64 where
  lhsContracting := [2]
  rhsContracting := [1]
  lhsNonContracting := [1]
  rhsNonContracting := [2]
  lhsBatch := [0]
  rhsBatch := [0]
  wf := dot_S1024x8x8_S1024x8x64_S1024x8x64_2_1_1_2_0_0_wf

abbrev win0_0 : Pipeline.Window sig grid0 :=
  Pipeline.Window.ofSpec (Memref.whole main_v2) S256x1x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x1x32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S1024x1x8x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x1x8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1024x1x8x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1024x1x8x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x384x8x96x96 : Shape := ⟨5, ![2, 384, 8, 96, 96]⟩
abbrev S6x1x1 : Shape := ⟨3, ![6, 1, 1]⟩
abbrev S2x6x64x8x24x4x12x8 : Shape := ⟨8, ![2, 6, 64, 8, 24, 4, 12, 8]⟩
abbrev S2x8x24x12x6x4x8x64 : Shape := ⟨8, ![2, 8, 24, 12, 6, 4, 8, 64]⟩
abbrev S4608x6x32x64 : Shape := ⟨4, ![4608, 6, 32, 64]⟩
abbrev S2x6x64x8x96x96 : Shape := ⟨6, ![2, 6, 64, 8, 96, 96]⟩
abbrev S2x96x96x6x8x64 : Shape := ⟨6, ![2, 96, 96, 6, 8, 64]⟩
abbrev S18432x6x8x64 : Shape := ⟨4, ![18432, 6, 8, 64]⟩
abbrev S_ : Shape := ⟨0, ![]⟩
abbrev S4608x6x32 : Shape := ⟨3, ![4608, 6, 32]⟩
abbrev S4608x6x32x1 : Shape := ⟨4, ![4608, 6, 32, 1]⟩
abbrev S4608x6x32x32 : Shape := ⟨4, ![4608, 6, 32, 32]⟩
abbrev S1x6x1x1 : Shape := ⟨4, ![1, 6, 1, 1]⟩
abbrev S18432x6x8 : Shape := ⟨3, ![18432, 6, 8]⟩
abbrev S18432x6x8x1 : Shape := ⟨4, ![18432, 6, 8, 1]⟩
abbrev S18432x6x8x8 : Shape := ⟨4, ![18432, 6, 8, 8]⟩
abbrev S2x24x4x12x8x6x8x64 : Shape := ⟨8, ![2, 24, 4, 12, 8, 6, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S2x384x8x96x96, .f32⟩
  | .hbm, ⟨1, _⟩ => ⟨S2x384x8x96x96, .f32⟩
  | .hbm, ⟨2, _⟩ => ⟨S2x384x8x96x96, .f32⟩
  | .hbm, ⟨3, _⟩ => ⟨S6x1x1, .f32⟩
  | .hbm, ⟨4, _⟩ => ⟨S6x1x1, .f32⟩
  | .hbm, ⟨5, _⟩ => ⟨S2x6x64x8x24x4x12x8, .f32⟩
  | .hbm, ⟨6, _⟩ => ⟨S2x8x24x12x6x4x8x64, .f32⟩
  | .hbm, ⟨7, _⟩ => ⟨S4608x6x32x64, .f32⟩
  | .hbm, ⟨8, _⟩ => ⟨S2x6x64x8x24x4x12x8, .f32⟩
  | .hbm, ⟨9, _⟩ => ⟨S2x8x24x12x6x4x8x64, .f32⟩
  | .hbm, ⟨10, _⟩ => ⟨S4608x6x32x64, .f32⟩
  | .hbm, ⟨11, _⟩ => ⟨S2x6x64x8x24x4x12x8, .f32⟩
  | .hbm, ⟨12, _⟩ => ⟨S2x8x24x12x6x4x8x64, .f32⟩
  | .hbm, ⟨13, _⟩ => ⟨S4608x6x32x64, .f32⟩
  | .hbm, ⟨14, _⟩ => ⟨S2x6x64x8x96x96, .f32⟩
  | .hbm, ⟨15, _⟩ => ⟨S2x96x96x6x8x64, .f32⟩
  | .hbm, ⟨16, _⟩ => ⟨S18432x6x8x64, .f32⟩
  | .hbm, ⟨17, _⟩ => ⟨S2x6x64x8x96x96, .f32⟩
  | .hbm, ⟨18, _⟩ => ⟨S2x96x96x6x8x64, .f32⟩
  | .hbm, ⟨19, _⟩ => ⟨S18432x6x8x64, .f32⟩
  | .hbm, ⟨20, _⟩ => ⟨S_, .f32⟩
  | .hbm, ⟨21, _⟩ => ⟨S6x1x1, .f32⟩
  | .hbm, ⟨22, _⟩ => ⟨S6x1x1, .f32⟩
  | .hbm, ⟨23, _⟩ => ⟨S6x1x1, .f32⟩
  | .hbm, ⟨24, _⟩ => ⟨S_, .f32⟩
  | .hbm, ⟨25, _⟩ => ⟨S6x1x1, .f32⟩
  | .hbm, ⟨26, _⟩ => ⟨S6x1x1, .f32⟩
  | .hbm, ⟨27, _⟩ => ⟨S6x1x1, .f32⟩
  | .hbm, ⟨28, _⟩ => ⟨S4608x6x32x64, .f32⟩
  | .hbm, ⟨29, _⟩ => ⟨S_, .f32⟩
  | .hbm, ⟨30, _⟩ => ⟨S4608x6x32, .f32⟩
  | .hbm, ⟨31, _⟩ => ⟨S4608x6x32x1, .f32⟩
  | .hbm, ⟨32, _⟩ => ⟨S4608x6x32x1, .f32⟩
  | .hbm, ⟨33, _⟩ => ⟨S_, .f32⟩
  | .hbm, ⟨34, _⟩ => ⟨S4608x6x32x1, .f32⟩
  | .hbm, ⟨35, _⟩ => ⟨S4608x6x32x1, .f32⟩
  | .hbm, ⟨36, _⟩ => ⟨S4608x6x32x64, .f32⟩
  | .hbm, ⟨37, _⟩ => ⟨S4608x6x32x64, .f32⟩
  | .hbm, ⟨38, _⟩ => ⟨S4608x6x32x64, .f32⟩
  | .hbm, ⟨39, _⟩ => ⟨S_, .f32⟩
  | .hbm, ⟨40, _⟩ => ⟨S4608x6x32, .f32⟩
  | .hbm, ⟨41, _⟩ => ⟨S4608x6x32x1, .f32⟩
  | .hbm, ⟨42, _⟩ => ⟨S4608x6x32x1, .f32⟩
  | .hbm, ⟨43, _⟩ => ⟨S_, .f32⟩
  | .hbm, ⟨44, _⟩ => ⟨S4608x6x32x1, .f32⟩
  | .hbm, ⟨45, _⟩ => ⟨S4608x6x32x1, .f32⟩
  | .hbm, ⟨46, _⟩ => ⟨S4608x6x32x64, .f32⟩
  | .hbm, ⟨47, _⟩ => ⟨S4608x6x32x64, .f32⟩
  | .hbm, ⟨48, _⟩ => ⟨S4608x6x32x32, .f32⟩
  | .hbm, ⟨49, _⟩ => ⟨S1x6x1x1, .f32⟩
  | .hbm, ⟨50, _⟩ => ⟨S4608x6x32x32, .f32⟩
  | .hbm, ⟨51, _⟩ => ⟨S4608x6x32x32, .f32⟩
  | .hbm, ⟨52, _⟩ => ⟨S_, .f32⟩
  | .hbm, ⟨53, _⟩ => ⟨S4608x6x32, .f32⟩
  | .hbm, ⟨54, _⟩ => ⟨S_, .f32⟩
  | .hbm, ⟨55, _⟩ => ⟨S4608x6x32, .f32⟩
  | .hbm, ⟨56, _⟩ => ⟨S4608x6x32, .f32⟩
  | .hbm, ⟨57, _⟩ => ⟨S4608x6x32x1, .f32⟩
  | .hbm, ⟨58, _⟩ => ⟨S4608x6x32x32, .f32⟩
  | .hbm, ⟨59, _⟩ => ⟨S4608x6x32x32, .f32⟩
  | .hbm, ⟨60, _⟩ => ⟨S4608x6x32x32, .f32⟩
  | .hbm, ⟨61, _⟩ => ⟨S_, .f32⟩
  | .hbm, ⟨62, _⟩ => ⟨S4608x6x32, .f32⟩
  | .hbm, ⟨63, _⟩ => ⟨S4608x6x32x1, .f32⟩
  | .hbm, ⟨64, _⟩ => ⟨S4608x6x32x32, .f32⟩
  | .hbm, ⟨65, _⟩ => ⟨S4608x6x32x32, .f32⟩
  | .hbm, ⟨66, _⟩ => ⟨S18432x6x8x64, .f32⟩
  | .hbm, ⟨67, _⟩ => ⟨S_, .f32⟩
  | .hbm, ⟨68, _⟩ => ⟨S18432x6x8, .f32⟩
  | .hbm, ⟨69, _⟩ => ⟨S18432x6x8x1, .f32⟩
  | .hbm, ⟨70, _⟩ => ⟨S18432x6x8x1, .f32⟩
  | .hbm, ⟨71, _⟩ => ⟨S_, .f32⟩
  | .hbm, ⟨72, _⟩ => ⟨S18432x6x8x1, .f32⟩
  | .hbm, ⟨73, _⟩ => ⟨S18432x6x8x1, .f32⟩
  | .hbm, ⟨74, _⟩ => ⟨S18432x6x8x64, .f32⟩
  | .hbm, ⟨75, _⟩ => ⟨S18432x6x8x64, .f32⟩
  | .hbm, ⟨76, _⟩ => ⟨S18432x6x8x64, .f32⟩
  | .hbm, ⟨77, _⟩ => ⟨S_, .f32⟩
  | .hbm, ⟨78, _⟩ => ⟨S18432x6x8, .f32⟩
  | .hbm, ⟨79, _⟩ => ⟨S18432x6x8x1, .f32⟩
  | .hbm, ⟨80, _⟩ => ⟨S18432x6x8x1, .f32⟩
  | .hbm, ⟨81, _⟩ => ⟨S_, .f32⟩
  | .hbm, ⟨82, _⟩ => ⟨S18432x6x8x1, .f32⟩
  | .hbm, ⟨83, _⟩ => ⟨S18432x6x8x1, .f32⟩
  | .hbm, ⟨84, _⟩ => ⟨S18432x6x8x64, .f32⟩
  | .hbm, ⟨85, _⟩ => ⟨S18432x6x8x64, .f32⟩
  | .hbm, ⟨86, _⟩ => ⟨S18432x6x8x8, .f32⟩
  | .hbm, ⟨87, _⟩ => ⟨S1x6x1x1, .f32⟩
  | .hbm, ⟨88, _⟩ => ⟨S18432x6x8x8, .f32⟩
  | .hbm, ⟨89, _⟩ => ⟨S18432x6x8x8, .f32⟩
  | .hbm, ⟨90, _⟩ => ⟨S_, .f32⟩
  | .hbm, ⟨91, _⟩ => ⟨S18432x6x8, .f32⟩
  | .hbm, ⟨92, _⟩ => ⟨S_, .f32⟩
  | .hbm, ⟨93, _⟩ => ⟨S18432x6x8, .f32⟩
  | .hbm, ⟨94, _⟩ => ⟨S18432x6x8, .f32⟩
  | .hbm, ⟨95, _⟩ => ⟨S18432x6x8x1, .f32⟩
  | .hbm, ⟨96, _⟩ => ⟨S18432x6x8x8, .f32⟩
  | .hbm, ⟨97, _⟩ => ⟨S18432x6x8x8, .f32⟩
  | .hbm, ⟨98, _⟩ => ⟨S18432x6x8x8, .f32⟩
  | .hbm, ⟨99, _⟩ => ⟨S_, .f32⟩
  | .hbm, ⟨100, _⟩ => ⟨S18432x6x8, .f32⟩
  | .hbm, ⟨101, _⟩ => ⟨S18432x6x8x1, .f32⟩
  | .hbm, ⟨102, _⟩ => ⟨S18432x6x8x8, .f32⟩
  | .hbm, ⟨103, _⟩ => ⟨S18432x6x8x8, .f32⟩
  | .hbm, ⟨104, _⟩ => ⟨S4608x6x32x64, .f32⟩
  | .hbm, ⟨105, _⟩ => ⟨S2x8x24x12x6x4x8x64, .f32⟩
  | .hbm, ⟨106, _⟩ => ⟨S2x24x4x12x8x6x8x64, .f32⟩
  | .hbm, ⟨107, _⟩ => ⟨S18432x6x8x64, .f32⟩
  | .hbm, ⟨108, _⟩ => ⟨S18432x6x8x64, .f32⟩
  | .hbm, ⟨109, _⟩ => ⟨S2x24x4x12x8x6x8x64, .f32⟩
  | .hbm, ⟨110, _⟩ => ⟨S2x6x64x8x24x4x12x8, .f32⟩
  | .hbm, ⟨111, _⟩ => ⟨S2x384x8x96x96, .f32⟩
  | _, _ => ⟨S2x384x8x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]

class Facts₀ : Prop where
  shapeCasts_S2x384x8x96x96_S2x6x64x8x24x4x12x8 : S2x384x8x96x96.ShapeCasts S2x6x64x8x24x4x12x8
  transposes_S2x6x64x8x24x4x12x8_S2x8x24x12x6x4x8x64_0_3_4_6_1_5_7_2 : S2x6x64x8x24x4x12x8.Transposes [0, 3, 4, 6, 1, 5, 7, 2] S2x8x24x12x6x4x8x64
  shapeCasts_S2x8x24x12x6x4x8x64_S4608x6x32x64 : S2x8x24x12x6x4x8x64.ShapeCasts S4608x6x32x64
  shapeCasts_S2x384x8x96x96_S2x6x64x8x96x96 : S2x384x8x96x96.ShapeCasts S2x6x64x8x96x96
  transposes_S2x6x64x8x96x96_S2x96x96x6x8x64_0_4_5_1_3_2 : S2x6x64x8x96x96.Transposes [0, 4, 5, 1, 3, 2] S2x96x96x6x8x64
  shapeCasts_S2x96x96x6x8x64_S18432x6x8x64 : S2x96x96x6x8x64.ShapeCasts S18432x6x8x64
  bcast_S_S6x1x1 : S_.BroadcastsInDim S6x1x1 (![] : Fin 0 → Fin S6x1x1.rank)
  reducesTo_S4608x6x32x64_S4608x6x32_d3 : S4608x6x32x64.ReducesTo [3] S4608x6x32
  h_S_ : 0 < S_.numel
  bcast_S4608x6x32_S4608x6x32x1_0_1_2 : S4608x6x32.BroadcastsInDim S4608x6x32x1 (![0, 1, 2] : Fin 3 → Fin S4608x6x32x1.rank)
  bcast_S_S4608x6x32x1 : S_.BroadcastsInDim S4608x6x32x1 (![] : Fin 0 → Fin S4608x6x32x1.rank)
  bcast_S4608x6x32x1_S4608x6x32x64_0_1_2_3 : S4608x6x32x1.BroadcastsInDim S4608x6x32x64 (![0, 1, 2, 3] : Fin 4 → Fin S4608x6x32x64.rank)
  bcast_S6x1x1_S1x6x1x1_1_2_3 : S6x1x1.BroadcastsInDim S1x6x1x1 (![1, 2, 3] : Fin 3 → Fin S1x6x1x1.rank)
  bcast_S1x6x1x1_S4608x6x32x32_0_1_2_3 : S1x6x1x1.BroadcastsInDim S4608x6x32x32 (![0, 1, 2, 3] : Fin 4 → Fin S4608x6x32x32.rank)
  reducesTo_S4608x6x32x32_S4608x6x32_d3 : S4608x6x32x32.ReducesTo [3] S4608x6x32
  bcast_S_S4608x6x32 : S_.BroadcastsInDim S4608x6x32 (![] : Fin 0 → Fin S4608x6x32.rank)
  bcast_S4608x6x32x1_S4608x6x32x32_0_1_2_3 : S4608x6x32x1.BroadcastsInDim S4608x6x32x32 (![0, 1, 2, 3] : Fin 4 → Fin S4608x6x32x32.rank)
  reducesTo_S18432x6x8x64_S18432x6x8_d3 : S18432x6x8x64.ReducesTo [3] S18432x6x8
  bcast_S18432x6x8_S18432x6x8x1_0_1_2 : S18432x6x8.BroadcastsInDim S18432x6x8x1 (![0, 1, 2] : Fin 3 → Fin S18432x6x8x1.rank)
  bcast_S_S18432x6x8x1 : S_.BroadcastsInDim S18432x6x8x1 (![] : Fin 0 → Fin S18432x6x8x1.rank)
  bcast_S18432x6x8x1_S18432x6x8x64_0_1_2_3 : S18432x6x8x1.BroadcastsInDim S18432x6x8x64 (![0, 1, 2, 3] : Fin 4 → Fin S18432x6x8x64.rank)
  bcast_S1x6x1x1_S18432x6x8x8_0_1_2_3 : S1x6x1x1.BroadcastsInDim S18432x6x8x8 (![0, 1, 2, 3] : Fin 4 → Fin S18432x6x8x8.rank)
  reducesTo_S18432x6x8x8_S18432x6x8_d3 : S18432x6x8x8.ReducesTo [3] S18432x6x8
  bcast_S_S18432x6x8 : S_.BroadcastsInDim S18432x6x8 (![] : Fin 0 → Fin S18432x6x8.rank)
  bcast_S18432x6x8x1_S18432x6x8x8_0_1_2_3 : S18432x6x8x1.BroadcastsInDim S18432x6x8x8 (![0, 1, 2, 3] : Fin 4 → Fin S18432x6x8x8.rank)
  shapeCasts_S4608x6x32x64_S2x8x24x12x6x4x8x64 : S4608x6x32x64.ShapeCasts S2x8x24x12x6x4x8x64
  transposes_S2x8x24x12x6x4x8x64_S2x24x4x12x8x6x8x64_0_2_5_3_6_4_1_7 : S2x8x24x12x6x4x8x64.Transposes [0, 2, 5, 3, 6, 4, 1, 7] S2x24x4x12x8x6x8x64
  shapeCasts_S2x24x4x12x8x6x8x64_S18432x6x8x64 : S2x24x4x12x8x6x8x64.ShapeCasts S18432x6x8x64
  shapeCasts_S18432x6x8x64_S2x24x4x12x8x6x8x64 : S18432x6x8x64.ShapeCasts S2x24x4x12x8x6x8x64
  transposes_S2x24x4x12x8x6x8x64_S2x6x64x8x24x4x12x8_0_5_7_6_1_2_3_4 : S2x24x4x12x8x6x8x64.Transposes [0, 5, 7, 6, 1, 2, 3, 4] S2x6x64x8x24x4x12x8
  shapeCasts_S2x6x64x8x24x4x12x8_S2x384x8x96x96 : S2x6x64x8x24x4x12x8.ShapeCasts S2x384x8x96x96
  dot_S4608x6x32x64_S4608x6x32x64_S4608x6x32x32_3_3_2_2_01_01_wf : DotDims.WF S4608x6x32x64 S4608x6x32x64 S4608x6x32x32 [3] [3] [2] [2] [0, 1] [0, 1]
  dot_S18432x6x8x64_S18432x6x8x64_S18432x6x8x8_3_3_2_2_01_01_wf : DotDims.WF S18432x6x8x64 S18432x6x8x64 S18432x6x8x8 [3] [3] [2] [2] [0, 1] [0, 1]
  dot_S4608x6x32x32_S4608x6x32x64_S4608x6x32x64_3_2_2_3_01_01_wf : DotDims.WF S4608x6x32x32 S4608x6x32x64 S4608x6x32x64 [3] [2] [2] [3] [0, 1] [0, 1]
  dot_S18432x6x8x8_S18432x6x8x64_S18432x6x8x64_3_2_2_3_01_01_wf : DotDims.WF S18432x6x8x8 S18432x6x8x64 S18432x6x8x64 [3] [2] [2] [3] [0, 1] [0, 1]

variable [Facts₀]

def dot_S4608x6x32x64_S4608x6x32x64_S4608x6x32x32_3_3_2_2_01_01 : DotDims S4608x6x32x64 S4608x6x32x64 S4608x6x32x32 where
  lhsContracting := [3]
  rhsContracting := [3]
  lhsNonContracting := [2]
  rhsNonContracting := [2]
  lhsBatch := [0, 1]
  rhsBatch := [0, 1]
  wf := dot_S4608x6x32x64_S4608x6x32x64_S4608x6x32x32_3_3_2_2_01_01_wf
def dot_S18432x6x8x64_S18432x6x8x64_S18432x6x8x8_3_3_2_2_01_01 : DotDims S18432x6x8x64 S18432x6x8x64 S18432x6x8x8 where
  lhsContracting := [3]
  rhsContracting := [3]
  lhsNonContracting := [2]
  rhsNonContracting := [2]
  lhsBatch := [0, 1]
  rhsBatch := [0, 1]
  wf := dot_S18432x6x8x64_S18432x6x8x64_S18432x6x8x8_3_3_2_2_01_01_wf
def dot_S4608x6x32x32_S4608x6x32x64_S4608x6x32x64_3_2_2_3_01_01 : DotDims S4608x6x32x32 S4608x6x32x64 S4608x6x32x64 where
  lhsContracting := [3]
  rhsContracting := [2]
  lhsNonContracting := [2]
  rhsNonContracting := [3]
  lhsBatch := [0, 1]
  rhsBatch := [0, 1]
  wf := dot_S4608x6x32x32_S4608x6x32x64_S4608x6x32x64_3_2_2_3_01_01_wf
def dot_S18432x6x8x8_S18432x6x8x64_S18432x6x8x64_3_2_2_3_01_01 : DotDims S18432x6x8x8 S18432x6x8x64 S18432x6x8x64 where
  lhsContracting := [3]
  rhsContracting := [2]
  lhsNonContracting := [2]
  rhsNonContracting := [3]
  lhsBatch := [0, 1]
  rhsBatch := [0, 1]
  wf := dot_S18432x6x8x8_S18432x6x8x64_S18432x6x8x64_3_2_2_3_01_01_wf

class Facts : Prop extends Facts₀ where

variable [Facts]
-- ==== Proof.AttnSpec.lean ====
/-
  Cosine attention of one head over one group of `L` positions with `C` channels, on the extended reals.

  A row of `q` (and of `k`) is divided by its Euclidean norm, the norm floored at the f32 word 0x2B8CBCCC (the
  rounding of 1e-12). The logit of positions `(r, j)` is the inner product of the two unit rows times the head's
  scale `s`. A row of logits is shifted by its maximum (taken from minus infinity, the word 0xFF800000),
  exponentiated and divided by the row's sum of exponentials; the result at `(r, c)` is the weighted sum of
  column `c` of `v`. `attnArr` is the same for every group `n` and head `d` of a four-axis array
  `[N, D, L, C]`, the scale of head `d` read from a `[D, 1, 1]` array.
-/
import Idealize.ShloMosaic.PureOps.Ideal
import Idealize.ShloMosaic.Lib.ValueIdx

noncomputable section

open scoped BigOperators

namespace Cert.Attn

open Idealize.ShloMosaic Idealize.ShloMosaic.ValueIdx

variable {L C : ℕ}

/-- The Euclidean norm of row `r`, floored at the word 0x2B8CBCCC. -/
def floorNorm (x : Fin L → Fin C → EReal) (r : Fin L) : EReal :=
  max (Ideal.sqrt (∑ c : Fin C, x r c * x r c)) (Ideal.ofBits .f32 0x2B8CBCCC#32)

/-- Row `r` divided by its floored norm. -/
def unitRow (x : Fin L → Fin C → EReal) (r : Fin L) (c : Fin C) : EReal :=
  Ideal.div (x r c) (floorNorm x r)

/-- The scaled cosine of row `r` of `q` and row `j` of `k`. -/
def logit (q k : Fin L → Fin C → EReal) (s : EReal) (r j : Fin L) : EReal :=
  (∑ c : Fin C, unitRow q r c * unitRow k j c) * s

/-- The largest logit of row `r`, taken from minus infinity. -/
def rowMax (q k : Fin L → Fin C → EReal) (s : EReal) (r : Fin L) : EReal :=
  max (Ideal.ofBits .f32 0xFF800000#32)
    ((Finset.univ : Finset (Fin L)).fold max (Ideal.ofBits .f32 0xFF800000#32) (fun j => logit q k s r j))

/-- The exponential of a logit shifted by its row's maximum. -/
def expo (q k : Fin L → Fin C → EReal) (s : EReal) (r j : Fin L) : EReal :=
  Ideal.exp (logit q k s r j - rowMax q k s r)

/-- The softmax weight of position `j` in row `r`. -/
def weight (q k : Fin L → Fin C → EReal) (s : EReal) (r j : Fin L) : EReal :=
  Ideal.div (expo q k s r j) (∑ j' : Fin L, expo q k s r j')

/-- The attention output at position `r`, channel `c`. -/
def attnAt (q k v : Fin L → Fin C → EReal) (s : EReal) (r : Fin L) (c : Fin C) : EReal :=
  ∑ j : Fin L, weight q k s r j * v j c

/-- Attention of every group `n` and head `d` of `[N, D, L, C]` arrays, head `d`'s scale at `(d, 0, 0)`. -/
def attnArr (N D L C : ℕ) (q k v : (⟨4, ![N, D, L, C]⟩ : Shape).Idx → EReal)
    (s : (⟨3, ![D, 1, 1]⟩ : Shape).Idx → EReal) : (⟨4, ![N, D, L, C]⟩ : Shape).Idx → EReal :=
  fun i =>
    let n : Fin N := i 0
    let d : Fin D := i 1
    let r : Fin L := i 2
    let c : Fin C := i 3
    attnAt (fun r c => q (ix4 n d r c)) (fun j c => k (ix4 n d j c)) (fun j c => v (ix4 n d j c))
      (s (ix3 d (0 : Fin 1) (0 : Fin 1))) r c

/-- `attnArr` at the index `(n, d, r, c)`. -/
theorem attnArr_ix4 (N D L C : ℕ) (q k v : (⟨4, ![N, D, L, C]⟩ : Shape).Idx → EReal)
    (s : (⟨3, ![D, 1, 1]⟩ : Shape).Idx → EReal) (n : Fin N) (d : Fin D) (r : Fin L) (c : Fin C) :
    attnArr N D L C q k v s (ix4 n d r c)
      = attnAt (fun r c => q (ix4 n d r c)) (fun j c => k (ix4 n d j c)) (fun j c => v (ix4 n d j c))
          (s (ix3 d (0 : Fin 1) (0 : Fin 1))) r c := rfl

end Cert.Attn

end
-- ==== Proof.LibLastAxis3.lean ====
/-
  Reading rank-3 arrays whose LAST axis is reduced, cast away, or broadcast, at an index written by coordinates.

  For extents `A`, `B`, `C`: the sum and the maximum over the last axis of an `[A, B, C]` array read at `(a, b)`; the
  cast `[A, B] → [A, B, 1]`; the broadcasts `[A, B, 1] → [A, B, C]` and `[1, 1, 1] → [A, B, C]`; and the casts that drop or
  add a unit SECOND axis, `[A, 1, B, C] ↔ [A, B, C]`. Every index is `ix2` / `ix3` / `ix4` of `Fin` variables.
-/
import Idealize.ShloMosaic.Lib.ValueIdx
import Idealize.ShloMosaic.Lib.Pipeline.Value
import Idealize.ShloMosaic.PureOps.Ideal.Laws

noncomputable section

open scoped BigOperators

namespace Cert.LastAxis3

open Idealize.ShloMosaic Idealize.ShloMosaic.ValueIdx

variable {A B C : ℕ}

/-- The index of `[A, B, C]` over `(a, b)` with `k` inserted on the dropped last axis is `(a, b, k)`. -/
theorem lift_last (h : (⟨3, ![A, B, C]⟩ : Shape).Reduces [2] ⟨2, ![A, B]⟩) (a : Fin A) (b : Fin B) (k : Fin C) :
    h.lift (ix2 a b) k = ix3 a b k := by
  funext d
  refine Fin.ext ?_
  match d with
  | ⟨0, _⟩ => rfl
  | ⟨1, _⟩ => rfl
  | ⟨2, _⟩ => rfl

/-- The sum over the last axis of an `[A, B, C]` array, read at `(a, b)`: the sum over `k` of the array at `(a, b, k)`. -/
theorem sum_last {φ : FTy} (src : FVec Ideal ⟨3, ![A, B, C]⟩ φ) (acc : BitVec φ.bits)
    (h : (⟨3, ![A, B, C]⟩ : Shape).Reduces [2] ⟨2, ![A, B]⟩) (hφ : FKind.Formats φ) (hacc : acc = FKind.add.neutral φ hφ)
    (a : Fin A) (b : Fin B) :
    multiReduction (F := Ideal) .add [2] ⟨2, ![A, B]⟩ src acc h hφ hacc (ix2 a b) = ∑ k : Fin C, src (ix3 a b k) := by
  refine (Ideal.multiReduction_add_single src acc h hφ hacc (ix2 a b)).trans ?_
  exact Finset.sum_congr rfl fun k _ => congrArg src (lift_last h a b k)

/-- The maximum over the last axis of an `[A, B, C]` array from the accumulator's value, read at `(a, b)`: the fold of
    `max` over `k` of the array at `(a, b, k)`. -/
theorem max_last {φ : FTy} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.maximumf.neutral φ hφ) (a : Fin A) (b : Fin B) :
    multiReduction (F := Ideal) .maximumf [2] ⟨2, ![A, B]⟩ src acc h hφ hacc (ix2 a b)
      = (Finset.univ : Finset (Fin C)).fold max (Ideal.ofBits φ acc) (fun k => src (ix3 a b k)) := by
  refine (Ideal.multiReduction_maximumf_single src acc h hφ hacc (ix2 a b)).trans ?_
  exact congrArg (fun f => (Finset.univ : Finset (Fin C)).fold max (Ideal.ofBits φ acc) f)
    (funext fun k => congrArg src (lift_last h a b k))

variable {α : Type}

/-- An `[A, B]` array cast to `[A, B, 1]` reads, at `(a, b, q)`, the operand at `(a, b)`. -/
theorem cast_ab_ab1 (x : (⟨2, ![A, B]⟩ : Shape).Idx → α) (h : (⟨2, ![A, B]⟩ : Shape).ShapeCasts ⟨3, ![A, B, 1]⟩)
    (a : Fin A) (b : Fin B) (q : Fin 1) : shapeCast ⟨3, ![A, B, 1]⟩ x h (ix3 a b q) = x (ix2 a b) :=
  shapeCast_apply x h _ _ (by
    have hq : q.val = 0 := by omega
    rw [Shape.rowMajor_val_three, Shape.rowMajor_val_two]
    show a.val * B + b.val = (a.val * B + b.val) * 1 + q.val
    rw [hq, Nat.mul_one, Nat.add_zero])

/-- An `[A, B, 1]` array broadcast to `[A, B, C]` reads, at `(a, b, c)`, the operand at `(a, b, 0)`. -/
theorem bcast_ab1_abc (x : (⟨3, ![A, B, 1]⟩ : Shape).Idx → α) (h : (⟨3, ![A, B, 1]⟩ : Shape).Broadcasts ⟨3, ![A, B, C]⟩)
    (a : Fin A) (b : Fin B) (c : Fin C) : broadcastTo ⟨3, ![A, B, C]⟩ x h (ix3 a b c) = x (ix3 a b (0 : Fin 1)) := by
  refine broadcastTo_apply x h (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- A `[1, 1, 1]` array broadcast to `[A, B, C]` reads its one element everywhere. -/
theorem bcast_111_abc (x : (⟨3, ![1, 1, 1]⟩ : Shape).Idx → α) (h : (⟨3, ![1, 1, 1]⟩ : Shape).Broadcasts ⟨3, ![A, B, C]⟩)
    (a : Fin A) (b : Fin B) (c : Fin C) :
    broadcastTo ⟨3, ![A, B, C]⟩ x h (ix3 a b c) = x (ix3 (0 : Fin 1) (0 : Fin 1) (0 : Fin 1)) := by
  refine broadcastTo_apply x h (ix3 a b c) (ix3 (0 : Fin 1) (0 : Fin 1) (0 : Fin 1)) fun ax => ?_
  match ax with
  | ⟨0, _⟩ => rfl
  | ⟨1, _⟩ => rfl
  | ⟨2, _⟩ => rfl

/-- An `[A, 1, B, C]` array cast to `[A, B, C]` reads, at `(a, b, c)`, the operand at `(a, 0, b, c)`. -/
theorem cast_a1bc_abc (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- An `[A, B, C]` array cast to `[A, 1, B, C]` reads, at `(a, u, b, c)`, the operand at `(a, b, c)`. -/
theorem cast_abc_a1bc (x : (⟨3, ![A, B, C]⟩ : Shape).Idx → α)
    (h : (⟨3, ![A, B, C]⟩ : Shape).ShapeCasts ⟨4, ![A, 1, B, C]⟩) (a : Fin A) (u : Fin 1) (b : Fin B) (c : Fin C) :
    shapeCast ⟨4, ![A, 1, B, C]⟩ x h (ix4 a u b c) = x (ix3 a b c) :=
  shapeCast_apply x h _ _ (by
    have hu : u.val = 0 := by omega
    rw [Shape.rowMajor_val_four, Shape.rowMajor_val_three]
    show (a.val * B + b.val) * C + c.val = ((a.val * 1 + u.val) * B + b.val) * C + c.val
    rw [hu, Nat.mul_one, Nat.add_zero])

end Cert.LastAxis3

end
-- ==== Proof.KerBody0.lean ====
/-
  The attention kernel's one stored value at `F := Ideal`, read at a block index `(n, 0, r, c)`: the cosine attention of
  row-group `n` of the three loaded blocks under the one loaded scale.

  The body is read stage by stage. `unitArr` divides every row of a `[256, 32, 64]` block by its floored Euclidean norm;
  `logitArr` contracts the channel axis of two such blocks and multiplies by the scale; `expArr` shifts a row of logits
  by its maximum (taken from minus infinity) and exponentiates. The stored value divides a row of exponentials by its
  sum and contracts it against the value block. Each stage read at `(n, r, ·)` is the matching definition of
  `Cert.Attn` on row-group `n`.
-/
import proofs.«164915_j68642167324784_1_alg».proof.Proof.Gen.KernelIdeal.Skeleton
import proofs.«164915_j68642167324784_1_alg».proof.Proof.AttnSpec
import proofs.«164915_j68642167324784_1_alg».proof.Proof.LibLastAxis3
import Idealize.ShloMosaic.Lib.ValueIdx
import Idealize.ShloMosaic.Lib.Pipeline.Value
import Idealize.ShloMosaic.PureOps.Ideal.Laws

noncomputable section

open scoped BigOperators

namespace Cert.KernelIdeal.Body0

open Cert.KernelIdeal Cert.KernelIdeal.Gen Idealize.ShloMosaic Idealize.ShloMosaic.ValueIdx Cert.LastAxis3

/-! ## The two contractions' operand indices, axis by axis -/

/-- First contraction, left operand: the batch axis reads the result's axis 0. -/
theorem lhs1_0 (i : S256x32x32.Idx) (q : dot_S256x32x64_S256x32x64_S256x32x32_2_2_1_1_0_0.contr.Idx) :
    (dot_S256x32x64_S256x32x64_S256x32x32_2_2_1_1_0_0.lhsIdx i q 0).val = (i 0).val := by
  unfold DotDims.lhsIdx
  rw [dif_pos (show (0 : Fin S256x32x64.rank) ∈ dot_S256x32x64_S256x32x64_S256x32x32_2_2_1_1_0_0.lhsBatch by decide)]
  rfl
/-- First contraction, left operand: the row axis reads the result's axis 1. -/
theorem lhs1_1 (i : S256x32x32.Idx) (q : dot_S256x32x64_S256x32x64_S256x32x32_2_2_1_1_0_0.contr.Idx) :
    (dot_S256x32x64_S256x32x64_S256x32x32_2_2_1_1_0_0.lhsIdx i q 1).val = (i 1).val := by
  unfold DotDims.lhsIdx
  rw [dif_neg (show ¬(1 : Fin S256x32x64.rank) ∈ dot_S256x32x64_S256x32x64_S256x32x32_2_2_1_1_0_0.lhsBatch by decide), dif_pos (show (1 : Fin S256x32x64.rank) ∈ dot_S256x32x64_S256x32x64_S256x32x32_2_2_1_1_0_0.lhsNonContracting by decide)]
  rfl
/-- First contraction, left operand: the channel axis reads the contraction position. -/
theorem lhs1_2 (i : S256x32x32.Idx) (q : dot_S256x32x64_S256x32x64_S256x32x32_2_2_1_1_0_0.contr.Idx) :
    (dot_S256x32x64_S256x32x64_S256x32x32_2_2_1_1_0_0.lhsIdx i q 2).val = (q ⟨0, by decide⟩).val :=
  dot_S256x32x64_S256x32x64_S256x32x32_2_2_1_1_0_0.lhsIdx_val_of_single rfl i q
/-- First contraction, right operand: the batch axis reads the result's axis 0. -/
theorem rhs1_0 (i : S256x32x32.Idx) (q : dot_S256x32x64_S256x32x64_S256x32x32_2_2_1_1_0_0.contr.Idx) :
    (dot_S256x32x64_S256x32x64_S256x32x32_2_2_1_1_0_0.rhsIdx i q 0).val = (i 0).val := by
  unfold DotDims.rhsIdx
  rw [dif_pos (show (0 : Fin S256x32x64.rank) ∈ dot_S256x32x64_S256x32x64_S256x32x32_2_2_1_1_0_0.rhsBatch by decide)]
  rfl
/-- First contraction, right operand: the row axis reads the result's axis 2. -/
theorem rhs1_1 (i : S256x32x32.Idx) (q : dot_S256x32x64_S256x32x64_S256x32x32_2_2_1_1_0_0.contr.Idx) :
    (dot_S256x32x64_S256x32x64_S256x32x32_2_2_1_1_0_0.rhsIdx i q 1).val = (i 2).val := by
  unfold DotDims.rhsIdx
  rw [dif_neg (show ¬(1 : Fin S256x32x64.rank) ∈ dot_S256x32x64_S256x32x64_S256x32x32_2_2_1_1_0_0.rhsBatch by decide), dif_pos (show (1 : Fin S256x32x64.rank) ∈ dot_S256x32x64_S256x32x64_S256x32x32_2_2_1_1_0_0.rhsNonContracting by decide)]
  rfl
/-- First contraction, right operand: the channel axis reads the contraction position. -/
theorem rhs1_2 (i : S256x32x32.Idx) (q : dot_S256x32x64_S256x32x64_S256x32x32_2_2_1_1_0_0.contr.Idx) :
    (dot_S256x32x64_S256x32x64_S256x32x32_2_2_1_1_0_0.rhsIdx i q 2).val = (q ⟨0, by decide⟩).val :=
  dot_S256x32x64_S256x32x64_S256x32x32_2_2_1_1_0_0.rhsIdx_val_of_single rfl i q

/-- Second contraction, left operand: the batch axis reads the result's axis 0. -/
theorem lhs2_0 (i : S256x32x64.Idx) (q : dot_S256x32x32_S256x32x64_S256x32x64_2_1_1_2_0_0.contr.Idx) :
    (dot_S256x32x32_S256x32x64_S256x32x64_2_1_1_2_0_0.lhsIdx i q 0).val = (i 0).val := by
  unfold DotDims.lhsIdx
  rw [dif_pos (show (0 : Fin S256x32x32.rank) ∈ dot_S256x32x32_S256x32x64_S256x32x64_2_1_1_2_0_0.lhsBatch by decide)]
  rfl
/-- Second contraction, left operand: the row axis reads the result's axis 1. -/
theorem lhs2_1 (i : S256x32x64.Idx) (q : dot_S256x32x32_S256x32x64_S256x32x64_2_1_1_2_0_0.contr.Idx) :
    (dot_S256x32x32_S256x32x64_S256x32x64_2_1_1_2_0_0.lhsIdx i q 1).val = (i 1).val := by
  unfold DotDims.lhsIdx
  rw [dif_neg (show ¬(1 : Fin S256x32x32.rank) ∈ dot_S256x32x32_S256x32x64_S256x32x64_2_1_1_2_0_0.lhsBatch by decide), dif_pos (show (1 : Fin S256x32x32.rank) ∈ dot_S256x32x32_S256x32x64_S256x32x64_2_1_1_2_0_0.lhsNonContracting by decide)]
  rfl
/-- Second contraction, left operand: the position axis reads the contraction position. -/
theorem lhs2_2 (i : S256x32x64.Idx) (q : dot_S256x32x32_S256x32x64_S256x32x64_2_1_1_2_0_0.contr.Idx) :
    (dot_S256x32x32_S256x32x64_S256x32x64_2_1_1_2_0_0.lhsIdx i q 2).val = (q ⟨0, by decide⟩).val :=
  dot_S256x32x32_S256x32x64_S256x32x64_2_1_1_2_0_0.lhsIdx_val_of_single rfl i q
/-- Second contraction, right operand: the batch axis reads the result's axis 0. -/
theorem rhs2_0 (i : S256x32x64.Idx) (q : dot_S256x32x32_S256x32x64_S256x32x64_2_1_1_2_0_0.contr.Idx) :
    (dot_S256x32x32_S256x32x64_S256x32x64_2_1_1_2_0_0.rhsIdx i q 0).val = (i 0).val := by
  unfold DotDims.rhsIdx
  rw [dif_pos (show (0 : Fin S256x32x64.rank) ∈ dot_S256x32x32_S256x32x64_S256x32x64_2_1_1_2_0_0.rhsBatch by decide)]
  rfl
/-- Second contraction, right operand: the position axis reads the contraction position. -/
theorem rhs2_1 (i : S256x32x64.Idx) (q : dot_S256x32x32_S256x32x64_S256x32x64_2_1_1_2_0_0.contr.Idx) :
    (dot_S256x32x32_S256x32x64_S256x32x64_2_1_1_2_0_0.rhsIdx i q 1).val = (q ⟨0, by decide⟩).val :=
  dot_S256x32x32_S256x32x64_S256x32x64_2_1_1_2_0_0.rhsIdx_val_of_single rfl i q
/-- Second contraction, right operand: the channel axis reads the result's axis 2. -/
theorem rhs2_2 (i : S256x32x64.Idx) (q : dot_S256x32x32_S256x32x64_S256x32x64_2_1_1_2_0_0.contr.Idx) :
    (dot_S256x32x32_S256x32x64_S256x32x64_2_1_1_2_0_0.rhsIdx i q 2).val = (i 2).val := by
  unfold DotDims.rhsIdx
  rw [dif_neg (show ¬(2 : Fin S256x32x64.rank) ∈ dot_S256x32x32_S256x32x64_S256x32x64_2_1_1_2_0_0.rhsBatch by decide), dif_pos (show (2 : Fin S256x32x64.rank) ∈ dot_S256x32x32_S256x32x64_S256x32x64_2_1_1_2_0_0.rhsNonContracting by decide)]
  rfl

/-- The first contraction into the zero block, at `(n, r, j)`: the inner product of row `r` of the left block and row
    `j` of the right block of group `n`. -/
theorem matmul1_apply (P Q : FVec Ideal S256x32x64 .f32) (n : Fin 256) (r j : Fin 32) :
    matmul dot_S256x32x64_S256x32x64_S256x32x32_2_2_1_1_0_0 none P Q (constant S256x32x32 .f32 0x00000000#32) (ix3 n r j)
      = ∑ k : Fin 64, P (ix3 n r k) * Q (ix3 n j k) := by
  refine (Ideal.matmul_constant_zero_apply dot_S256x32x64_S256x32x64_S256x32x32_2_2_1_1_0_0 none P Q (ix3 n r j)).trans ?_
  rw [← Equiv.sum_comp (contrEquiv1 dot_S256x32x64_S256x32x64_S256x32x32_2_2_1_1_0_0 64 rfl rfl).symm]
  refine Finset.sum_congr rfl fun k _ => ?_
  have hk := contrEquiv1_symm_val dot_S256x32x64_S256x32x64_S256x32x32_2_2_1_1_0_0 64 rfl rfl k
  have el : dot_S256x32x64_S256x32x64_S256x32x32_2_2_1_1_0_0.lhsIdx (ix3 n r j) ((contrEquiv1 dot_S256x32x64_S256x32x64_S256x32x32_2_2_1_1_0_0 64 rfl rfl).symm k) = ix3 n r k :=
    funext fun a => Fin.ext (by
      match a with
      | ⟨0, _⟩ => exact lhs1_0 _ _
      | ⟨1, _⟩ => exact lhs1_1 _ _
      | ⟨2, _⟩ => exact (lhs1_2 _ _).trans hk)
  have er : dot_S256x32x64_S256x32x64_S256x32x32_2_2_1_1_0_0.rhsIdx (ix3 n r j) ((contrEquiv1 dot_S256x32x64_S256x32x64_S256x32x32_2_2_1_1_0_0 64 rfl rfl).symm k) = ix3 n j k :=
    funext fun a => Fin.ext (by
      match a with
      | ⟨0, _⟩ => exact rhs1_0 _ _
      | ⟨1, _⟩ => exact rhs1_1 _ _
      | ⟨2, _⟩ => exact (rhs1_2 _ _).trans hk)
  rw [el, er]

/-- The second contraction into the zero block, at `(n, r, c)`: row `r` of the left block against column `c` of the
    right block of group `n`. -/
theorem matmul2_apply (W : FVec Ideal S256x32x32 .f32) (V : FVec Ideal S256x32x64 .f32) (n : Fin 256) (r : Fin 32) (c : Fin 64) :
    matmul dot_S256x32x32_S256x32x64_S256x32x64_2_1_1_2_0_0 none W V (constant S256x32x64 .f32 0x00000000#32) (ix3 n r c)
      = ∑ k : Fin 32, W (ix3 n r k) * V (ix3 n k c) := by
  refine (Ideal.matmul_constant_zero_apply dot_S256x32x32_S256x32x64_S256x32x64_2_1_1_2_0_0 none W V (ix3 n r c)).trans ?_
  rw [← Equiv.sum_comp (contrEquiv1 dot_S256x32x32_S256x32x64_S256x32x64_2_1_1_2_0_0 32 rfl rfl).symm]
  refine Finset.sum_congr rfl fun k _ => ?_
  have hk := contrEquiv1_symm_val dot_S256x32x32_S256x32x64_S256x32x64_2_1_1_2_0_0 32 rfl rfl k
  have el : dot_S256x32x32_S256x32x64_S256x32x64_2_1_1_2_0_0.lhsIdx (ix3 n r c) ((contrEquiv1 dot_S256x32x32_S256x32x64_S256x32x64_2_1_1_2_0_0 32 rfl rfl).symm k) = ix3 n r k :=
    funext fun a => Fin.ext (by
      match a with
      | ⟨0, _⟩ => exact lhs2_0 _ _
      | ⟨1, _⟩ => exact lhs2_1 _ _
      | ⟨2, _⟩ => exact (lhs2_2 _ _).trans hk)
  have er : dot_S256x32x32_S256x32x64_S256x32x64_2_1_1_2_0_0.rhsIdx (ix3 n r c) ((contrEquiv1 dot_S256x32x32_S256x32x64_S256x32x64_2_1_1_2_0_0 32 rfl rfl).symm k) = ix3 n k c :=
    funext fun a => Fin.ext (by
      match a with
      | ⟨0, _⟩ => exact rhs2_0 _ _
      | ⟨1, _⟩ => exact (rhs2_1 _ _).trans hk
      | ⟨2, _⟩ => exact rhs2_2 _ _)
  rw [el, er]

/-! ## The body's stages -/

/-- The loaded `[256, 1, 32, 64]` block with its unit axis dropped, at `(n, r, c)`: the block at `(n, 0, r, c)`. -/
theorem pay2_apply (x : Vec Ideal S256x1x32x64 .f32) (n : Fin 256) (r : Fin 32) (c : Fin 64) :
    k0_pay2 x (ix3 n r c) = x (ix4 n (0 : Fin 1) r c) :=
  cast_a1bc_abc x shapeCasts_S256x1x32x64_S256x32x64 n r c

/-- Every row of a block divided by its Euclidean norm, the norm floored at the word 0x2B8CBCCC. -/
def unitArr (y : FVec Ideal S256x32x64 .f32) : FVec Ideal S256x32x64 .f32 :=
  divf y (broadcastTo S256x32x64
    (maximumf
      (sqrt (shapeCast S256x32x1
        (multiReduction .add [2] S256x32 (mulf y y) 0x00000000#32 reduces_S256x32x64_S256x32 (.inl rfl) rfl)
        shapeCasts_S256x32_S256x32x1))
      (broadcast S256x32x1 (Scalar.ofBits .f32 0x2B8CBCCC#32)))
    broadcasts_S256x32x1_S256x32x64)

/-- `unitArr` at `(n, r, c)` is the unit row `r` of group `n` at channel `c`. -/
theorem unitArr_apply (y : FVec Ideal S256x32x64 .f32) (n : Fin 256) (r : Fin 32) (c : Fin 64) :
    unitArr y (ix3 n r c) = Cert.Attn.unitRow (fun r c => y (ix3 n r c)) r c := by
  unfold unitArr Cert.Attn.unitRow Cert.Attn.floorNorm
  refine congrArg (Ideal.div (y (ix3 n r c))) ?_
  refine (bcast_ab1_abc _ broadcasts_S256x32x1_S256x32x64 n r c).trans ?_
  refine congrArg (fun t => max (Ideal.sqrt t) (Ideal.ofBits .f32 0x2B8CBCCC#32)) ?_
  refine (cast_ab_ab1 _ shapeCasts_S256x32_S256x32x1 n r (0 : Fin 1)).trans ?_
  exact sum_last (mulf y y) 0x00000000#32 reduces_S256x32x64_S256x32 (.inl rfl) rfl n r

/-- The scaled inner products of the unit rows of two blocks: the logits. -/
def logitArr (y0 y1 : FVec Ideal S256x32x64 .f32) (s : Vec Ideal S1x1x1 .f32) : FVec Ideal S256x32x32 .f32 :=
  mulf
    (matmul dot_S256x32x64_S256x32x64_S256x32x32_2_2_1_1_0_0 none (unitArr y0) (unitArr y1) (constant S256x32x32 .f32 0x00000000#32))
    (broadcastTo S256x32x32
      (shapeCast S1x1x1 (shapeCast S1x1 s shapeCasts_S1x1x1_S1x1) shapeCasts_S1x1_S1x1x1)
      broadcasts_S1x1x1_S256x32x32)

/-- `logitArr` at `(n, r, j)` is the logit of positions `(r, j)` of group `n` under the one scale. -/
theorem logitArr_apply (y0 y1 : FVec Ideal S256x32x64 .f32) (s : Vec Ideal S1x1x1 .f32) (n : Fin 256) (r j : Fin 32) :
    logitArr y0 y1 s (ix3 n r j)
      = Cert.Attn.logit (fun r c => y0 (ix3 n r c)) (fun j c => y1 (ix3 n j c))
          (s (ix3 (0 : Fin 1) (0 : Fin 1) (0 : Fin 1))) r j := by
  unfold logitArr Cert.Attn.logit
  refine congrArg₂ (· * ·) ?_ ?_
  · refine (matmul1_apply (unitArr y0) (unitArr y1) n r j).trans ?_
    exact Finset.sum_congr rfl fun k _ => congrArg₂ (· * ·) (unitArr_apply y0 n r k) (unitArr_apply y1 n j k)
  · refine (bcast_111_abc _ broadcasts_S1x1x1_S256x32x32 n r j).trans ?_
    rw [shapeCast_shapeCast]

/-- A block of logits with every row shifted by its maximum (taken from minus infinity) and exponentiated. -/
def expArr (l : FVec Ideal S256x32x32 .f32) : FVec Ideal S256x32x32 .f32 :=
  exp (subf l (broadcastTo S256x32x32
    (shapeCast S256x32x1
      (maximumf (broadcast S256x32 (Scalar.ofBits .f32 0xFF800000#32))
        (multiReduction .maximumf [2] S256x32 l 0xFF800000#32 reduces_S256x32x32_S256x32 (.inl rfl) rfl))
      shapeCasts_S256x32_S256x32x1)
    broadcasts_S256x32x1_S256x32x32))

/-- `expArr` at `(n, r, j)`: the exponential of the entry less its row's maximum. -/
theorem expArr_apply (l : FVec Ideal S256x32x32 .f32) (n : Fin 256) (r j : Fin 32) :
    expArr l (ix3 n r j)
      = Ideal.exp (l (ix3 n r j) - max (Ideal.ofBits .f32 0xFF800000#32)
          ((Finset.univ : Finset (Fin 32)).fold max (Ideal.ofBits .f32 0xFF800000#32) (fun j' => l (ix3 n r j')))) := by
  unfold expArr
  refine congrArg (fun t => Ideal.exp (l (ix3 n r j) - t)) ?_
  refine (bcast_ab1_abc _ broadcasts_S256x32x1_S256x32x32 n r j).trans ?_
  refine (cast_ab_ab1 _ shapeCasts_S256x32_S256x32x1 n r (0 : Fin 1)).trans ?_
  refine congrArg (max (Ideal.ofBits .f32 0xFF800000#32)) ?_
  exact max_last l 0xFF800000#32 reduces_S256x32x32_S256x32 (.inl rfl) rfl n r

/-- The exponentials the body hands on are `expArr` of `logitArr` of the two blocks with their unit axes dropped. -/
theorem pay3_eq (x0 x1 : Vec Ideal S256x1x32x64 .f32) (x3 : Vec Ideal S1x1x1 .f32) :
    k0_pay3 x0 x1 x3 = expArr (logitArr (k0_pay2 x0) (k0_pay2 x1) x3) := rfl

/-- The exponentials at `(n, r, j)`: the shifted exponential of positions `(r, j)` of group `n`. -/
theorem pay3_apply (x0 x1 : Vec Ideal S256x1x32x64 .f32) (x3 : Vec Ideal S1x1x1 .f32) (n : Fin 256) (r j : Fin 32) :
    k0_pay3 x0 x1 x3 (ix3 n r j)
      = Cert.Attn.expo (fun r c => x0 (ix4 n (0 : Fin 1) r c)) (fun j c => x1 (ix4 n (0 : Fin 1) j c))
          (x3 (ix3 (0 : Fin 1) (0 : Fin 1) (0 : Fin 1))) r j := by
  rw [pay3_eq, expArr_apply]
  unfold Cert.Attn.expo Cert.Attn.rowMax
  simp only [logitArr_apply, pay2_apply]

/-- The stored value at `(n, 0, r, c)` over any block of exponentials `e` and value block `v`: every exponential
    divided by its row's sum, contracted against column `c` of `v`. -/
theorem pay1_apply (v : FVec Ideal S256x32x64 .f32) (e : FVec Ideal S256x32x32 .f32) (n : Fin 256) (r : Fin 32) (c : Fin 64) :
    k0_pay1 v e (ix4 n (0 : Fin 1) r c)
      = ∑ j : Fin 32, Ideal.div (e (ix3 n r j)) (∑ j' : Fin 32, e (ix3 n r j')) * v (ix3 n j c) := by
  unfold k0_pay1
  refine (cast_abc_a1bc _ shapeCasts_S256x32x64_S256x1x32x64 n (0 : Fin 1) r c).trans ?_
  refine (matmul2_apply _ v n r c).trans ?_
  refine Finset.sum_congr rfl fun j _ => congrArg (· * v (ix3 n j c)) ?_
  refine congrArg (Ideal.div (e (ix3 n r j))) ?_
  refine (bcast_ab1_abc _ broadcasts_S256x32x1_S256x32x32 n r j).trans ?_
  refine (cast_ab_ab1 _ shapeCasts_S256x32_S256x32x1 n r (0 : Fin 1)).trans ?_
  exact sum_last e 0x00000000#32 reduces_S256x32x32_S256x32 (.inl rfl) rfl n r

theorem pay_apply (x0 x1 x2 : Vec Ideal S256x1x32x64 .f32) (x3 : Vec Ideal S1x1x1 .f32)
    (n : Fin 256) (r : Fin 32) (c : Fin 64) :
    k0_pay1 (k0_pay2 x2) (k0_pay3 x0 x1 x3) (ix4 n (0 : Fin 1) r c)
      = Cert.Attn.attnAt (fun r c => x0 (ix4 n (0 : Fin 1) r c)) (fun j c => x1 (ix4 n (0 : Fin 1) j c))
          (fun j c => x2 (ix4 n (0 : Fin 1) j c)) (x3 (ix3 (0 : Fin 1) (0 : Fin 1) (0 : Fin 1))) r c := by
  rw [pay1_apply]
  unfold Cert.Attn.attnAt Cert.Attn.weight
  simp only [pay3_apply, pay2_apply]

end Cert.KernelIdeal.Body0

end
-- ==== Proof.KerArr0.lean ====
/-
  The result array of one attention call after the call.

  A grid point `(i, d)` reads the block of window groups `i`, head `d` of each of the three arrays and head `d`'s
  scale, and stores into the same block of the result array the cosine attention of those blocks: at a block index
  the stored value is `Cert.Attn.attnAt` of the block's rows, which are rows of the arrays. The index maps of the
  four windows agree at every grid point and the result's blocks tile its array, so the whole array ends as
  `Cert.Attn.attnArr` of the arrays the call finds.
-/
import proofs.«164915_j68642167324784_1_alg».proof.Proof.Gen.KernelIdeal.Frame
import proofs.«164915_j68642167324784_1_alg».proof.Proof.AttnSpec
import proofs.«164915_j68642167324784_1_alg».proof.Proof.KerBody0
import Idealize.ShloMosaic.Lib.ValueIdx
import Idealize.ShloMosaic.Lib.Pipeline.Value

set_option maxRecDepth 16384

noncomputable section

open scoped BigOperators

namespace Cert.KernelIdeal.Arr0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole block of rank 4, as the constant function. -/
theorem hz : (![0, 0, 0, 0] : Fin 4 → Nat) = fun _ => 0 := funext fun a => by fin_cases a <;> rfl
/-- The zero offsets of a whole block of rank 3, as the constant function. -/
theorem hz3 : (![0, 0, 0] : Fin 3 → Nat) = fun _ => 0 := funext fun a => by fin_cases a <;> rfl

/-- The block index maps, decided over the grid: the three big inputs move with the output on the group axis and
    the head axis and stay at block 0 on the last two; the scale's block on its first axis is the output's head
    block; the output's block indices stay in their ranges. -/
theorem idx_facts : ∀ t : Fin cfg0.N,
    win0_0.index t (0 : Fin 4) = win0_4.index t (0 : Fin 4)
    ∧ win0_0.index t (1 : Fin 4) = win0_4.index t (1 : Fin 4)
    ∧ win0_0.index t (2 : Fin 4) = 0
    ∧ win0_0.index t (3 : Fin 4) = 0
    ∧ win0_1.index t (0 : Fin 4) = win0_4.index t (0 : Fin 4)
    ∧ win0_1.index t (1 : Fin 4) = win0_4.index t (1 : Fin 4)
    ∧ win0_1.index t (2 : Fin 4) = 0
    ∧ win0_1.index t (3 : Fin 4) = 0
    ∧ win0_2.index t (0 : Fin 4) = win0_4.index t (0 : Fin 4)
    ∧ win0_2.index t (1 : Fin 4) = win0_4.index t (1 : Fin 4)
    ∧ win0_2.index t (2 : Fin 4) = 0
    ∧ win0_2.index t (3 : Fin 4) = 0
    ∧ win0_3.index t (0 : Fin 3) = win0_4.index t (1 : Fin 4)
    ∧ win0_3.index t (1 : Fin 3) = 0
    ∧ win0_3.index t (2 : Fin 3) = 0
    ∧ win0_4.index t (0 : Fin 4) ≤ 17
    ∧ win0_4.index t (1 : Fin 4) ≤ 5
    ∧ win0_4.index t (2 : Fin 4) = 0
    ∧ win0_4.index t (3 : Fin 4) = 0 :=
  (by decide +kernel : ∀ t : Fin grid0.N, _)

/-- Every block of the output array is some point's. -/
theorem idx_onto : ∀ (q0 : Fin 18) (q1 : Fin 6), ∃ t : Fin cfg0.N, win0_4.index t = ![q0.val, q1.val, 0, 0] :=
  (by decide +kernel : ∀ (q0 : Fin 18) (q1 : Fin 6), ∃ t : Fin grid0.N, win0_4.index t = ![q0.val, q1.val, 0, 0])

/-- The group of the array that row `n` of point `t`'s block is: the block's first group plus `n`. -/
def groupOf (t : Fin cfg0.N) (n : Fin 256) : Fin 4608 :=
  ⟨win0_4.index t (0 : Fin 4) * 256 + n.val, by
    have h := (idx_facts t).2.2.2.2.2.2.2.2.2.2.2.2.2.2.2.1
    have hn : n.val < 256 := n.isLt
    omega⟩

/-- The head point `t` works on. -/
def headOf (t : Fin cfg0.N) : Fin 6 :=
  ⟨win0_4.index t (1 : Fin 4), by
    have h := (idx_facts t).2.2.2.2.2.2.2.2.2.2.2.2.2.2.2.2.1
    omega⟩

/-- ONE ROW GROUP OF ONE BLOCK. If row group `n` of the three big blocks is group `N`, head `D` of the three arrays
    and the scale block's one element is head `D`'s scale, the body's result at row group `n` is the attention array
    at group `N`, head `D`. -/
theorem pay_at (q k v : FVec Ideal S4608x6x32x64 .f32) (s : FVec Ideal S6x1x1 .f32)
    (x0 x1 x2 : Vec Ideal S256x1x32x64 .f32) (x3 : Vec Ideal S1x1x1 .f32)
    (N : Fin 4608) (D : Fin 6) (n : Fin 256)
    (h0 : ∀ (j : Fin 32) (ch : Fin 64), x0 (ix4 n (0 : Fin 1) j ch) = q (ix4 N D j ch))
    (h1 : ∀ (j : Fin 32) (ch : Fin 64), x1 (ix4 n (0 : Fin 1) j ch) = k (ix4 N D j ch))
    (h2 : ∀ (j : Fin 32) (ch : Fin 64), x2 (ix4 n (0 : Fin 1) j ch) = v (ix4 N D j ch))
    (h3 : x3 (ix3 (0 : Fin 1) (0 : Fin 1) (0 : Fin 1)) = s (ix3 D (0 : Fin 1) (0 : Fin 1)))
    (r : Fin 32) (ch : Fin 64) :
    k0_pay1 (k0_pay2 x2) (k0_pay3 x0 x1 x3) (ix4 n (0 : Fin 1) r ch)
      = Cert.Attn.attnArr 4608 6 32 64 q k v s (ix4 N D r ch) := by
  rw [Cert.KernelIdeal.Body0.pay_apply, Cert.Attn.attnArr_ix4]
  have e0 : (fun (r : Fin 32) (c : Fin 64) => x0 (ix4 n (0 : Fin 1) r c)) = fun r c => q (ix4 N D r c) :=
    funext fun r => funext fun c => h0 r c
  have e1 : (fun (j : Fin 32) (c : Fin 64) => x1 (ix4 n (0 : Fin 1) j c)) = fun j c => k (ix4 N D j c) :=
    funext fun j => funext fun c => h1 j c
  have e2 : (fun (j : Fin 32) (c : Fin 64) => x2 (ix4 n (0 : Fin 1) j c)) = fun j c => v (ix4 N D j c) :=
    funext fun j => funext fun c => h2 j c
  rw [e0, e1, e2, h3]

variable (V : (c : Dev nD) → (b : Ref sig .tc) → Buf (Elt Ideal) ((c : Thread nD τ).loc b))

/-- The four arrays the first call reads, as the call finds them, at their literal types. -/
abbrev arrQ (c : Dev nD) : FVec Ideal S4608x6x32x64 .f32 := V c main_v2
abbrev arrK (c : Dev nD) : FVec Ideal S4608x6x32x64 .f32 := V c main_v5
abbrev arrV (c : Dev nD) : FVec Ideal S4608x6x32x64 .f32 := V c main_v8
abbrev arrS (c : Dev nD) : FVec Ideal S6x1x1 .f32 := V c main_v17

/-- Row group `n` of the first input's block at point `t` is group `groupOf t n`, head `headOf t` of its array. -/
theorem blkQ (c : Dev nD) (t : Fin cfg0.N) (n : Fin 256) (j : Fin 32) (ch : Fin 64) :
    iblk0 V c 0 t (ix4 n (0 : Fin 1) j ch) = arrQ V c (ix4 (groupOf t n) (headOf t) j ch) := by
  obtain ⟨e0, e1, e2, e3, -⟩ := idx_facts t
  show arrQ V c (((cfg0.win 0).blk t).view.emb (ix4 n (0 : Fin 1) j ch)) = _
  refine congrArg (arrQ V c) (funext fun a => Fin.ext ?_)
  match a with
  | ⟨0, _⟩ => show win0_0.index t (0 : Fin 4) * 256 + 1 * n.val = win0_4.index t (0 : Fin 4) * 256 + n.val; omega
  | ⟨1, _⟩ => show win0_0.index t (1 : Fin 4) * 1 + 1 * 0 = win0_4.index t (1 : Fin 4); omega
  | ⟨2, _⟩ => show win0_0.index t (2 : Fin 4) * 32 + 1 * j.val = j.val; omega
  | ⟨3, _⟩ => show win0_0.index t (3 : Fin 4) * 64 + 1 * ch.val = ch.val; omega

/-- Row group `n` of the second input's block at point `t` is group `groupOf t n`, head `headOf t` of its array. -/
theorem blkK (c : Dev nD) (t : Fin cfg0.N) (n : Fin 256) (j : Fin 32) (ch : Fin 64) :
    iblk0 V c 1 t (ix4 n (0 : Fin 1) j ch) = arrK V c (ix4 (groupOf t n) (headOf t) j ch) := by
  obtain ⟨-, -, -, -, e0, e1, e2, e3, -⟩ := idx_facts t
  show arrK V c (((cfg0.win 1).blk t).view.emb (ix4 n (0 : Fin 1) j ch)) = _
  refine congrArg (arrK V c) (funext fun a => Fin.ext ?_)
  match a with
  | ⟨0, _⟩ => show win0_1.index t (0 : Fin 4) * 256 + 1 * n.val = win0_4.index t (0 : Fin 4) * 256 + n.val; omega
  | ⟨1, _⟩ => show win0_1.index t (1 : Fin 4) * 1 + 1 * 0 = win0_4.index t (1 : Fin 4); omega
  | ⟨2, _⟩ => show win0_1.index t (2 : Fin 4) * 32 + 1 * j.val = j.val; omega
  | ⟨3, _⟩ => show win0_1.index t (3 : Fin 4) * 64 + 1 * ch.val = ch.val; omega

/-- Row group `n` of the third input's block at point `t` is group `groupOf t n`, head `headOf t` of its array. -/
theorem blkV (c : Dev nD) (t : Fin cfg0.N) (n : Fin 256) (j : Fin 32) (ch : Fin 64) :
    iblk0 V c 2 t (ix4 n (0 : Fin 1) j ch) = arrV V c (ix4 (groupOf t n) (headOf t) j ch) := by
  obtain ⟨-, -, -, -, -, -, -, -, e0, e1, e2, e3, -⟩ := idx_facts t
  show arrV V c (((cfg0.win 2).blk t).view.emb (ix4 n (0 : Fin 1) j ch)) = _
  refine congrArg (arrV V c) (funext fun a => Fin.ext ?_)
  match a with
  | ⟨0, _⟩ => show win0_2.index t (0 : Fin 4) * 256 + 1 * n.val = win0_4.index t (0 : Fin 4) * 256 + n.val; omega
  | ⟨1, _⟩ => show win0_2.index t (1 : Fin 4) * 1 + 1 * 0 = win0_4.index t (1 : Fin 4); omega
  | ⟨2, _⟩ => show win0_2.index t (2 : Fin 4) * 32 + 1 * j.val = j.val; omega
  | ⟨3, _⟩ => show win0_2.index t (3 : Fin 4) * 64 + 1 * ch.val = ch.val; omega

/-- The scale block at point `t` holds head `headOf t`'s scale. -/
theorem blkS (c : Dev nD) (t : Fin cfg0.N) :
    iblk0 V c 3 t (ix3 (0 : Fin 1) (0 : Fin 1) (0 : Fin 1)) = arrS V c (ix3 (headOf t) (0 : Fin 1) (0 : Fin 1)) := by
  obtain ⟨-, -, -, -, -, -, -, -, -, -, -, -, e0, e1, e2, -⟩ := idx_facts t
  show arrS V c (((cfg0.win 3).blk t).view.emb (ix3 (0 : Fin 1) (0 : Fin 1) (0 : Fin 1))) = _
  refine congrArg (arrS V c) (funext fun a => Fin.ext ?_)
  match a with
  | ⟨0, _⟩ => show win0_3.index t (0 : Fin 3) * 1 + 1 * 0 = win0_4.index t (1 : Fin 4); omega
  | ⟨1, _⟩ => show win0_3.index t (1 : Fin 3) * 1 + 1 * 0 = 0; omega
  | ⟨2, _⟩ => show win0_3.index t (2 : Fin 3) * 1 + 1 * 0 = 0; omega

/-- Where row group `n`, row `r`, channel `ch` of the output's block at point `t` lies in the output array. -/
theorem emb_out (t : Fin cfg0.N) (n : Fin 256) (r : Fin 32) (ch : Fin 64) :
    ((cfg0.win 4).blk t).view.emb (ix4 n (0 : Fin 1) r ch) = ix4 (groupOf t n) (headOf t) r ch := by
  obtain ⟨-, -, -, -, -, -, -, -, -, -, -, -, -, -, -, -, -, e2, e3⟩ := idx_facts t
  refine funext fun a => Fin.ext ?_
  match a with
  | ⟨0, _⟩ => show win0_4.index t (0 : Fin 4) * 256 + 1 * n.val = win0_4.index t (0 : Fin 4) * 256 + n.val; omega
  | ⟨1, _⟩ => show win0_4.index t (1 : Fin 4) * 1 + 1 * 0 = win0_4.index t (1 : Fin 4); omega
  | ⟨2, _⟩ => show win0_4.index t (2 : Fin 4) * 32 + 1 * r.val = r.val; omega
  | ⟨3, _⟩ => show win0_4.index t (3 : Fin 4) * 64 + 1 * ch.val = ch.val; omega

/-- WHAT THE BODY LEAVES AT POINT `t`, element by element: the attention array where the output's block lies. -/
theorem body_at (c : Dev nD) (t : Fin cfg0.N) (y : S256x1x32x64.Idx) :
    k0_pay1 (k0_pay2 (iblk0 V c 2 t)) (k0_pay3 (iblk0 V c 0 t) (iblk0 V c 1 t) (iblk0 V c 3 t)) y
      = Cert.Attn.attnArr 4608 6 32 64 (arrQ V c) (arrK V c) (arrV V c) (arrS V c)
          (((cfg0.win 4).blk t).view.emb y) := by
  obtain ⟨n, z, r, ch, rfl⟩ : ∃ (n : Fin 256) (z : Fin 1) (r : Fin 32) (ch : Fin 64), y = ix4 n z r ch :=
    ⟨_, _, _, _, eq_ix4 y⟩
  obtain rfl : z = 0 := Subsingleton.elim _ _
  rw [emb_out]
  exact pay_at (arrQ V c) (arrK V c) (arrV V c) (arrS V c) (iblk0 V c 0 t) (iblk0 V c 1 t) (iblk0 V c 2 t)
    (iblk0 V c 3 t) (groupOf t n) (headOf t) n (blkQ V c t n) (blkK V c t n) (blkV V c t n) (blkS V c t) r ch

/-- WHAT POINT `t` WRITES BACK is its block of the attention array of the four arrays as the call finds them. -/
theorem flushed_eq (c : Dev nD) (t : Fin cfg0.N) :
    (dat0 (F := Ideal) V c).flushed 4 t
      = ((cfg0.win 4).blk t).view.read (Elt Ideal)
          (Cert.Attn.attnArr 4608 6 32 64 (arrQ V c) (arrK V c) (arrV V c) (arrS V c)) := by
  show (cfg0.win 4).cut (grid0.coords t) ((dat0 V c).after 4 t) = _
  rw [after0_4]
  unfold out0_4
  rw [View.canon_unit_zero hz]
  simp only [View.ld_unit_zero (S := S256x1x32x64) hz, View.ld_unit_zero (S := S1x1x1) hz3]
  funext y
  exact body_at V c t y

/-- An index of the output array is in point `t`'s block iff each coordinate is in the block's range on its axis. -/
theorem mem_blk (t : Fin cfg0.N) (i : S4608x6x32x64.Idx) :
    i ∈ ((cfg0.win 4).blk t).view.set
      ↔ ∀ a : Fin 4, win0_4.index t a * S256x1x32x64.size a ≤ (i a).val
          ∧ (i a).val < win0_4.index t a * S256x1x32x64.size a + S256x1x32x64.size a := by
  show i ∈ ((View.whole main_v21).slice (win0_4.rect t)).set ↔ _
  rw [View.set_slice_whole, Rect.mem_set_unit]
  exact Iff.rfl

/-- Every index of the output array is in some point's block: group `g` lies in block `g / 256` of the group axis,
    head `d` in block `d` of the head axis, and the last two axes are whole. -/
theorem cover (i : S4608x6x32x64.Idx) :
    ∃ t : Fin cfg0.N, (cfg0.win 4).flush t = true ∧ i ∈ ((cfg0.win 4).blk t).view.set := by
  have hi0 : (i 0).val < 4608 := (i 0).isLt
  have hi1 : (i 1).val < 6 := (i 1).isLt
  have hi2 : (i 2).val < 32 := (i 2).isLt
  have hi3 : (i 3).val < 64 := (i 3).isLt
  obtain ⟨t, ht⟩ := idx_onto ⟨(i 0).val / 256, by omega⟩ ⟨(i 1).val, by omega⟩
  have q0 : win0_4.index t (0 : Fin 4) = (i 0).val / 256 := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 256 ≤ (i 0).val ∧ (i 0).val < win0_4.index t (0 : Fin 4) * 256 + 256; omega
  | ⟨1, _⟩ => show win0_4.index t (1 : Fin 4) * 1 ≤ (i 1).val ∧ (i 1).val < win0_4.index t (1 : Fin 4) * 1 + 1; omega
  | ⟨2, _⟩ => show win0_4.index t (2 : Fin 4) * 32 ≤ (i 2).val ∧ (i 2).val < win0_4.index t (2 : Fin 4) * 32 + 32; omega
  | ⟨3, _⟩ => show win0_4.index t (3 : Fin 4) * 64 ≤ (i 3).val ∧ (i 3).val < win0_4.index t (3 : Fin 4) * 64 + 64; omega

/-- The first call's result array after the call: attention of the four arrays it read. -/
theorem arr (c : Dev nD) :
    (dat0 (F := Ideal) V c).arrAt 4 cfg0.N
      = Cert.Attn.attnArr 4608 6 32 64 (arrQ V c) (arrK V c) (arrV V c) (arrS V c) :=
  (dat0 (F := Ideal) V c).arrAt_eq_of_cover 4
    (Cert.Attn.attnArr 4608 6 32 64 (arrQ V c) (arrK V c) (arrV V c) (arrS V c))
    (fun t _ => flushed_eq V c t) cover

end Cert.KernelIdeal.Arr0

end
-- ==== Proof.KerBody1.lean ====
/-
  The attention kernel's one stored value at `F := Ideal`, read at a block index `(n, 0, r, c)`: the cosine attention of
  row-group `n` of the three loaded blocks under the one loaded scale.

  The body is read stage by stage. `unitArr` divides every row of a `[1024, 8, 64]` block by its floored Euclidean norm;
  `logitArr` contracts the channel axis of two such blocks and multiplies by the scale; `expArr` shifts a row of logits
  by its maximum (taken from minus infinity) and exponentiates. The stored value divides a row of exponentials by its
  sum and contracts it against the value block. Each stage read at `(n, r, ·)` is the matching definition of
  `Cert.Attn` on row-group `n`.
-/
import proofs.«164915_j68642167324784_1_alg».proof.Proof.Gen.KernelIdeal.Skeleton
import proofs.«164915_j68642167324784_1_alg».proof.Proof.AttnSpec
import proofs.«164915_j68642167324784_1_alg».proof.Proof.LibLastAxis3
import Idealize.ShloMosaic.Lib.ValueIdx
import Idealize.ShloMosaic.Lib.Pipeline.Value
import Idealize.ShloMosaic.PureOps.Ideal.Laws

noncomputable section

open scoped BigOperators

namespace Cert.KernelIdeal.Body1

open Cert.KernelIdeal Cert.KernelIdeal.Gen Idealize.ShloMosaic Idealize.ShloMosaic.ValueIdx Cert.LastAxis3

/-! ## The two contractions' operand indices, axis by axis -/

/-- First contraction, left operand: the batch axis reads the result's axis 0. -/
theorem lhs1_0 (i : S1024x8x8.Idx) (q : dot_S1024x8x64_S1024x8x64_S1024x8x8_2_2_1_1_0_0.contr.Idx) :
    (dot_S1024x8x64_S1024x8x64_S1024x8x8_2_2_1_1_0_0.lhsIdx i q 0).val = (i 0).val := by
  unfold DotDims.lhsIdx
  rw [dif_pos (show (0 : Fin S1024x8x64.rank) ∈ dot_S1024x8x64_S1024x8x64_S1024x8x8_2_2_1_1_0_0.lhsBatch by decide)]
  rfl
/-- First contraction, left operand: the row axis reads the result's axis 1. -/
theorem lhs1_1 (i : S1024x8x8.Idx) (q : dot_S1024x8x64_S1024x8x64_S1024x8x8_2_2_1_1_0_0.contr.Idx) :
    (dot_S1024x8x64_S1024x8x64_S1024x8x8_2_2_1_1_0_0.lhsIdx i q 1).val = (i 1).val := by
  unfold DotDims.lhsIdx
  rw [dif_neg (show ¬(1 : Fin S1024x8x64.rank) ∈ dot_S1024x8x64_S1024x8x64_S1024x8x8_2_2_1_1_0_0.lhsBatch by decide), dif_pos (show (1 : Fin S1024x8x64.rank) ∈ dot_S1024x8x64_S1024x8x64_S1024x8x8_2_2_1_1_0_0.lhsNonContracting by decide)]
  rfl
/-- First contraction, left operand: the channel axis reads the contraction position. -/
theorem lhs1_2 (i : S1024x8x8.Idx) (q : dot_S1024x8x64_S1024x8x64_S1024x8x8_2_2_1_1_0_0.contr.Idx) :
    (dot_S1024x8x64_S1024x8x64_S1024x8x8_2_2_1_1_0_0.lhsIdx i q 2).val = (q ⟨0, by decide⟩).val :=
  dot_S1024x8x64_S1024x8x64_S1024x8x8_2_2_1_1_0_0.lhsIdx_val_of_single rfl i q
/-- First contraction, right operand: the batch axis reads the result's axis 0. -/
theorem rhs1_0 (i : S1024x8x8.Idx) (q : dot_S1024x8x64_S1024x8x64_S1024x8x8_2_2_1_1_0_0.contr.Idx) :
    (dot_S1024x8x64_S1024x8x64_S1024x8x8_2_2_1_1_0_0.rhsIdx i q 0).val = (i 0).val := by
  unfold DotDims.rhsIdx
  rw [dif_pos (show (0 : Fin S1024x8x64.rank) ∈ dot_S1024x8x64_S1024x8x64_S1024x8x8_2_2_1_1_0_0.rhsBatch by decide)]
  rfl
/-- First contraction, right operand: the row axis reads the result's axis 2. -/
theorem rhs1_1 (i : S1024x8x8.Idx) (q : dot_S1024x8x64_S1024x8x64_S1024x8x8_2_2_1_1_0_0.contr.Idx) :
    (dot_S1024x8x64_S1024x8x64_S1024x8x8_2_2_1_1_0_0.rhsIdx i q 1).val = (i 2).val := by
  unfold DotDims.rhsIdx
  rw [dif_neg (show ¬(1 : Fin S1024x8x64.rank) ∈ dot_S1024x8x64_S1024x8x64_S1024x8x8_2_2_1_1_0_0.rhsBatch by decide), dif_pos (show (1 : Fin S1024x8x64.rank) ∈ dot_S1024x8x64_S1024x8x64_S1024x8x8_2_2_1_1_0_0.rhsNonContracting by decide)]
  rfl
/-- First contraction, right operand: the channel axis reads the contraction position. -/
theorem rhs1_2 (i : S1024x8x8.Idx) (q : dot_S1024x8x64_S1024x8x64_S1024x8x8_2_2_1_1_0_0.contr.Idx) :
    (dot_S1024x8x64_S1024x8x64_S1024x8x8_2_2_1_1_0_0.rhsIdx i q 2).val = (q ⟨0, by decide⟩).val :=
  dot_S1024x8x64_S1024x8x64_S1024x8x8_2_2_1_1_0_0.rhsIdx_val_of_single rfl i q

/-- Second contraction, left operand: the batch axis reads the result's axis 0. -/
theorem lhs2_0 (i : S1024x8x64.Idx) (q : dot_S1024x8x8_S1024x8x64_S1024x8x64_2_1_1_2_0_0.contr.Idx) :
    (dot_S1024x8x8_S1024x8x64_S1024x8x64_2_1_1_2_0_0.lhsIdx i q 0).val = (i 0).val := by
  unfold DotDims.lhsIdx
  rw [dif_pos (show (0 : Fin S1024x8x8.rank) ∈ dot_S1024x8x8_S1024x8x64_S1024x8x64_2_1_1_2_0_0.lhsBatch by decide)]
  rfl
/-- Second contraction, left operand: the row axis reads the result's axis 1. -/
theorem lhs2_1 (i : S1024x8x64.Idx) (q : dot_S1024x8x8_S1024x8x64_S1024x8x64_2_1_1_2_0_0.contr.Idx) :
    (dot_S1024x8x8_S1024x8x64_S1024x8x64_2_1_1_2_0_0.lhsIdx i q 1).val = (i 1).val := by
  unfold DotDims.lhsIdx
  rw [dif_neg (show ¬(1 : Fin S1024x8x8.rank) ∈ dot_S1024x8x8_S1024x8x64_S1024x8x64_2_1_1_2_0_0.lhsBatch by decide), dif_pos (show (1 : Fin S1024x8x8.rank) ∈ dot_S1024x8x8_S1024x8x64_S1024x8x64_2_1_1_2_0_0.lhsNonContracting by decide)]
  rfl
/-- Second contraction, left operand: the position axis reads the contraction position. -/
theorem lhs2_2 (i : S1024x8x64.Idx) (q : dot_S1024x8x8_S1024x8x64_S1024x8x64_2_1_1_2_0_0.contr.Idx) :
    (dot_S1024x8x8_S1024x8x64_S1024x8x64_2_1_1_2_0_0.lhsIdx i q 2).val = (q ⟨0, by decide⟩).val :=
  dot_S1024x8x8_S1024x8x64_S1024x8x64_2_1_1_2_0_0.lhsIdx_val_of_single rfl i q
/-- Second contraction, right operand: the batch axis reads the result's axis 0. -/
theorem rhs2_0 (i : S1024x8x64.Idx) (q : dot_S1024x8x8_S1024x8x64_S1024x8x64_2_1_1_2_0_0.contr.Idx) :
    (dot_S1024x8x8_S1024x8x64_S1024x8x64_2_1_1_2_0_0.rhsIdx i q 0).val = (i 0).val := by
  unfold DotDims.rhsIdx
  rw [dif_pos (show (0 : Fin S1024x8x64.rank) ∈ dot_S1024x8x8_S1024x8x64_S1024x8x64_2_1_1_2_0_0.rhsBatch by decide)]
  rfl
/-- Second contraction, right operand: the position axis reads the contraction position. -/
theorem rhs2_1 (i : S1024x8x64.Idx) (q : dot_S1024x8x8_S1024x8x64_S1024x8x64_2_1_1_2_0_0.contr.Idx) :
    (dot_S1024x8x8_S1024x8x64_S1024x8x64_2_1_1_2_0_0.rhsIdx i q 1).val = (q ⟨0, by decide⟩).val :=
  dot_S1024x8x8_S1024x8x64_S1024x8x64_2_1_1_2_0_0.rhsIdx_val_of_single rfl i q
/-- Second contraction, right operand: the channel axis reads the result's axis 2. -/
theorem rhs2_2 (i : S1024x8x64.Idx) (q : dot_S1024x8x8_S1024x8x64_S1024x8x64_2_1_1_2_0_0.contr.Idx) :
    (dot_S1024x8x8_S1024x8x64_S1024x8x64_2_1_1_2_0_0.rhsIdx i q 2).val = (i 2).val := by
  unfold DotDims.rhsIdx
  rw [dif_neg (show ¬(2 : Fin S1024x8x64.rank) ∈ dot_S1024x8x8_S1024x8x64_S1024x8x64_2_1_1_2_0_0.rhsBatch by decide), dif_pos (show (2 : Fin S1024x8x64.rank) ∈ dot_S1024x8x8_S1024x8x64_S1024x8x64_2_1_1_2_0_0.rhsNonContracting by decide)]
  rfl

/-- The first contraction into the zero block, at `(n, r, j)`: the inner product of row `r` of the left block and row
    `j` of the right block of group `n`. -/
theorem matmul1_apply (P Q : FVec Ideal S1024x8x64 .f32) (n : Fin 1024) (r j : Fin 8) :
    matmul dot_S1024x8x64_S1024x8x64_S1024x8x8_2_2_1_1_0_0 none P Q (constant S1024x8x8 .f32 0x00000000#32) (ix3 n r j)
      = ∑ k : Fin 64, P (ix3 n r k) * Q (ix3 n j k) := by
  refine (Ideal.matmul_constant_zero_apply dot_S1024x8x64_S1024x8x64_S1024x8x8_2_2_1_1_0_0 none P Q (ix3 n r j)).trans ?_
  rw [← Equiv.sum_comp (contrEquiv1 dot_S1024x8x64_S1024x8x64_S1024x8x8_2_2_1_1_0_0 64 rfl rfl).symm]
  refine Finset.sum_congr rfl fun k _ => ?_
  have hk := contrEquiv1_symm_val dot_S1024x8x64_S1024x8x64_S1024x8x8_2_2_1_1_0_0 64 rfl rfl k
  have el : dot_S1024x8x64_S1024x8x64_S1024x8x8_2_2_1_1_0_0.lhsIdx (ix3 n r j) ((contrEquiv1 dot_S1024x8x64_S1024x8x64_S1024x8x8_2_2_1_1_0_0 64 rfl rfl).symm k) = ix3 n r k :=
    funext fun a => Fin.ext (by
      match a with
      | ⟨0, _⟩ => exact lhs1_0 _ _
      | ⟨1, _⟩ => exact lhs1_1 _ _
      | ⟨2, _⟩ => exact (lhs1_2 _ _).trans hk)
  have er : dot_S1024x8x64_S1024x8x64_S1024x8x8_2_2_1_1_0_0.rhsIdx (ix3 n r j) ((contrEquiv1 dot_S1024x8x64_S1024x8x64_S1024x8x8_2_2_1_1_0_0 64 rfl rfl).symm k) = ix3 n j k :=
    funext fun a => Fin.ext (by
      match a with
      | ⟨0, _⟩ => exact rhs1_0 _ _
      | ⟨1, _⟩ => exact rhs1_1 _ _
      | ⟨2, _⟩ => exact (rhs1_2 _ _).trans hk)
  rw [el, er]

/-- The second contraction into the zero block, at `(n, r, c)`: row `r` of the left block against column `c` of the
    right block of group `n`. -/
theorem matmul2_apply (W : FVec Ideal S1024x8x8 .f32) (V : FVec Ideal S1024x8x64 .f32) (n : Fin 1024) (r : Fin 8) (c : Fin 64) :
    matmul dot_S1024x8x8_S1024x8x64_S1024x8x64_2_1_1_2_0_0 none W V (constant S1024x8x64 .f32 0x00000000#32) (ix3 n r c)
      = ∑ k : Fin 8, W (ix3 n r k) * V (ix3 n k c) := by
  refine (Ideal.matmul_constant_zero_apply dot_S1024x8x8_S1024x8x64_S1024x8x64_2_1_1_2_0_0 none W V (ix3 n r c)).trans ?_
  rw [← Equiv.sum_comp (contrEquiv1 dot_S1024x8x8_S1024x8x64_S1024x8x64_2_1_1_2_0_0 8 rfl rfl).symm]
  refine Finset.sum_congr rfl fun k _ => ?_
  have hk := contrEquiv1_symm_val dot_S1024x8x8_S1024x8x64_S1024x8x64_2_1_1_2_0_0 8 rfl rfl k
  have el : dot_S1024x8x8_S1024x8x64_S1024x8x64_2_1_1_2_0_0.lhsIdx (ix3 n r c) ((contrEquiv1 dot_S1024x8x8_S1024x8x64_S1024x8x64_2_1_1_2_0_0 8 rfl rfl).symm k) = ix3 n r k :=
    funext fun a => Fin.ext (by
      match a with
      | ⟨0, _⟩ => exact lhs2_0 _ _
      | ⟨1, _⟩ => exact lhs2_1 _ _
      | ⟨2, _⟩ => exact (lhs2_2 _ _).trans hk)
  have er : dot_S1024x8x8_S1024x8x64_S1024x8x64_2_1_1_2_0_0.rhsIdx (ix3 n r c) ((contrEquiv1 dot_S1024x8x8_S1024x8x64_S1024x8x64_2_1_1_2_0_0 8 rfl rfl).symm k) = ix3 n k c :=
    funext fun a => Fin.ext (by
      match a with
      | ⟨0, _⟩ => exact rhs2_0 _ _
      | ⟨1, _⟩ => exact (rhs2_1 _ _).trans hk
      | ⟨2, _⟩ => exact rhs2_2 _ _)
  rw [el, er]

/-! ## The body's stages -/

/-- The loaded `[1024, 1, 8, 64]` block with its unit axis dropped, at `(n, r, c)`: the block at `(n, 0, r, c)`. -/
theorem pay2_apply (x : Vec Ideal S1024x1x8x64 .f32) (n : Fin 1024) (r : Fin 8) (c : Fin 64) :
    k1_pay2 x (ix3 n r c) = x (ix4 n (0 : Fin 1) r c) :=
  cast_a1bc_abc x shapeCasts_S1024x1x8x64_S1024x8x64 n r c

/-- Every row of a block divided by its Euclidean norm, the norm floored at the word 0x2B8CBCCC. -/
def unitArr (y : FVec Ideal S1024x8x64 .f32) : FVec Ideal S1024x8x64 .f32 :=
  divf y (broadcastTo S1024x8x64
    (maximumf
      (sqrt (shapeCast S1024x8x1
        (multiReduction .add [2] S1024x8 (mulf y y) 0x00000000#32 reduces_S1024x8x64_S1024x8 (.inl rfl) rfl)
        shapeCasts_S1024x8_S1024x8x1))
      (broadcast S1024x8x1 (Scalar.ofBits .f32 0x2B8CBCCC#32)))
    broadcasts_S1024x8x1_S1024x8x64)

/-- `unitArr` at `(n, r, c)` is the unit row `r` of group `n` at channel `c`. -/
theorem unitArr_apply (y : FVec Ideal S1024x8x64 .f32) (n : Fin 1024) (r : Fin 8) (c : Fin 64) :
    unitArr y (ix3 n r c) = Cert.Attn.unitRow (fun r c => y (ix3 n r c)) r c := by
  unfold unitArr Cert.Attn.unitRow Cert.Attn.floorNorm
  refine congrArg (Ideal.div (y (ix3 n r c))) ?_
  refine (bcast_ab1_abc _ broadcasts_S1024x8x1_S1024x8x64 n r c).trans ?_
  refine congrArg (fun t => max (Ideal.sqrt t) (Ideal.ofBits .f32 0x2B8CBCCC#32)) ?_
  refine (cast_ab_ab1 _ shapeCasts_S1024x8_S1024x8x1 n r (0 : Fin 1)).trans ?_
  exact sum_last (mulf y y) 0x00000000#32 reduces_S1024x8x64_S1024x8 (.inl rfl) rfl n r

/-- The scaled inner products of the unit rows of two blocks: the logits. -/
def logitArr (y0 y1 : FVec Ideal S1024x8x64 .f32) (s : Vec Ideal S1x1x1 .f32) : FVec Ideal S1024x8x8 .f32 :=
  mulf
    (matmul dot_S1024x8x64_S1024x8x64_S1024x8x8_2_2_1_1_0_0 none (unitArr y0) (unitArr y1) (constant S1024x8x8 .f32 0x00000000#32))
    (broadcastTo S1024x8x8
      (shapeCast S1x1x1 (shapeCast S1x1 s shapeCasts_S1x1x1_S1x1) shapeCasts_S1x1_S1x1x1)
      broadcasts_S1x1x1_S1024x8x8)

/-- `logitArr` at `(n, r, j)` is the logit of positions `(r, j)` of group `n` under the one scale. -/
theorem logitArr_apply (y0 y1 : FVec Ideal S1024x8x64 .f32) (s : Vec Ideal S1x1x1 .f32) (n : Fin 1024) (r j : Fin 8) :
    logitArr y0 y1 s (ix3 n r j)
      = Cert.Attn.logit (fun r c => y0 (ix3 n r c)) (fun j c => y1 (ix3 n j c))
          (s (ix3 (0 : Fin 1) (0 : Fin 1) (0 : Fin 1))) r j := by
  unfold logitArr Cert.Attn.logit
  refine congrArg₂ (· * ·) ?_ ?_
  · refine (matmul1_apply (unitArr y0) (unitArr y1) n r j).trans ?_
    exact Finset.sum_congr rfl fun k _ => congrArg₂ (· * ·) (unitArr_apply y0 n r k) (unitArr_apply y1 n j k)
  · refine (bcast_111_abc _ broadcasts_S1x1x1_S1024x8x8 n r j).trans ?_
    rw [shapeCast_shapeCast]

/-- A block of logits with every row shifted by its maximum (taken from minus infinity) and exponentiated. -/
def expArr (l : FVec Ideal S1024x8x8 .f32) : FVec Ideal S1024x8x8 .f32 :=
  exp (subf l (broadcastTo S1024x8x8
    (shapeCast S1024x8x1
      (maximumf (broadcast S1024x8 (Scalar.ofBits .f32 0xFF800000#32))
        (multiReduction .maximumf [2] S1024x8 l 0xFF800000#32 reduces_S1024x8x8_S1024x8 (.inl rfl) rfl))
      shapeCasts_S1024x8_S1024x8x1)
    broadcasts_S1024x8x1_S1024x8x8))

/-- `expArr` at `(n, r, j)`: the exponential of the entry less its row's maximum. -/
theorem expArr_apply (l : FVec Ideal S1024x8x8 .f32) (n : Fin 1024) (r j : Fin 8) :
    expArr l (ix3 n r j)
      = Ideal.exp (l (ix3 n r j) - max (Ideal.ofBits .f32 0xFF800000#32)
          ((Finset.univ : Finset (Fin 8)).fold max (Ideal.ofBits .f32 0xFF800000#32) (fun j' => l (ix3 n r j')))) := by
  unfold expArr
  refine congrArg (fun t => Ideal.exp (l (ix3 n r j) - t)) ?_
  refine (bcast_ab1_abc _ broadcasts_S1024x8x1_S1024x8x8 n r j).trans ?_
  refine (cast_ab_ab1 _ shapeCasts_S1024x8_S1024x8x1 n r (0 : Fin 1)).trans ?_
  refine congrArg (max (Ideal.ofBits .f32 0xFF800000#32)) ?_
  exact max_last l 0xFF800000#32 reduces_S1024x8x8_S1024x8 (.inl rfl) rfl n r

/-- The exponentials the body hands on are `expArr` of `logitArr` of the two blocks with their unit axes dropped. -/
theorem pay3_eq (x0 x1 : Vec Ideal S1024x1x8x64 .f32) (x3 : Vec Ideal S1x1x1 .f32) :
    k1_pay3 x0 x1 x3 = expArr (logitArr (k1_pay2 x0) (k1_pay2 x1) x3) := rfl

/-- The exponentials at `(n, r, j)`: the shifted exponential of positions `(r, j)` of group `n`. -/
theorem pay3_apply (x0 x1 : Vec Ideal S1024x1x8x64 .f32) (x3 : Vec Ideal S1x1x1 .f32) (n : Fin 1024) (r j : Fin 8) :
    k1_pay3 x0 x1 x3 (ix3 n r j)
      = Cert.Attn.expo (fun r c => x0 (ix4 n (0 : Fin 1) r c)) (fun j c => x1 (ix4 n (0 : Fin 1) j c))
          (x3 (ix3 (0 : Fin 1) (0 : Fin 1) (0 : Fin 1))) r j := by
  rw [pay3_eq, expArr_apply]
  unfold Cert.Attn.expo Cert.Attn.rowMax
  simp only [logitArr_apply, pay2_apply]

/-- The stored value at `(n, 0, r, c)` over any block of exponentials `e` and value block `v`: every exponential
    divided by its row's sum, contracted against column `c` of `v`. -/
theorem pay1_apply (v : FVec Ideal S1024x8x64 .f32) (e : FVec Ideal S1024x8x8 .f32) (n : Fin 1024) (r : Fin 8) (c : Fin 64) :
    k1_pay1 v e (ix4 n (0 : Fin 1) r c)
      = ∑ j : Fin 8, Ideal.div (e (ix3 n r j)) (∑ j' : Fin 8, e (ix3 n r j')) * v (ix3 n j c) := by
  unfold k1_pay1
  refine (cast_abc_a1bc _ shapeCasts_S1024x8x64_S1024x1x8x64 n (0 : Fin 1) r c).trans ?_
  refine (matmul2_apply _ v n r c).trans ?_
  refine Finset.sum_congr rfl fun j _ => congrArg (· * v (ix3 n j c)) ?_
  refine congrArg (Ideal.div (e (ix3 n r j))) ?_
  refine (bcast_ab1_abc _ broadcasts_S1024x8x1_S1024x8x8 n r j).trans ?_
  refine (cast_ab_ab1 _ shapeCasts_S1024x8_S1024x8x1 n r (0 : Fin 1)).trans ?_
  exact sum_last e 0x00000000#32 reduces_S1024x8x8_S1024x8 (.inl rfl) rfl n r

theorem pay_apply (x0 x1 x2 : Vec Ideal S1024x1x8x64 .f32) (x3 : Vec Ideal S1x1x1 .f32)
    (n : Fin 1024) (r : Fin 8) (c : Fin 64) :
    k1_pay1 (k1_pay2 x2) (k1_pay3 x0 x1 x3) (ix4 n (0 : Fin 1) r c)
      = Cert.Attn.attnAt (fun r c => x0 (ix4 n (0 : Fin 1) r c)) (fun j c => x1 (ix4 n (0 : Fin 1) j c))
          (fun j c => x2 (ix4 n (0 : Fin 1) j c)) (x3 (ix3 (0 : Fin 1) (0 : Fin 1) (0 : Fin 1))) r c := by
  rw [pay1_apply]
  unfold Cert.Attn.attnAt Cert.Attn.weight
  simp only [pay3_apply, pay2_apply]

end Cert.KernelIdeal.Body1

end
-- ==== Proof.KerArr1.lean ====
/-
  The result array of one attention call after the call.

  A grid point `(i, d)` reads the block of window groups `i`, head `d` of each of the three arrays and head `d`'s
  scale, and stores into the same block of the result array the cosine attention of those blocks: at a block index
  the stored value is `Cert.Attn.attnAt` of the block's rows, which are rows of the arrays. The index maps of the
  four windows agree at every grid point and the result's blocks tile its array, so the whole array ends as
  `Cert.Attn.attnArr` of the arrays the call finds.
-/
import proofs.«164915_j68642167324784_1_alg».proof.Proof.Gen.KernelIdeal.Frame
import proofs.«164915_j68642167324784_1_alg».proof.Proof.AttnSpec
import proofs.«164915_j68642167324784_1_alg».proof.Proof.KerBody1
import Idealize.ShloMosaic.Lib.ValueIdx
import Idealize.ShloMosaic.Lib.Pipeline.Value

set_option maxRecDepth 16384

noncomputable section

open scoped BigOperators

namespace Cert.KernelIdeal.Arr1

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole block of rank 4, as the constant function. -/
theorem hz : (![0, 0, 0, 0] : Fin 4 → Nat) = fun _ => 0 := funext fun a => by fin_cases a <;> rfl
/-- The zero offsets of a whole block of rank 3, as the constant function. -/
theorem hz3 : (![0, 0, 0] : Fin 3 → Nat) = fun _ => 0 := funext fun a => by fin_cases a <;> rfl

/-- The block index maps, decided over the grid: the three big inputs move with the output on the group axis and
    the head axis and stay at block 0 on the last two; the scale's block on its first axis is the output's head
    block; the output's block indices stay in their ranges. -/
theorem idx_facts : ∀ t : Fin cfg1.N,
    win1_0.index t (0 : Fin 4) = win1_4.index t (0 : Fin 4)
    ∧ win1_0.index t (1 : Fin 4) = win1_4.index t (1 : Fin 4)
    ∧ win1_0.index t (2 : Fin 4) = 0
    ∧ win1_0.index t (3 : Fin 4) = 0
    ∧ win1_1.index t (0 : Fin 4) = win1_4.index t (0 : Fin 4)
    ∧ win1_1.index t (1 : Fin 4) = win1_4.index t (1 : Fin 4)
    ∧ win1_1.index t (2 : Fin 4) = 0
    ∧ win1_1.index t (3 : Fin 4) = 0
    ∧ win1_2.index t (0 : Fin 4) = win1_4.index t (0 : Fin 4)
    ∧ win1_2.index t (1 : Fin 4) = win1_4.index t (1 : Fin 4)
    ∧ win1_2.index t (2 : Fin 4) = 0
    ∧ win1_2.index t (3 : Fin 4) = 0
    ∧ win1_3.index t (0 : Fin 3) = win1_4.index t (1 : Fin 4)
    ∧ win1_3.index t (1 : Fin 3) = 0
    ∧ win1_3.index t (2 : Fin 3) = 0
    ∧ win1_4.index t (0 : Fin 4) ≤ 17
    ∧ win1_4.index t (1 : Fin 4) ≤ 5
    ∧ win1_4.index t (2 : Fin 4) = 0
    ∧ win1_4.index t (3 : Fin 4) = 0 :=
  (by decide +kernel : ∀ t : Fin grid1.N, _)

/-- Every block of the output array is some point's. -/
theorem idx_onto : ∀ (q0 : Fin 18) (q1 : Fin 6), ∃ t : Fin cfg1.N, win1_4.index t = ![q0.val, q1.val, 0, 0] :=
  (by decide +kernel : ∀ (q0 : Fin 18) (q1 : Fin 6), ∃ t : Fin grid1.N, win1_4.index t = ![q0.val, q1.val, 0, 0])

/-- The group of the array that row `n` of point `t`'s block is: the block's first group plus `n`. -/
def groupOf (t : Fin cfg1.N) (n : Fin 1024) : Fin 18432 :=
  ⟨win1_4.index t (0 : Fin 4) * 1024 + n.val, by
    have h := (idx_facts t).2.2.2.2.2.2.2.2.2.2.2.2.2.2.2.1
    have hn : n.val < 1024 := n.isLt
    omega⟩

/-- The head point `t` works on. -/
def headOf (t : Fin cfg1.N) : Fin 6 :=
  ⟨win1_4.index t (1 : Fin 4), by
    have h := (idx_facts t).2.2.2.2.2.2.2.2.2.2.2.2.2.2.2.2.1
    omega⟩

/-- ONE ROW GROUP OF ONE BLOCK. If row group `n` of the three big blocks is group `N`, head `D` of the three arrays
    and the scale block's one element is head `D`'s scale, the body's result at row group `n` is the attention array
    at group `N`, head `D`. -/
theorem pay_at (q k v : FVec Ideal S18432x6x8x64 .f32) (s : FVec Ideal S6x1x1 .f32)
    (x0 x1 x2 : Vec Ideal S1024x1x8x64 .f32) (x3 : Vec Ideal S1x1x1 .f32)
    (N : Fin 18432) (D : Fin 6) (n : Fin 1024)
    (h0 : ∀ (j : Fin 8) (ch : Fin 64), x0 (ix4 n (0 : Fin 1) j ch) = q (ix4 N D j ch))
    (h1 : ∀ (j : Fin 8) (ch : Fin 64), x1 (ix4 n (0 : Fin 1) j ch) = k (ix4 N D j ch))
    (h2 : ∀ (j : Fin 8) (ch : Fin 64), x2 (ix4 n (0 : Fin 1) j ch) = v (ix4 N D j ch))
    (h3 : x3 (ix3 (0 : Fin 1) (0 : Fin 1) (0 : Fin 1)) = s (ix3 D (0 : Fin 1) (0 : Fin 1)))
    (r : Fin 8) (ch : Fin 64) :
    k1_pay1 (k1_pay2 x2) (k1_pay3 x0 x1 x3) (ix4 n (0 : Fin 1) r ch)
      = Cert.Attn.attnArr 18432 6 8 64 q k v s (ix4 N D r ch) := by
  rw [Cert.KernelIdeal.Body1.pay_apply, Cert.Attn.attnArr_ix4]
  have e0 : (fun (r : Fin 8) (c : Fin 64) => x0 (ix4 n (0 : Fin 1) r c)) = fun r c => q (ix4 N D r c) :=
    funext fun r => funext fun c => h0 r c
  have e1 : (fun (j : Fin 8) (c : Fin 64) => x1 (ix4 n (0 : Fin 1) j c)) = fun j c => k (ix4 N D j c) :=
    funext fun j => funext fun c => h1 j c
  have e2 : (fun (j : Fin 8) (c : Fin 64) => x2 (ix4 n (0 : Fin 1) j c)) = fun j c => v (ix4 N D j c) :=
    funext fun j => funext fun c => h2 j c
  rw [e0, e1, e2, h3]

variable (V : (c : Dev nD) → (b : Ref sig .tc) → Buf (Elt Ideal) ((c : Thread nD τ).loc b))

/-- The four arrays the second call reads, as the call finds them, at their literal types. -/
abbrev arrQ (c : Dev nD) : FVec Ideal S18432x6x8x64 .f32 := V c main_v11
abbrev arrK (c : Dev nD) : FVec Ideal S18432x6x8x64 .f32 := V c main_v14
abbrev arrV (c : Dev nD) : FVec Ideal S18432x6x8x64 .f32 := V c main_v24
abbrev arrS (c : Dev nD) : FVec Ideal S6x1x1 .f32 := V c main_v20

/-- Row group `n` of the first input's block at point `t` is group `groupOf t n`, head `headOf t` of its array. -/
theorem blkQ (c : Dev nD) (t : Fin cfg1.N) (n : Fin 1024) (j : Fin 8) (ch : Fin 64) :
    iblk1 V c 0 t (ix4 n (0 : Fin 1) j ch) = arrQ V c (ix4 (groupOf t n) (headOf t) j ch) := by
  obtain ⟨e0, e1, e2, e3, -⟩ := idx_facts t
  show arrQ V c (((cfg1.win 0).blk t).view.emb (ix4 n (0 : Fin 1) j ch)) = _
  refine congrArg (arrQ V c) (funext fun a => Fin.ext ?_)
  match a with
  | ⟨0, _⟩ => show win1_0.index t (0 : Fin 4) * 1024 + 1 * n.val = win1_4.index t (0 : Fin 4) * 1024 + n.val; omega
  | ⟨1, _⟩ => show win1_0.index t (1 : Fin 4) * 1 + 1 * 0 = win1_4.index t (1 : Fin 4); omega
  | ⟨2, _⟩ => show win1_0.index t (2 : Fin 4) * 8 + 1 * j.val = j.val; omega
  | ⟨3, _⟩ => show win1_0.index t (3 : Fin 4) * 64 + 1 * ch.val = ch.val; omega

/-- Row group `n` of the second input's block at point `t` is group `groupOf t n`, head `headOf t` of its array. -/
theorem blkK (c : Dev nD) (t : Fin cfg1.N) (n : Fin 1024) (j : Fin 8) (ch : Fin 64) :
    iblk1 V c 1 t (ix4 n (0 : Fin 1) j ch) = arrK V c (ix4 (groupOf t n) (headOf t) j ch) := by
  obtain ⟨-, -, -, -, e0, e1, e2, e3, -⟩ := idx_facts t
  show arrK V c (((cfg1.win 1).blk t).view.emb (ix4 n (0 : Fin 1) j ch)) = _
  refine congrArg (arrK V c) (funext fun a => Fin.ext ?_)
  match a with
  | ⟨0, _⟩ => show win1_1.index t (0 : Fin 4) * 1024 + 1 * n.val = win1_4.index t (0 : Fin 4) * 1024 + n.val; omega
  | ⟨1, _⟩ => show win1_1.index t (1 : Fin 4) * 1 + 1 * 0 = win1_4.index t (1 : Fin 4); omega
  | ⟨2, _⟩ => show win1_1.index t (2 : Fin 4) * 8 + 1 * j.val = j.val; omega
  | ⟨3, _⟩ => show win1_1.index t (3 : Fin 4) * 64 + 1 * ch.val = ch.val; omega

/-- Row group `n` of the third input's block at point `t` is group `groupOf t n`, head `headOf t` of its array. -/
theorem blkV (c : Dev nD) (t : Fin cfg1.N) (n : Fin 1024) (j : Fin 8) (ch : Fin 64) :
    iblk1 V c 2 t (ix4 n (0 : Fin 1) j ch) = arrV V c (ix4 (groupOf t n) (headOf t) j ch) := by
  obtain ⟨-, -, -, -, -, -, -, -, e0, e1, e2, e3, -⟩ := idx_facts t
  show arrV V c (((cfg1.win 2).blk t).view.emb (ix4 n (0 : Fin 1) j ch)) = _
  refine congrArg (arrV V c) (funext fun a => Fin.ext ?_)
  match a with
  | ⟨0, _⟩ => show win1_2.index t (0 : Fin 4) * 1024 + 1 * n.val = win1_4.index t (0 : Fin 4) * 1024 + n.val; omega
  | ⟨1, _⟩ => show win1_2.index t (1 : Fin 4) * 1 + 1 * 0 = win1_4.index t (1 : Fin 4); omega
  | ⟨2, _⟩ => show win1_2.index t (2 : Fin 4) * 8 + 1 * j.val = j.val; omega
  | ⟨3, _⟩ => show win1_2.index t (3 : Fin 4) * 64 + 1 * ch.val = ch.val; omega

/-- The scale block at point `t` holds head `headOf t`'s scale. -/
theorem blkS (c : Dev nD) (t : Fin cfg1.N) :
    iblk1 V c 3 t (ix3 (0 : Fin 1) (0 : Fin 1) (0 : Fin 1)) = arrS V c (ix3 (headOf t) (0 : Fin 1) (0 : Fin 1)) := by
  obtain ⟨-, -, -, -, -, -, -, -, -, -, -, -, e0, e1, e2, -⟩ := idx_facts t
  show arrS V c (((cfg1.win 3).blk t).view.emb (ix3 (0 : Fin 1) (0 : Fin 1) (0 : Fin 1))) = _
  refine congrArg (arrS V c) (funext fun a => Fin.ext ?_)
  match a with
  | ⟨0, _⟩ => show win1_3.index t (0 : Fin 3) * 1 + 1 * 0 = win1_4.index t (1 : Fin 4); omega
  | ⟨1, _⟩ => show win1_3.index t (1 : Fin 3) * 1 + 1 * 0 = 0; omega
  | ⟨2, _⟩ => show win1_3.index t (2 : Fin 3) * 1 + 1 * 0 = 0; omega

/-- Where row group `n`, row `r`, channel `ch` of the output's block at point `t` lies in the output array. -/
theorem emb_out (t : Fin cfg1.N) (n : Fin 1024) (r : Fin 8) (ch : Fin 64) :
    ((cfg1.win 4).blk t).view.emb (ix4 n (0 : Fin 1) r ch) = ix4 (groupOf t n) (headOf t) r ch := by
  obtain ⟨-, -, -, -, -, -, -, -, -, -, -, -, -, -, -, -, -, e2, e3⟩ := idx_facts t
  refine funext fun a => Fin.ext ?_
  match a with
  | ⟨0, _⟩ => show win1_4.index t (0 : Fin 4) * 1024 + 1 * n.val = win1_4.index t (0 : Fin 4) * 1024 + n.val; omega
  | ⟨1, _⟩ => show win1_4.index t (1 : Fin 4) * 1 + 1 * 0 = win1_4.index t (1 : Fin 4); omega
  | ⟨2, _⟩ => show win1_4.index t (2 : Fin 4) * 8 + 1 * r.val = r.val; omega
  | ⟨3, _⟩ => show win1_4.index t (3 : Fin 4) * 64 + 1 * ch.val = ch.val; omega

/-- WHAT THE BODY LEAVES AT POINT `t`, element by element: the attention array where the output's block lies. -/
theorem body_at (c : Dev nD) (t : Fin cfg1.N) (y : S1024x1x8x64.Idx) :
    k1_pay1 (k1_pay2 (iblk1 V c 2 t)) (k1_pay3 (iblk1 V c 0 t) (iblk1 V c 1 t) (iblk1 V c 3 t)) y
      = Cert.Attn.attnArr 18432 6 8 64 (arrQ V c) (arrK V c) (arrV V c) (arrS V c)
          (((cfg1.win 4).blk t).view.emb y) := by
  obtain ⟨n, z, r, ch, rfl⟩ : ∃ (n : Fin 1024) (z : Fin 1) (r : Fin 8) (ch : Fin 64), y = ix4 n z r ch :=
    ⟨_, _, _, _, eq_ix4 y⟩
  obtain rfl : z = 0 := Subsingleton.elim _ _
  rw [emb_out]
  exact pay_at (arrQ V c) (arrK V c) (arrV V c) (arrS V c) (iblk1 V c 0 t) (iblk1 V c 1 t) (iblk1 V c 2 t)
    (iblk1 V c 3 t) (groupOf t n) (headOf t) n (blkQ V c t n) (blkK V c t n) (blkV V c t n) (blkS V c t) r ch

/-- WHAT POINT `t` WRITES BACK is its block of the attention array of the four arrays as the call finds them. -/
theorem flushed_eq (c : Dev nD) (t : Fin cfg1.N) :
    (dat1 (F := Ideal) V c).flushed 4 t
      = ((cfg1.win 4).blk t).view.read (Elt Ideal)
          (Cert.Attn.attnArr 18432 6 8 64 (arrQ V c) (arrK V c) (arrV V c) (arrS V c)) := by
  show (cfg1.win 4).cut (grid1.coords t) ((dat1 V c).after 4 t) = _
  rw [after1_4]
  unfold out1_4
  rw [View.canon_unit_zero hz]
  simp only [View.ld_unit_zero (S := S1024x1x8x64) hz, View.ld_unit_zero (S := S1x1x1) hz3]
  funext y
  exact body_at V c t y

/-- An index of the output array is in point `t`'s block iff each coordinate is in the block's range on its axis. -/
theorem mem_blk (t : Fin cfg1.N) (i : S18432x6x8x64.Idx) :
    i ∈ ((cfg1.win 4).blk t).view.set
      ↔ ∀ a : Fin 4, win1_4.index t a * S1024x1x8x64.size a ≤ (i a).val
          ∧ (i a).val < win1_4.index t a * S1024x1x8x64.size a + S1024x1x8x64.size a := by
  show i ∈ ((View.whole main_v25).slice (win1_4.rect t)).set ↔ _
  rw [View.set_slice_whole, Rect.mem_set_unit]
  exact Iff.rfl

/-- Every index of the output array is in some point's block: group `g` lies in block `g / 1024` of the group axis,
    head `d` in block `d` of the head axis, and the last two axes are whole. -/
theorem cover (i : S18432x6x8x64.Idx) :
    ∃ t : Fin cfg1.N, (cfg1.win 4).flush t = true ∧ i ∈ ((cfg1.win 4).blk t).view.set := by
  have hi0 : (i 0).val < 18432 := (i 0).isLt
  have hi1 : (i 1).val < 6 := (i 1).isLt
  have hi2 : (i 2).val < 8 := (i 2).isLt
  have hi3 : (i 3).val < 64 := (i 3).isLt
  obtain ⟨t, ht⟩ := idx_onto ⟨(i 0).val / 1024, by omega⟩ ⟨(i 1).val, by omega⟩
  have q0 : win1_4.index t (0 : Fin 4) = (i 0).val / 1024 := congrFun ht 0
  have q1 : win1_4.index t (1 : Fin 4) = (i 1).val := congrFun ht 1
  have q2 : win1_4.index t (2 : Fin 4) = 0 := congrFun ht 2
  have q3 : win1_4.index t (3 : Fin 4) = 0 := congrFun ht 3
  refine ⟨t, flush1_4 t, ?_⟩
  rw [mem_blk]
  intro a
  match a with
  | ⟨0, _⟩ => show win1_4.index t (0 : Fin 4) * 1024 ≤ (i 0).val ∧ (i 0).val < win1_4.index t (0 : Fin 4) * 1024 + 1024; omega
  | ⟨1, _⟩ => show win1_4.index t (1 : Fin 4) * 1 ≤ (i 1).val ∧ (i 1).val < win1_4.index t (1 : Fin 4) * 1 + 1; omega
  | ⟨2, _⟩ => show win1_4.index t (2 : Fin 4) * 8 ≤ (i 2).val ∧ (i 2).val < win1_4.index t (2 : Fin 4) * 8 + 8; omega
  | ⟨3, _⟩ => show win1_4.index t (3 : Fin 4) * 64 ≤ (i 3).val ∧ (i 3).val < win1_4.index t (3 : Fin 4) * 64 + 64; omega

/-- The second call's result array after the call: attention of the four arrays it read. -/
theorem arr (c : Dev nD) :
    (dat1 (F := Ideal) V c).arrAt 4 cfg1.N
      = Cert.Attn.attnArr 18432 6 8 64 (arrQ V c) (arrK V c) (arrV V c) (arrS V c) :=
  (dat1 (F := Ideal) V c).arrAt_eq_of_cover 4
    (Cert.Attn.attnArr 18432 6 8 64 (arrQ V c) (arrK V c) (arrV V c) (arrS V c))
    (fun t _ => flushed_eq V c t) cover

end Cert.KernelIdeal.Arr1

end
-- ==== Proof.KerValue.lean ====
/-
  The kernel program's result array as one function of its five arguments.

  The program regroups the three videos into windows (for the first call) and into per-pixel time sequences
  (for the second), takes the exponential of the two capped logit scales, runs cosine attention over every
  window and head, regroups that result into time sequences, runs cosine attention along time with it as the
  values, and lays the result back out as a video. Each call's result array is attention of the arrays the
  call finds (the two array lemmas of the calls); the stretches of host operations before, between and
  after the calls are read back as the layout functions below; arrays written before the first call and read
  by the second are untouched in between.
-/
import proofs.«164915_j68642167324784_1_alg».proof.Proof.Gen.KernelIdeal.Frame
import proofs.«164915_j68642167324784_1_alg».proof.Proof.AttnSpec
import proofs.«164915_j68642167324784_1_alg».proof.Proof.KerArr0
import proofs.«164915_j68642167324784_1_alg».proof.Proof.KerArr1
import Idealize.ShloMosaic.Lib.StableHlo.Run
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

/-! ## The layout changes around the two calls, each as one function -/

/-- A video `[b, (d c), t, (u h), (v w)]` regrouped into windows `[(b t u v), d, (h w), c]`. -/
def toWin (x : FVec Ideal S2x384x8x96x96 .f32) : FVec Ideal S4608x6x32x64 .f32 :=
  shapeCast S4608x6x32x64 (transpose S2x8x24x12x6x4x8x64 [0, 3, 4, 6, 1, 5, 7, 2]
    (shapeCast S2x6x64x8x24x4x12x8 x Facts₀.shapeCasts_S2x384x8x96x96_S2x6x64x8x24x4x12x8)
    Facts₀.transposes_S2x6x64x8x24x4x12x8_S2x8x24x12x6x4x8x64_0_3_4_6_1_5_7_2) Facts₀.shapeCasts_S2x8x24x12x6x4x8x64_S4608x6x32x64

/-- A video regrouped into per-pixel time sequences `[(b h w), d, t, c]`. -/
def toSeq (x : FVec Ideal S2x384x8x96x96 .f32) : FVec Ideal S18432x6x8x64 .f32 :=
  shapeCast S18432x6x8x64 (transpose S2x96x96x6x8x64 [0, 4, 5, 1, 3, 2]
    (shapeCast S2x6x64x8x96x96 x Facts₀.shapeCasts_S2x384x8x96x96_S2x6x64x8x96x96)
    Facts₀.transposes_S2x6x64x8x96x96_S2x96x96x6x8x64_0_4_5_1_3_2) Facts₀.shapeCasts_S2x96x96x6x8x64_S18432x6x8x64

/-- The head scales: the exponential of the logit scale capped at the word 0x40935D8E. -/
def scale (x : FVec Ideal S6x1x1 .f32) : FVec Ideal S6x1x1 .f32 :=
  Host.exp (minimumf x (broadcastInDim S6x1x1 ![] Facts₀.bcast_S_S6x1x1 (constant (F := Ideal) S_ .f32 0x40935D8E#32)))

/-- The windowed result `[(b t u v), d, (h w), c]` regrouped into time sequences `[(b u h v w), d, t, c]`. -/
def regroup (y : FVec Ideal S4608x6x32x64 .f32) : FVec Ideal S18432x6x8x64 .f32 :=
  shapeCast S18432x6x8x64 (transpose S2x24x4x12x8x6x8x64 [0, 2, 5, 3, 6, 4, 1, 7]
    (shapeCast S2x8x24x12x6x4x8x64 y Facts₀.shapeCasts_S4608x6x32x64_S2x8x24x12x6x4x8x64)
    Facts₀.transposes_S2x8x24x12x6x4x8x64_S2x24x4x12x8x6x8x64_0_2_5_3_6_4_1_7) Facts₀.shapeCasts_S2x24x4x12x8x6x8x64_S18432x6x8x64

/-- The time sequences `[(b u h v w), d, t, c]` laid back out as a video `[b, (d c), t, (u h), (v w)]`. -/
def toVideo (y : FVec Ideal S18432x6x8x64 .f32) : FVec Ideal S2x384x8x96x96 .f32 :=
  shapeCast S2x384x8x96x96 (transpose S2x6x64x8x24x4x12x8 [0, 5, 7, 6, 1, 2, 3, 4]
    (shapeCast S2x24x4x12x8x6x8x64 y Facts₀.shapeCasts_S18432x6x8x64_S2x24x4x12x8x6x8x64)
    Facts₀.transposes_S2x24x4x12x8x6x8x64_S2x6x64x8x24x4x12x8_0_5_7_6_1_2_3_4) Facts₀.shapeCasts_S2x6x64x8x24x4x12x8_S2x384x8x96x96

/-- The whole program as one function of its five arguments: windowed attention, regrouped, then attention along time. -/
def out (x0 x1 x2 : FVec Ideal S2x384x8x96x96 .f32) (x3 x4 : FVec Ideal S6x1x1 .f32) : FVec Ideal S2x384x8x96x96 .f32 :=
  toVideo (Cert.Attn.attnArr 18432 6 8 64 (toSeq x0) (toSeq x1)
    (regroup (Cert.Attn.attnArr 4608 6 32 64 (toWin x0) (toWin x1) (toWin x2) (scale x3))) (scale x4))

variable (m : (ℓ : Loc nD τ sig) → Buf (Elt Ideal) ℓ) (ρ : Dev nD → PrngReg)

/-! ## What the first call finds: the host operations before it, read back -/

theorem V1_v2 (c : Dev nD) : V1 m ρ c main_v2 = toWin (m ((c : Thread nD τ).loc main_arg0)) := by
  show StableHlo.after hostOps0 (W0 m ρ c) (Proc.devRef .tc main_v2) = _
  after_results
  rfl
theorem V1_v5 (c : Dev nD) : V1 m ρ c main_v5 = toWin (m ((c : Thread nD τ).loc main_arg1)) := by
  show StableHlo.after hostOps0 (W0 m ρ c) (Proc.devRef .tc main_v5) = _
  after_results
  rfl
theorem V1_v8 (c : Dev nD) : V1 m ρ c main_v8 = toWin (m ((c : Thread nD τ).loc main_arg2)) := by
  show StableHlo.after hostOps0 (W0 m ρ c) (Proc.devRef .tc main_v8) = _
  after_results
  rfl
theorem V1_v17 (c : Dev nD) : V1 m ρ c main_v17 = scale (m ((c : Thread nD τ).loc main_arg3)) := by
  show StableHlo.after hostOps0 (W0 m ρ c) (Proc.devRef .tc main_v17) = _
  after_results
  rfl
theorem W1_v11 (c : Dev nD) : W1 m ρ c (Proc.devRef .tc main_v11) = toSeq (m ((c : Thread nD τ).loc main_arg0)) := by
  show StableHlo.after hostOps0 (W0 m ρ c) (Proc.devRef .tc main_v11) = _
  after_results
  rfl
theorem W1_v14 (c : Dev nD) : W1 m ρ c (Proc.devRef .tc main_v14) = toSeq (m ((c : Thread nD τ).loc main_arg1)) := by
  show StableHlo.after hostOps0 (W0 m ρ c) (Proc.devRef .tc main_v14) = _
  after_results
  rfl
theorem W1_v20 (c : Dev nD) : W1 m ρ c (Proc.devRef .tc main_v20) = scale (m ((c : Thread nD τ).loc main_arg4)) := by
  show StableHlo.after hostOps0 (W0 m ρ c) (Proc.devRef .tc main_v20) = _
  after_results
  rfl

/-! ## After the first call -/

/-- The first call's result array: windowed attention of the three regrouped videos. -/
theorem W2_v21 (c : Dev nD) : W2 m ρ c (Proc.devRef .tc main_v21)
    = Cert.Attn.attnArr 4608 6 32 64 (toWin (m ((c : Thread nD τ).loc main_arg0))) (toWin (m ((c : Thread nD τ).loc main_arg1)))
        (toWin (m ((c : Thread nD τ).loc main_arg2))) (scale (m ((c : Thread nD τ).loc main_arg3))) := by
  refine (W2_arr m ρ c 4).trans ((Cert.KernelIdeal.Arr0.arr (V1 m ρ) c).trans ?_)
  show Cert.Attn.attnArr 4608 6 32 64 (V1 m ρ c main_v2) (V1 m ρ c main_v5) (V1 m ρ c main_v8) (V1 m ρ c main_v17) = _
  rw [V1_v2, V1_v5, V1_v8, V1_v17]

/-! ## What the second call finds -/

/-- The first call's result, regrouped by the host operations between the calls. -/
theorem V3_v24 (c : Dev nD) : V3 m ρ c main_v24 = regroup (W2 m ρ c (Proc.devRef .tc main_v21)) := by
  show StableHlo.after hostOps1 (W2 m ρ c) (Proc.devRef .tc main_v24) = _
  after_results
  rfl

/- The other three arrays it reads were written before the first call and touched by nothing since. -/
theorem V3_v11 (c : Dev nD) : V3 m ρ c main_v11 = toSeq (m ((c : Thread nD τ).loc main_arg0)) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)
    _ = toSeq (m ((c : Thread nD τ).loc main_arg0)) := W1_v11 m ρ c

theorem V3_v14 (c : Dev nD) : V3 m ρ c main_v14 = toSeq (m ((c : Thread nD τ).loc main_arg1)) :=
  calc W3 m ρ c (Proc.devRef .tc main_v14)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v14) := W2_of_ne m ρ c main_v14 (by decide)
    _ = toSeq (m ((c : Thread nD τ).loc main_arg1)) := W1_v14 m ρ c

theorem V3_v20 (c : Dev nD) : V3 m ρ c main_v20 = scale (m ((c : Thread nD τ).loc main_arg4)) :=
  calc W3 m ρ c (Proc.devRef .tc main_v20)
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v20) := W2_of_ne m ρ c main_v20 (by decide)
    _ = scale (m ((c : Thread nD τ).loc main_arg4)) := W1_v20 m ρ c

/-! ## After the second call, and the result -/

/-- The second call's result array: attention along time of the two sequence arrays and the regrouped first result. -/
theorem W4_v25 (c : Dev nD) : W4 m ρ c (Proc.devRef .tc main_v25)
    = Cert.Attn.attnArr 18432 6 8 64 (toSeq (m ((c : Thread nD τ).loc main_arg0))) (toSeq (m ((c : Thread nD τ).loc main_arg1)))
        (regroup (Cert.Attn.attnArr 4608 6 32 64 (toWin (m ((c : Thread nD τ).loc main_arg0))) (toWin (m ((c : Thread nD τ).loc main_arg1)))
          (toWin (m ((c : Thread nD τ).loc main_arg2))) (scale (m ((c : Thread nD τ).loc main_arg3)))))
        (scale (m ((c : Thread nD τ).loc main_arg4))) := by
  refine (W4_arr m ρ c 4).trans ((Cert.KernelIdeal.Arr1.arr (V3 m ρ) c).trans ?_)
  show Cert.Attn.attnArr 18432 6 8 64 (V3 m ρ c main_v11) (V3 m ρ c main_v14) (V3 m ρ c main_v24) (V3 m ρ c main_v20) = _
  rw [V3_v11, V3_v14, V3_v24, V3_v20, W2_v21]

/-- The program's result array after the run is `out` of the five arguments as launched. -/
theorem out_eq (c : Dev nD) : W5 m ρ c (Proc.devRef .tc main_v28)
    = out (m ((c : Thread nD τ).loc main_arg0)) (m ((c : Thread nD τ).loc main_arg1)) (m ((c : Thread nD τ).loc main_arg2))
        (m ((c : Thread nD τ).loc main_arg3)) (m ((c : Thread nD τ).loc main_arg4)) := by
  have h : W5 m ρ c (Proc.devRef .tc main_v28) = toVideo (W4 m ρ c (Proc.devRef .tc main_v25)) := by
    show StableHlo.after hostOps2 (W4 m ρ c) (Proc.devRef .tc main_v28) = _
    after_results
    rfl
  rw [h, W4_v25]
  rfl

end Cert.KernelIdeal.Whole

end
-- ==== Proof.LibHostMax4.lean ====
/-
  A `stablehlo.reduce` with a maximum body over the LAST axis of a rank-four array, read at an index.

  The reduction's result at `(n, d, r)` is the fold of `max`, from the initial value's one element, over the row
  `k ↦ x (n, d, r, k)`. Stated for arbitrary extents `[N, D, L, M]`.
-/
import Idealize.ShloMosaic.PureOps.Reduce
import Idealize.ShloMosaic.PureOps.Ideal.Laws
import Idealize.ShloMosaic.Lib.ValueIdx

noncomputable section

namespace Cert.HostMax4

open Idealize.ShloMosaic Idealize.ShloMosaic.ValueIdx

variable {N D L M : ℕ}

/-- The result index `(n, d, r)` with the coordinate `k` put back on the dropped last axis is `(n, d, r, k)`. -/
theorem lift_ix3 (h : (⟨4, ![N, D, L, M]⟩ : Shape).Reduces [3] (⟨3, ![N, D, L]⟩ : Shape)) (n : Fin N) (d : Fin D)
    (r : Fin L) (k : Fin ((⟨4, ![N, D, L, M]⟩ : Shape).size 3)) :
    h.lift (ix3 n d r) k = ix4 n d r (⟨k.val, k.isLt⟩ : Fin M) := by
  funext c
  apply Fin.ext
  match c with
  | ⟨0, _⟩ => rfl
  | ⟨1, _⟩ => rfl
  | ⟨2, _⟩ => rfl
  | ⟨3, _⟩ => rfl

/-- A maximum-bodied reduce over the last of four axes, at `(n, d, r)`: the fold of `max` from the initial value's
    element over the row `k ↦ x (n, d, r, k)`. -/
theorem hostReduce_maximumf_last {u : Shape} (x : (⟨4, ![N, D, L, M]⟩ : Shape).Idx → Ideal .f32)
    (init : u.Idx → Ideal .f32)
    (h' : (⟨4, ![N, D, L, M]⟩ : Shape).ReducesTo [3] (⟨3, ![N, D, L]⟩ : Shape))
    (h : (⟨4, ![N, D, L, M]⟩ : Shape).Reduces [3] (⟨3, ![N, D, L]⟩ : Shape)) (hu : 0 < u.numel)
    (n : Fin N) (d : Fin D) (r : Fin L) :
    Host.reduce FloatOps.maximumf x init h' hu (ix3 n d r)
      = (Finset.univ : Finset (Fin M)).fold max (init (Shape.Idx.first hu)) (fun k => x (ix4 n d r k)) := by
  rw [Host.reduce_eq_fold_single FloatOps.maximumf x init h' h hu]
  have hf : (x ∘ h.lift (ix3 n d r)) = fun k : Fin M => x (ix4 n d r k) :=
    funext fun k => congrArg x (lift_ix3 h n d r k)
  exact congrArg (fun f => Finset.fold max (init (Shape.Idx.first hu)) f (Finset.univ : Finset (Fin M))) hf

end Cert.HostMax4

end
-- ==== Proof.RefAttn0.lean ====
/-
  One attention of the reference, read at an index.

  The reference computes an attention with whole-array operations on four-axis arrays (groups, heads, positions,
  channels): the sum of squares over the channel axis kept as a column, its square root floored at a word, the
  quotient by it; the contraction of the two normalised arrays over the channels for every group and head; the
  product with the head's scale spread over the array; the maximum over the last axis from minus infinity; the
  shifted exponentials, their sum over the last axis and the quotient by it; and the contraction with the value
  array. Read at `(n, d, r, ·)`, each stage is, stage for stage, the matching definition of `Cert.Attn` on the
  rows of group `n`, head `d`, with head `d`'s scale.
-/
import proofs.«164915_j68642167324784_1_alg».proof.Proof.Gen.ReferenceIdeal.Read
import proofs.«164915_j68642167324784_1_alg».proof.Proof.AttnSpec
import proofs.«164915_j68642167324784_1_alg».proof.Proof.LibHostMax4
import Idealize.ShloMosaic.Lib.ValueIdx
import Idealize.ShloMosaic.Lib.Pipeline.Value
import Idealize.ShloMosaic.PureOps.Ideal.Laws

noncomputable section

open scoped BigOperators

namespace Cert.ReferenceIdeal.Attn0

open Cert.ReferenceIdeal Cert.ReferenceIdeal.Gen Cert.ReferenceIdeal.Read Idealize.ShloMosaic Idealize.ShloMosaic.ValueIdx

/-! ## The index maps at literal coordinates

Each generated index map, applied to an index given by its coordinates, is the index of the coordinates it keeps. -/

section Idx

variable (n : Fin 4608) (d : Fin 6) (r : Fin 32)

/-- Summing `q`'s squares over the channels: channel `k` of row `(n, d, r)`. -/
theorem idx_qSq (k : Fin 64) : idx_main_v22 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_qKeep : idx_main_v23 (ix4 n d r (0 : Fin 1)) = ix3 n d r :=
  funext fun a => Fin.ext (by match a with | ⟨0, _⟩ => rfl | ⟨1, _⟩ => rfl | ⟨2, _⟩ => rfl)

/-- Spreading the row's norm over the channels. -/
theorem idx_qSpread (c : Fin 64) : idx_main_v27 (ix4 n d r c) = ix4 n d r (0 : Fin 1) :=
  funext fun a => Fin.ext (by match a with | ⟨0, _⟩ => rfl | ⟨1, _⟩ => rfl | ⟨2, _⟩ => rfl | ⟨3, _⟩ => rfl)

/-- Summing `k`'s squares over the channels. -/
theorem idx_kSq (k : Fin 64) : idx_main_v30 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_kKeep : idx_main_v31 (ix4 n d r (0 : Fin 1)) = ix3 n d r :=
  funext fun a => Fin.ext (by match a with | ⟨0, _⟩ => rfl | ⟨1, _⟩ => rfl | ⟨2, _⟩ => rfl)

/-- Spreading the row's norm over the channels. -/
theorem idx_kSpread (c : Fin 64) : idx_main_v35 (ix4 n d r c) = ix4 n d r (0 : Fin 1) :=
  funext fun a => Fin.ext (by match a with | ⟨0, _⟩ => rfl | ⟨1, _⟩ => rfl | ⟨2, _⟩ => rfl | ⟨3, _⟩ => rfl)

/-- The left operand of the logits' contraction: channel `k` of row `r`. -/
theorem lidx_logit (j : Fin 32) (k : Fin 64) : lidx_main_v37 (ix4 n d r j) k = ix4 n d r k :=
  funext fun a => Fin.ext (by match a with | ⟨0, _⟩ => rfl | ⟨1, _⟩ => rfl | ⟨2, _⟩ => rfl | ⟨3, _⟩ => rfl)

/-- The right operand of the logits' contraction: channel `k` of row `j`. -/
theorem ridx_logit (j : Fin 32) (k : Fin 64) : ridx_main_v37 (ix4 n d r j) k = ix4 n d j k :=
  funext fun a => Fin.ext (by match a with | ⟨0, _⟩ => rfl | ⟨1, _⟩ => rfl | ⟨2, _⟩ => rfl | ⟨3, _⟩ => rfl)

/-- The scale of head `d` in the `[1, 6, 1, 1]` array. -/
theorem idx_scale : idx_main_v38 (ix4 (0 : Fin 1) d (0 : Fin 1) (0 : Fin 1)) = ix3 d (0 : Fin 1) (0 : Fin 1) :=
  funext fun a => Fin.ext (by match a with | ⟨0, _⟩ => rfl | ⟨1, _⟩ => rfl | ⟨2, _⟩ => rfl)

/-- Spreading the head's scale over groups, rows and columns. -/
theorem idx_scaleSpread (j : Fin 32) : idx_main_v39 (ix4 n d r j) = ix4 (0 : Fin 1) d (0 : Fin 1) (0 : Fin 1) :=
  funext fun a => Fin.ext (by match a with | ⟨0, _⟩ => rfl | ⟨1, _⟩ => rfl | ⟨2, _⟩ => rfl | ⟨3, _⟩ => rfl)

/-- Keeping the maximised axis as a size-one axis. -/
theorem idx_maxKeep : idx_main_v44 (ix4 n d r (0 : Fin 1)) = ix3 n d r :=
  funext fun a => Fin.ext (by match a with | ⟨0, _⟩ => rfl | ⟨1, _⟩ => rfl | ⟨2, _⟩ => rfl)

/-- Spreading the row's maximum over the columns. -/
theorem idx_maxSpread (j : Fin 32) : idx_main_v45 (ix4 n d r j) = ix4 n d r (0 : Fin 1) :=
  funext fun a => Fin.ext (by match a with | ⟨0, _⟩ => rfl | ⟨1, _⟩ => rfl | ⟨2, _⟩ => rfl | ⟨3, _⟩ => rfl)

/-- Summing the exponentials over the columns: column `k` of row `(n, d, r)`. -/
theorem idx_expSum (k : Fin 32) : idx_main_v48 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_sumKeep : idx_main_v49 (ix4 n d r (0 : Fin 1)) = ix3 n d r :=
  funext fun a => Fin.ext (by match a with | ⟨0, _⟩ => rfl | ⟨1, _⟩ => rfl | ⟨2, _⟩ => rfl)

/-- Spreading the row's sum over the columns. -/
theorem idx_sumSpread (j : Fin 32) : idx_main_v50 (ix4 n d r j) = ix4 n d r (0 : Fin 1) :=
  funext fun a => Fin.ext (by match a with | ⟨0, _⟩ => rfl | ⟨1, _⟩ => rfl | ⟨2, _⟩ => rfl | ⟨3, _⟩ => rfl)

/-- The left operand of the output's contraction: weight `k` of row `r`. -/
theorem lidx_out (c : Fin 64) (k : Fin 32) : lidx_main_v83 (ix4 n d r c) k = ix4 n d r k :=
  funext fun a => Fin.ext (by match a with | ⟨0, _⟩ => rfl | ⟨1, _⟩ => rfl | ⟨2, _⟩ => rfl | ⟨3, _⟩ => rfl)

/-- The right operand of the output's contraction: channel `c` of row `k` of `v`. -/
theorem ridx_out (c : Fin 64) (k : Fin 32) : ridx_main_v83 (ix4 n d r c) k = ix4 n d k c :=
  funext fun a => Fin.ext (by match a with | ⟨0, _⟩ => rfl | ⟨1, _⟩ => rfl | ⟨2, _⟩ => rfl | ⟨3, _⟩ => rfl)

end Idx

/-! ## The stages, bottom-up -/

section Stages

variable (x0 x1 x2 : (⟨S2x384x8x96x96, .f32⟩ : BufTy).Contents (Elt Ideal)) (xs : (⟨S6x1x1, .f32⟩ : BufTy).Contents (Elt Ideal))
  (n : Fin 4608) (d : Fin 6) (r : Fin 32)

/-- The floored Euclidean norm of row `r` of `q`. -/
theorem qNorm_apply :
    val_main_v26 (F := Ideal) x0 (ix4 n d r (0 : Fin 1))
      = Cert.Attn.floorNorm (fun r c => val_main_v2 (F := Ideal) x0 (ix4 n d r c)) r := by
  rw [val_main_v26_apply, val_main_v24_apply, val_main_v23_apply, idx_qKeep, val_main_v22_apply, val_main_v25_apply,
    val_main_cst_2_apply, val_main_cst_1_apply]
  have hs : (∑ k : Fin 64, val_main_v21 (F := Ideal) x0 (idx_main_v22 (ix3 n d r) k))
      = ∑ c : Fin 64, val_main_v2 (F := Ideal) x0 (ix4 n d r c) * val_main_v2 (F := Ideal) x0 (ix4 n d r c) :=
    Finset.sum_congr rfl fun k _ => congrArg (val_main_v21 (F := Ideal) x0) (idx_qSq n d r k)
  rw [hs]
  simp only [Ideal.ofBits_def, Ideal.ofBits_zero_f32, zero_add]
  rfl

/-- Row `r` of `q` divided by its floored norm. -/
theorem qUnit_apply (c : Fin 64) :
    val_main_v28 (F := Ideal) x0 (ix4 n d r c)
      = Cert.Attn.unitRow (fun r c => val_main_v2 (F := Ideal) x0 (ix4 n d r c)) r c := by
  rw [val_main_v28_apply, val_main_v27_apply, idx_qSpread, qNorm_apply]
  rfl

/-- The floored Euclidean norm of row `r` of `k`. -/
theorem kNorm_apply :
    val_main_v34 (F := Ideal) x1 (ix4 n d r (0 : Fin 1))
      = Cert.Attn.floorNorm (fun j c => val_main_v5 (F := Ideal) x1 (ix4 n d j c)) r := by
  rw [val_main_v34_apply, val_main_v32_apply, val_main_v31_apply, idx_kKeep, val_main_v30_apply, val_main_v33_apply,
    val_main_cst_4_apply, val_main_cst_3_apply]
  have hs : (∑ k : Fin 64, val_main_v29 (F := Ideal) x1 (idx_main_v30 (ix3 n d r) k))
      = ∑ c : Fin 64, val_main_v5 (F := Ideal) x1 (ix4 n d r c) * val_main_v5 (F := Ideal) x1 (ix4 n d r c) :=
    Finset.sum_congr rfl fun k _ => congrArg (val_main_v29 (F := Ideal) x1) (idx_kSq n d r k)
  rw [hs]
  simp only [Ideal.ofBits_def, Ideal.ofBits_zero_f32, zero_add]
  rfl

/-- Row `r` of `k` divided by its floored norm. -/
theorem kUnit_apply (c : Fin 64) :
    val_main_v36 (F := Ideal) x1 (ix4 n d r c)
      = Cert.Attn.unitRow (fun j c => val_main_v5 (F := Ideal) x1 (ix4 n d j c)) r c := by
  rw [val_main_v36_apply, val_main_v35_apply, idx_kSpread, kNorm_apply]
  rfl

/-- The scaled cosine of row `r` of `q` and row `j` of `k`. -/
theorem logit_apply (j : Fin 32) :
    val_main_v40 (F := Ideal) x0 x1 xs (ix4 n d r j)
      = Cert.Attn.logit (fun r c => val_main_v2 (F := Ideal) x0 (ix4 n d r c)) (fun j c => val_main_v5 (F := Ideal) x1 (ix4 n d j c))
          (val_main_v17 (F := Ideal) xs (ix3 d (0 : Fin 1) (0 : Fin 1))) r j := by
  rw [val_main_v40_apply, val_main_v37_apply, val_main_v39_apply, idx_scaleSpread, val_main_v38_apply, idx_scale]
  have hs : (∑ k : Fin 64, val_main_v28 (F := Ideal) x0 (lidx_main_v37 (ix4 n d r j) k) * val_main_v36 (F := Ideal) x1 (ridx_main_v37 (ix4 n d r j) k))
      = ∑ c : Fin 64, Cert.Attn.unitRow (fun r c => val_main_v2 (F := Ideal) x0 (ix4 n d r c)) r c
          * Cert.Attn.unitRow (fun j c => val_main_v5 (F := Ideal) x1 (ix4 n d j c)) j c :=
    Finset.sum_congr rfl fun k _ => by rw [lidx_logit, ridx_logit, qUnit_apply, kUnit_apply]
  rw [hs]
  rfl

/-- The maximum-bodied reduce over the columns of row `r`: the fold of `max` over the row's logits from minus infinity. -/
theorem rowFold_apply :
    val_main_v41 (F := Ideal) x0 x1 xs (ix3 n d r)
      = (Finset.univ : Finset (Fin 32)).fold max (Ideal.ofBits .f32 0xFF800000#32)
          (fun j => Cert.Attn.logit (fun r c => val_main_v2 (F := Ideal) x0 (ix4 n d r c)) (fun j c => val_main_v5 (F := Ideal) x1 (ix4 n d j c))
            (val_main_v17 (F := Ideal) xs (ix3 d (0 : Fin 1) (0 : Fin 1))) r j) := by
  unfold val_main_v41
  refine (Cert.HostMax4.hostReduce_maximumf_last (val_main_v40 (F := Ideal) x0 x1 xs)
    (val_main_cst_5 (F := Ideal)) reducesTo_S4608x6x32x32_S4608x6x32_d3 (by decide) h_S_ n d r).trans ?_
  exact congrArg (fun f => Finset.fold max (Ideal.ofBits .f32 0xFF800000#32) f (Finset.univ : Finset (Fin 32)))
    (funext fun j => logit_apply x0 x1 xs n d r j)

/-- The largest logit of row `r`, taken from minus infinity. -/
theorem rowMax_apply :
    val_main_v43 (F := Ideal) x0 x1 xs (ix3 n d r)
      = Cert.Attn.rowMax (fun r c => val_main_v2 (F := Ideal) x0 (ix4 n d r c)) (fun j c => val_main_v5 (F := Ideal) x1 (ix4 n d j c))
          (val_main_v17 (F := Ideal) xs (ix3 d (0 : Fin 1) (0 : Fin 1))) r := by
  rw [val_main_v43_apply, val_main_v42_apply, val_main_cst_6_apply, rowFold_apply]
  rfl

/-- The exponential of a logit shifted by its row's maximum. -/
theorem expo_apply (j : Fin 32) :
    val_main_v47 (F := Ideal) x0 x1 xs (ix4 n d r j)
      = Cert.Attn.expo (fun r c => val_main_v2 (F := Ideal) x0 (ix4 n d r c)) (fun j c => val_main_v5 (F := Ideal) x1 (ix4 n d j c))
          (val_main_v17 (F := Ideal) xs (ix3 d (0 : Fin 1) (0 : Fin 1))) r j := by
  rw [val_main_v47_apply, val_main_v46_apply, val_main_v45_apply, idx_maxSpread, val_main_v44_apply, idx_maxKeep, rowMax_apply, logit_apply]
  rfl

/-- The sum of row `r`'s exponentials. -/
theorem expoSum_apply :
    val_main_v48 (F := Ideal) x0 x1 xs (ix3 n d r)
      = ∑ j' : Fin 32, Cert.Attn.expo (fun r c => val_main_v2 (F := Ideal) x0 (ix4 n d r c)) (fun j c => val_main_v5 (F := Ideal) x1 (ix4 n d j c))
          (val_main_v17 (F := Ideal) xs (ix3 d (0 : Fin 1) (0 : Fin 1))) r j' := by
  rw [val_main_v48_apply, val_main_cst_7_apply]
  have hs : (∑ k : Fin 32, val_main_v47 (F := Ideal) x0 x1 xs (idx_main_v48 (ix3 n d r) k))
      = ∑ j' : Fin 32, Cert.Attn.expo (fun r c => val_main_v2 (F := Ideal) x0 (ix4 n d r c)) (fun j c => val_main_v5 (F := Ideal) x1 (ix4 n d j c))
          (val_main_v17 (F := Ideal) xs (ix3 d (0 : Fin 1) (0 : Fin 1))) r j' :=
    Finset.sum_congr rfl fun k _ => by rw [idx_expSum, expo_apply]
  rw [hs]
  simp only [Ideal.ofBits_def, Ideal.ofBits_zero_f32, zero_add]

/-- The softmax weight of column `j` in row `r`. -/
theorem weight_apply (j : Fin 32) :
    val_main_v51 (F := Ideal) x0 x1 xs (ix4 n d r j)
      = Cert.Attn.weight (fun r c => val_main_v2 (F := Ideal) x0 (ix4 n d r c)) (fun j c => val_main_v5 (F := Ideal) x1 (ix4 n d j c))
          (val_main_v17 (F := Ideal) xs (ix3 d (0 : Fin 1) (0 : Fin 1))) r j := by
  rw [val_main_v51_apply, val_main_v50_apply, idx_sumSpread, val_main_v49_apply, idx_sumKeep, expoSum_apply, expo_apply]
  rfl

end Stages

/-- The reference's windowed attention read at `(n, d, r, c)`: attention of group `n`, head `d` of the three
    windowed arrays, with head `d`'s scale. -/
theorem v83_apply (x0 x1 x2 : (⟨S2x384x8x96x96, .f32⟩ : BufTy).Contents (Elt Ideal)) (x3 : (⟨S6x1x1, .f32⟩ : BufTy).Contents (Elt Ideal))
    (n : Fin 4608) (d : Fin 6) (r : Fin 32) (c : Fin 64) :
    val_main_v83 (F := Ideal) x0 x1 x2 x3 (ix4 n d r c)
      = Cert.Attn.attnAt (fun r c => val_main_v2 (F := Ideal) x0 (ix4 n d r c)) (fun j c => val_main_v5 (F := Ideal) x1 (ix4 n d j c))
          (fun j c => val_main_v8 (F := Ideal) x2 (ix4 n d j c)) (val_main_v17 (F := Ideal) x3 (ix3 d (0 : Fin 1) (0 : Fin 1))) r c := by
  rw [val_main_v83_apply]
  unfold Cert.Attn.attnAt
  refine Finset.sum_congr rfl fun k _ => ?_
  rw [lidx_out, ridx_out, weight_apply]

/-- The same as one equation between arrays. -/
theorem v83_eq (x0 x1 x2 : (⟨S2x384x8x96x96, .f32⟩ : BufTy).Contents (Elt Ideal)) (x3 : (⟨S6x1x1, .f32⟩ : BufTy).Contents (Elt Ideal)) :
    val_main_v83 (F := Ideal) x0 x1 x2 x3
      = Cert.Attn.attnArr 4608 6 32 64 (val_main_v2 (F := Ideal) x0) (val_main_v5 (F := Ideal) x1) (val_main_v8 (F := Ideal) x2) (val_main_v17 (F := Ideal) x3) := by
  funext i
  obtain ⟨n, d, r, c, rfl⟩ : ∃ (n : Fin 4608) (d : Fin 6) (r : Fin 32) (c : Fin 64), i = ix4 n d r c := ⟨i 0, i 1, i 2, i 3, eq_ix4 i⟩
  exact v83_apply x0 x1 x2 x3 n d r c

end Cert.ReferenceIdeal.Attn0

end
-- ==== Proof.RefAttn1.lean ====
/-
  One attention of the reference, read at an index.

  The reference computes an attention with whole-array operations on four-axis arrays (groups, heads, positions,
  channels): the sum of squares over the channel axis kept as a column, its square root floored at a word, the
  quotient by it; the contraction of the two normalised arrays over the channels for every group and head; the
  product with the head's scale spread over the array; the maximum over the last axis from minus infinity; the
  shifted exponentials, their sum over the last axis and the quotient by it; and the contraction with the value
  array. Read at `(n, d, r, ·)`, each stage is, stage for stage, the matching definition of `Cert.Attn` on the
  rows of group `n`, head `d`, with head `d`'s scale.
-/
import proofs.«164915_j68642167324784_1_alg».proof.Proof.Gen.ReferenceIdeal.Read
import proofs.«164915_j68642167324784_1_alg».proof.Proof.AttnSpec
import proofs.«164915_j68642167324784_1_alg».proof.Proof.LibHostMax4
import Idealize.ShloMosaic.Lib.ValueIdx
import Idealize.ShloMosaic.Lib.Pipeline.Value
import Idealize.ShloMosaic.PureOps.Ideal.Laws

noncomputable section

open scoped BigOperators

namespace Cert.ReferenceIdeal.Attn1

open Cert.ReferenceIdeal Cert.ReferenceIdeal.Gen Cert.ReferenceIdeal.Read Idealize.ShloMosaic Idealize.ShloMosaic.ValueIdx

/-! ## The index maps at literal coordinates

Each generated index map, applied to an index given by its coordinates, is the index of the coordinates it keeps. -/

section Idx

variable (n : Fin 18432) (d : Fin 6) (r : Fin 8)

/-- Summing `q`'s squares over the channels: channel `k` of row `(n, d, r)`. -/
theorem idx_qSq (k : Fin 64) : idx_main_v53 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_qKeep : idx_main_v54 (ix4 n d r (0 : Fin 1)) = ix3 n d r :=
  funext fun a => Fin.ext (by match a with | ⟨0, _⟩ => rfl | ⟨1, _⟩ => rfl | ⟨2, _⟩ => rfl)

/-- Spreading the row's norm over the channels. -/
theorem idx_qSpread (c : Fin 64) : idx_main_v58 (ix4 n d r c) = ix4 n d r (0 : Fin 1) :=
  funext fun a => Fin.ext (by match a with | ⟨0, _⟩ => rfl | ⟨1, _⟩ => rfl | ⟨2, _⟩ => rfl | ⟨3, _⟩ => rfl)

/-- Summing `k`'s squares over the channels. -/
theorem idx_kSq (k : Fin 64) : idx_main_v61 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_kKeep : idx_main_v62 (ix4 n d r (0 : Fin 1)) = ix3 n d r :=
  funext fun a => Fin.ext (by match a with | ⟨0, _⟩ => rfl | ⟨1, _⟩ => rfl | ⟨2, _⟩ => rfl)

/-- Spreading the row's norm over the channels. -/
theorem idx_kSpread (c : Fin 64) : idx_main_v66 (ix4 n d r c) = ix4 n d r (0 : Fin 1) :=
  funext fun a => Fin.ext (by match a with | ⟨0, _⟩ => rfl | ⟨1, _⟩ => rfl | ⟨2, _⟩ => rfl | ⟨3, _⟩ => rfl)

/-- The left operand of the logits' contraction: channel `k` of row `r`. -/
theorem lidx_logit (j : Fin 8) (k : Fin 64) : lidx_main_v68 (ix4 n d r j) k = ix4 n d r k :=
  funext fun a => Fin.ext (by match a with | ⟨0, _⟩ => rfl | ⟨1, _⟩ => rfl | ⟨2, _⟩ => rfl | ⟨3, _⟩ => rfl)

/-- The right operand of the logits' contraction: channel `k` of row `j`. -/
theorem ridx_logit (j : Fin 8) (k : Fin 64) : ridx_main_v68 (ix4 n d r j) k = ix4 n d j k :=
  funext fun a => Fin.ext (by match a with | ⟨0, _⟩ => rfl | ⟨1, _⟩ => rfl | ⟨2, _⟩ => rfl | ⟨3, _⟩ => rfl)

/-- The scale of head `d` in the `[1, 6, 1, 1]` array. -/
theorem idx_scale : idx_main_v69 (ix4 (0 : Fin 1) d (0 : Fin 1) (0 : Fin 1)) = ix3 d (0 : Fin 1) (0 : Fin 1) :=
  funext fun a => Fin.ext (by match a with | ⟨0, _⟩ => rfl | ⟨1, _⟩ => rfl | ⟨2, _⟩ => rfl)

/-- Spreading the head's scale over groups, rows and columns. -/
theorem idx_scaleSpread (j : Fin 8) : idx_main_v70 (ix4 n d r j) = ix4 (0 : Fin 1) d (0 : Fin 1) (0 : Fin 1) :=
  funext fun a => Fin.ext (by match a with | ⟨0, _⟩ => rfl | ⟨1, _⟩ => rfl | ⟨2, _⟩ => rfl | ⟨3, _⟩ => rfl)

/-- Keeping the maximised axis as a size-one axis. -/
theorem idx_maxKeep : idx_main_v75 (ix4 n d r (0 : Fin 1)) = ix3 n d r :=
  funext fun a => Fin.ext (by match a with | ⟨0, _⟩ => rfl | ⟨1, _⟩ => rfl | ⟨2, _⟩ => rfl)

/-- Spreading the row's maximum over the columns. -/
theorem idx_maxSpread (j : Fin 8) : idx_main_v76 (ix4 n d r j) = ix4 n d r (0 : Fin 1) :=
  funext fun a => Fin.ext (by match a with | ⟨0, _⟩ => rfl | ⟨1, _⟩ => rfl | ⟨2, _⟩ => rfl | ⟨3, _⟩ => rfl)

/-- Summing the exponentials over the columns: column `k` of row `(n, d, r)`. -/
theorem idx_expSum (k : Fin 8) : idx_main_v79 (ix3 n d r) k = ix4 n d r k :=
  funext fun a => Fin.ext (by match a with | ⟨0, _⟩ => rfl | ⟨1, _⟩ => rfl | ⟨2, _⟩ => rfl | ⟨3, _⟩ => rfl)

/-- Keeping the summed axis as a size-one axis. -/
theorem idx_sumKeep : idx_main_v80 (ix4 n d r (0 : Fin 1)) = ix3 n d r :=
  funext fun a => Fin.ext (by match a with | ⟨0, _⟩ => rfl | ⟨1, _⟩ => rfl | ⟨2, _⟩ => rfl)

/-- Spreading the row's sum over the columns. -/
theorem idx_sumSpread (j : Fin 8) : idx_main_v81 (ix4 n d r j) = ix4 n d r (0 : Fin 1) :=
  funext fun a => Fin.ext (by match a with | ⟨0, _⟩ => rfl | ⟨1, _⟩ => rfl | ⟨2, _⟩ => rfl | ⟨3, _⟩ => rfl)

/-- The left operand of the output's contraction: weight `k` of row `r`. -/
theorem lidx_out (c : Fin 64) (k : Fin 8) : lidx_main_v87 (ix4 n d r c) k = ix4 n d r k :=
  funext fun a => Fin.ext (by match a with | ⟨0, _⟩ => rfl | ⟨1, _⟩ => rfl | ⟨2, _⟩ => rfl | ⟨3, _⟩ => rfl)

/-- The right operand of the output's contraction: channel `c` of row `k` of `v`. -/
theorem ridx_out (c : Fin 64) (k : Fin 8) : ridx_main_v87 (ix4 n d r c) k = ix4 n d k c :=
  funext fun a => Fin.ext (by match a with | ⟨0, _⟩ => rfl | ⟨1, _⟩ => rfl | ⟨2, _⟩ => rfl | ⟨3, _⟩ => rfl)

end Idx

/-! ## The stages, bottom-up -/

section Stages

variable (x0 x1 x2 : (⟨S2x384x8x96x96, .f32⟩ : BufTy).Contents (Elt Ideal)) (xs : (⟨S6x1x1, .f32⟩ : BufTy).Contents (Elt Ideal))
  (n : Fin 18432) (d : Fin 6) (r : Fin 8)

/-- The floored Euclidean norm of row `r` of `q`. -/
theorem qNorm_apply :
    val_main_v57 (F := Ideal) x0 (ix4 n d r (0 : Fin 1))
      = Cert.Attn.floorNorm (fun r c => val_main_v11 (F := Ideal) x0 (ix4 n d r c)) r := by
  rw [val_main_v57_apply, val_main_v55_apply, val_main_v54_apply, idx_qKeep, val_main_v53_apply, val_main_v56_apply,
    val_main_cst_9_apply, val_main_cst_8_apply]
  have hs : (∑ k : Fin 64, val_main_v52 (F := Ideal) x0 (idx_main_v53 (ix3 n d r) k))
      = ∑ c : Fin 64, val_main_v11 (F := Ideal) x0 (ix4 n d r c) * val_main_v11 (F := Ideal) x0 (ix4 n d r c) :=
    Finset.sum_congr rfl fun k _ => congrArg (val_main_v52 (F := Ideal) x0) (idx_qSq n d r k)
  rw [hs]
  simp only [Ideal.ofBits_def, Ideal.ofBits_zero_f32, zero_add]
  rfl

/-- Row `r` of `q` divided by its floored norm. -/
theorem qUnit_apply (c : Fin 64) :
    val_main_v59 (F := Ideal) x0 (ix4 n d r c)
      = Cert.Attn.unitRow (fun r c => val_main_v11 (F := Ideal) x0 (ix4 n d r c)) r c := by
  rw [val_main_v59_apply, val_main_v58_apply, idx_qSpread, qNorm_apply]
  rfl

/-- The floored Euclidean norm of row `r` of `k`. -/
theorem kNorm_apply :
    val_main_v65 (F := Ideal) x1 (ix4 n d r (0 : Fin 1))
      = Cert.Attn.floorNorm (fun j c => val_main_v14 (F := Ideal) x1 (ix4 n d j c)) r := by
  rw [val_main_v65_apply, val_main_v63_apply, val_main_v62_apply, idx_kKeep, val_main_v61_apply, val_main_v64_apply,
    val_main_cst_11_apply, val_main_cst_10_apply]
  have hs : (∑ k : Fin 64, val_main_v60 (F := Ideal) x1 (idx_main_v61 (ix3 n d r) k))
      = ∑ c : Fin 64, val_main_v14 (F := Ideal) x1 (ix4 n d r c) * val_main_v14 (F := Ideal) x1 (ix4 n d r c) :=
    Finset.sum_congr rfl fun k _ => congrArg (val_main_v60 (F := Ideal) x1) (idx_kSq n d r k)
  rw [hs]
  simp only [Ideal.ofBits_def, Ideal.ofBits_zero_f32, zero_add]
  rfl

/-- Row `r` of `k` divided by its floored norm. -/
theorem kUnit_apply (c : Fin 64) :
    val_main_v67 (F := Ideal) x1 (ix4 n d r c)
      = Cert.Attn.unitRow (fun j c => val_main_v14 (F := Ideal) x1 (ix4 n d j c)) r c := by
  rw [val_main_v67_apply, val_main_v66_apply, idx_kSpread, kNorm_apply]
  rfl

/-- The scaled cosine of row `r` of `q` and row `j` of `k`. -/
theorem logit_apply (j : Fin 8) :
    val_main_v71 (F := Ideal) x0 x1 xs (ix4 n d r j)
      = Cert.Attn.logit (fun r c => val_main_v11 (F := Ideal) x0 (ix4 n d r c)) (fun j c => val_main_v14 (F := Ideal) x1 (ix4 n d j c))
          (val_main_v20 (F := Ideal) xs (ix3 d (0 : Fin 1) (0 : Fin 1))) r j := by
  rw [val_main_v71_apply, val_main_v68_apply, val_main_v70_apply, idx_scaleSpread, val_main_v69_apply, idx_scale]
  have hs : (∑ k : Fin 64, val_main_v59 (F := Ideal) x0 (lidx_main_v68 (ix4 n d r j) k) * val_main_v67 (F := Ideal) x1 (ridx_main_v68 (ix4 n d r j) k))
      = ∑ c : Fin 64, Cert.Attn.unitRow (fun r c => val_main_v11 (F := Ideal) x0 (ix4 n d r c)) r c
          * Cert.Attn.unitRow (fun j c => val_main_v14 (F := Ideal) x1 (ix4 n d j c)) j c :=
    Finset.sum_congr rfl fun k _ => by rw [lidx_logit, ridx_logit, qUnit_apply, kUnit_apply]
  rw [hs]
  rfl

/-- The maximum-bodied reduce over the columns of row `r`: the fold of `max` over the row's logits from minus infinity. -/
theorem rowFold_apply :
    val_main_v72 (F := Ideal) x0 x1 xs (ix3 n d r)
      = (Finset.univ : Finset (Fin 8)).fold max (Ideal.ofBits .f32 0xFF800000#32)
          (fun j => Cert.Attn.logit (fun r c => val_main_v11 (F := Ideal) x0 (ix4 n d r c)) (fun j c => val_main_v14 (F := Ideal) x1 (ix4 n d j c))
            (val_main_v20 (F := Ideal) xs (ix3 d (0 : Fin 1) (0 : Fin 1))) r j) := by
  unfold val_main_v72
  refine (Cert.HostMax4.hostReduce_maximumf_last (val_main_v71 (F := Ideal) x0 x1 xs)
    (val_main_cst_12 (F := Ideal)) reducesTo_S18432x6x8x8_S18432x6x8_d3 (by decide) h_S_ n d r).trans ?_
  exact congrArg (fun f => Finset.fold max (Ideal.ofBits .f32 0xFF800000#32) f (Finset.univ : Finset (Fin 8)))
    (funext fun j => logit_apply x0 x1 xs n d r j)

/-- The largest logit of row `r`, taken from minus infinity. -/
theorem rowMax_apply :
    val_main_v74 (F := Ideal) x0 x1 xs (ix3 n d r)
      = Cert.Attn.rowMax (fun r c => val_main_v11 (F := Ideal) x0 (ix4 n d r c)) (fun j c => val_main_v14 (F := Ideal) x1 (ix4 n d j c))
          (val_main_v20 (F := Ideal) xs (ix3 d (0 : Fin 1) (0 : Fin 1))) r := by
  rw [val_main_v74_apply, val_main_v73_apply, val_main_cst_13_apply, rowFold_apply]
  rfl

/-- The exponential of a logit shifted by its row's maximum. -/
theorem expo_apply (j : Fin 8) :
    val_main_v78 (F := Ideal) x0 x1 xs (ix4 n d r j)
      = Cert.Attn.expo (fun r c => val_main_v11 (F := Ideal) x0 (ix4 n d r c)) (fun j c => val_main_v14 (F := Ideal) x1 (ix4 n d j c))
          (val_main_v20 (F := Ideal) xs (ix3 d (0 : Fin 1) (0 : Fin 1))) r j := by
  rw [val_main_v78_apply, val_main_v77_apply, val_main_v76_apply, idx_maxSpread, val_main_v75_apply, idx_maxKeep, rowMax_apply, logit_apply]
  rfl

/-- The sum of row `r`'s exponentials. -/
theorem expoSum_apply :
    val_main_v79 (F := Ideal) x0 x1 xs (ix3 n d r)
      = ∑ j' : Fin 8, Cert.Attn.expo (fun r c => val_main_v11 (F := Ideal) x0 (ix4 n d r c)) (fun j c => val_main_v14 (F := Ideal) x1 (ix4 n d j c))
          (val_main_v20 (F := Ideal) xs (ix3 d (0 : Fin 1) (0 : Fin 1))) r j' := by
  rw [val_main_v79_apply, val_main_cst_14_apply]
  have hs : (∑ k : Fin 8, val_main_v78 (F := Ideal) x0 x1 xs (idx_main_v79 (ix3 n d r) k))
      = ∑ j' : Fin 8, Cert.Attn.expo (fun r c => val_main_v11 (F := Ideal) x0 (ix4 n d r c)) (fun j c => val_main_v14 (F := Ideal) x1 (ix4 n d j c))
          (val_main_v20 (F := Ideal) xs (ix3 d (0 : Fin 1) (0 : Fin 1))) r j' :=
    Finset.sum_congr rfl fun k _ => by rw [idx_expSum, expo_apply]
  rw [hs]
  simp only [Ideal.ofBits_def, Ideal.ofBits_zero_f32, zero_add]

/-- The softmax weight of column `j` in row `r`. -/
theorem weight_apply (j : Fin 8) :
    val_main_v82 (F := Ideal) x0 x1 xs (ix4 n d r j)
      = Cert.Attn.weight (fun r c => val_main_v11 (F := Ideal) x0 (ix4 n d r c)) (fun j c => val_main_v14 (F := Ideal) x1 (ix4 n d j c))
          (val_main_v20 (F := Ideal) xs (ix3 d (0 : Fin 1) (0 : Fin 1))) r j := by
  rw [val_main_v82_apply, val_main_v81_apply, idx_sumSpread, val_main_v80_apply, idx_sumKeep, expoSum_apply, expo_apply]
  rfl

end Stages

/-- The reference's second attention read at `(n, d, r, c)`: attention of group `n`, head `d` of the three
    regrouped arrays, with head `d`'s scale. -/
theorem v87_apply (x0 x1 x2 : (⟨S2x384x8x96x96, .f32⟩ : BufTy).Contents (Elt Ideal)) (x3 x4 : (⟨S6x1x1, .f32⟩ : BufTy).Contents (Elt Ideal))
    (n : Fin 18432) (d : Fin 6) (r : Fin 8) (c : Fin 64) :
    val_main_v87 (F := Ideal) x0 x1 x2 x3 x4 (ix4 n d r c)
      = Cert.Attn.attnAt (fun r c => val_main_v11 (F := Ideal) x0 (ix4 n d r c)) (fun j c => val_main_v14 (F := Ideal) x1 (ix4 n d j c))
          (fun j c => val_main_v86 (F := Ideal) x0 x1 x2 x3 (ix4 n d j c)) (val_main_v20 (F := Ideal) x4 (ix3 d (0 : Fin 1) (0 : Fin 1))) r c := by
  rw [val_main_v87_apply]
  unfold Cert.Attn.attnAt
  refine Finset.sum_congr rfl fun k _ => ?_
  rw [lidx_out, ridx_out, weight_apply]

/-- The same as one equation between arrays. -/
theorem v87_eq (x0 x1 x2 : (⟨S2x384x8x96x96, .f32⟩ : BufTy).Contents (Elt Ideal)) (x3 x4 : (⟨S6x1x1, .f32⟩ : BufTy).Contents (Elt Ideal)) :
    val_main_v87 (F := Ideal) x0 x1 x2 x3 x4
      = Cert.Attn.attnArr 18432 6 8 64 (val_main_v11 (F := Ideal) x0) (val_main_v14 (F := Ideal) x1) (val_main_v86 (F := Ideal) x0 x1 x2 x3) (val_main_v20 (F := Ideal) x4) := by
  funext i
  obtain ⟨n, d, r, c, rfl⟩ : ∃ (n : Fin 18432) (d : Fin 6) (r : Fin 8) (c : Fin 64), i = ix4 n d r c := ⟨i 0, i 1, i 2, i 3, eq_ix4 i⟩
  exact v87_apply x0 x1 x2 x3 x4 n d r c

end Cert.ReferenceIdeal.Attn1

end
-- ==== Proof.RefValue.lean ====
/-
  The reference program's result as the same function of its five arguments as the kernel program's: the
  reference regroups the videos into windows and into time sequences, caps and exponentiates the scales, computes
  windowed cosine attention with whole-array operations, regroups, computes cosine attention along time, and lays
  the result out as a video. Its two attentions are `attnArr` of the regrouped arrays (read index by index in
  the two attention modules); everything around them is layout.
-/
import proofs.«164915_j68642167324784_1_alg».proof.Proof.Gen.ReferenceIdeal.Read
import proofs.«164915_j68642167324784_1_alg».proof.Proof.AttnSpec
import proofs.«164915_j68642167324784_1_alg».proof.Proof.RefAttn0
import proofs.«164915_j68642167324784_1_alg».proof.Proof.RefAttn1
import Idealize.ShloMosaic.PureOps.Ideal

set_option maxRecDepth 16384

noncomputable section

namespace Cert.ReferenceIdeal.Whole

open Cert.ReferenceIdeal Cert.ReferenceIdeal.Gen Cert.ReferenceIdeal.Read Idealize.ShloMosaic Idealize.ShloMosaic.TcCoe Idealize.SL.Sem

/-! ## The layout changes around the two calls, each as one function -/

/-- A video `[b, (d c), t, (u h), (v w)]` regrouped into windows `[(b t u v), d, (h w), c]`. -/
def toWin (x : FVec Ideal S2x384x8x96x96 .f32) : FVec Ideal S4608x6x32x64 .f32 :=
  shapeCast S4608x6x32x64 (transpose S2x8x24x12x6x4x8x64 [0, 3, 4, 6, 1, 5, 7, 2]
    (shapeCast S2x6x64x8x24x4x12x8 x Facts₀.shapeCasts_S2x384x8x96x96_S2x6x64x8x24x4x12x8)
    Facts₀.transposes_S2x6x64x8x24x4x12x8_S2x8x24x12x6x4x8x64_0_3_4_6_1_5_7_2) Facts₀.shapeCasts_S2x8x24x12x6x4x8x64_S4608x6x32x64

/-- A video regrouped into per-pixel time sequences `[(b h w), d, t, c]`. -/
def toSeq (x : FVec Ideal S2x384x8x96x96 .f32) : FVec Ideal S18432x6x8x64 .f32 :=
  shapeCast S18432x6x8x64 (transpose S2x96x96x6x8x64 [0, 4, 5, 1, 3, 2]
    (shapeCast S2x6x64x8x96x96 x Facts₀.shapeCasts_S2x384x8x96x96_S2x6x64x8x96x96)
    Facts₀.transposes_S2x6x64x8x96x96_S2x96x96x6x8x64_0_4_5_1_3_2) Facts₀.shapeCasts_S2x96x96x6x8x64_S18432x6x8x64

/-- The head scales: the exponential of the logit scale capped at the word 0x40935D8E. -/
def scale (x : FVec Ideal S6x1x1 .f32) : FVec Ideal S6x1x1 .f32 :=
  Host.exp (minimumf x (broadcastInDim S6x1x1 ![] Facts₀.bcast_S_S6x1x1 (constant (F := Ideal) S_ .f32 0x40935D8E#32)))

/-- The windowed result `[(b t u v), d, (h w), c]` regrouped into time sequences `[(b u h v w), d, t, c]`. -/
def regroup (y : FVec Ideal S4608x6x32x64 .f32) : FVec Ideal S18432x6x8x64 .f32 :=
  shapeCast S18432x6x8x64 (transpose S2x24x4x12x8x6x8x64 [0, 2, 5, 3, 6, 4, 1, 7]
    (shapeCast S2x8x24x12x6x4x8x64 y Facts₀.shapeCasts_S4608x6x32x64_S2x8x24x12x6x4x8x64)
    Facts₀.transposes_S2x8x24x12x6x4x8x64_S2x24x4x12x8x6x8x64_0_2_5_3_6_4_1_7) Facts₀.shapeCasts_S2x24x4x12x8x6x8x64_S18432x6x8x64

/-- The time sequences `[(b u h v w), d, t, c]` laid back out as a video `[b, (d c), t, (u h), (v w)]`. -/
def toVideo (y : FVec Ideal S18432x6x8x64 .f32) : FVec Ideal S2x384x8x96x96 .f32 :=
  shapeCast S2x384x8x96x96 (transpose S2x6x64x8x24x4x12x8 [0, 5, 7, 6, 1, 2, 3, 4]
    (shapeCast S2x24x4x12x8x6x8x64 y Facts₀.shapeCasts_S18432x6x8x64_S2x24x4x12x8x6x8x64)
    Facts₀.transposes_S2x24x4x12x8x6x8x64_S2x6x64x8x24x4x12x8_0_5_7_6_1_2_3_4) Facts₀.shapeCasts_S2x6x64x8x24x4x12x8_S2x384x8x96x96

/-- The whole program as one function of its five arguments: windowed attention, regrouped, then attention along time. -/
def out (x0 x1 x2 : FVec Ideal S2x384x8x96x96 .f32) (x3 x4 : FVec Ideal S6x1x1 .f32) : FVec Ideal S2x384x8x96x96 .f32 :=
  toVideo (Cert.Attn.attnArr 18432 6 8 64 (toSeq x0) (toSeq x1)
    (regroup (Cert.Attn.attnArr 4608 6 32 64 (toWin x0) (toWin x1) (toWin x2) (scale x3))) (scale x4))

/-! ## The reference's stages around its two attentions are these layout functions -/

theorem v2_eq (x0 : FVec Ideal S2x384x8x96x96 .f32) : val_main_v2 (F := Ideal) x0 = toWin x0 := rfl
theorem v5_eq (x1 : FVec Ideal S2x384x8x96x96 .f32) : val_main_v5 (F := Ideal) x1 = toWin x1 := rfl
theorem v8_eq (x2 : FVec Ideal S2x384x8x96x96 .f32) : val_main_v8 (F := Ideal) x2 = toWin x2 := rfl
theorem v11_eq (x0 : FVec Ideal S2x384x8x96x96 .f32) : val_main_v11 (F := Ideal) x0 = toSeq x0 := rfl
theorem v14_eq (x1 : FVec Ideal S2x384x8x96x96 .f32) : val_main_v14 (F := Ideal) x1 = toSeq x1 := rfl
theorem v17_eq (x3 : FVec Ideal S6x1x1 .f32) : val_main_v17 (F := Ideal) x3 = scale x3 := rfl
theorem v20_eq (x4 : FVec Ideal S6x1x1 .f32) : val_main_v20 (F := Ideal) x4 = scale x4 := rfl
theorem v86_eq (x0 x1 x2 : FVec Ideal S2x384x8x96x96 .f32) (x3 : FVec Ideal S6x1x1 .f32) :
    val_main_v86 (F := Ideal) x0 x1 x2 x3 = regroup (val_main_v83 (F := Ideal) x0 x1 x2 x3) := rfl
theorem v90_eq (x0 x1 x2 : FVec Ideal S2x384x8x96x96 .f32) (x3 x4 : FVec Ideal S6x1x1 .f32) :
    val_main_v90 (F := Ideal) x0 x1 x2 x3 x4 = toVideo (val_main_v87 (F := Ideal) x0 x1 x2 x3 x4) := rfl

/-- The reference's result is `out` of its arguments. -/
theorem out_eq (x0 x1 x2 : FVec Ideal S2x384x8x96x96 .f32) (x3 x4 : FVec Ideal S6x1x1 .f32) :
    val_main_v90 (F := Ideal) x0 x1 x2 x3 x4 = out x0 x1 x2 x3 x4 := by
  rw [v90_eq, Cert.ReferenceIdeal.Attn1.v87_eq, v86_eq, Cert.ReferenceIdeal.Attn0.v83_eq, v2_eq, v5_eq, v8_eq, v11_eq, v14_eq, v17_eq, v20_eq]
  rfl

end Cert.ReferenceIdeal.Whole

end
-- ==== Proof.lean ====
/-
  The certificate: a cosine-attention kernel program (two calls of one attention body: over spatial windows,
  then along time) against its whole-array reference, equal over the extended reals.

  Both programs regroup the three videos into windows and into per-pixel time sequences, cap and exponentiate
  the two logit scales, run cosine attention over windows, regroup, run cosine attention along time, and lay the
  result back out. The kernel program does each attention block by block (256 windows, or 1024 pixels, of one
  head per grid point); the reference does each with whole-array operations. Read at an index, a block's result
  and the reference's are the same scalar expression `Cert.Attn.attnAt` of the same rows: row norms floored at
  one shared word, inner products, one shared scale per head, the row maximum from minus infinity, exponentials,
  their row sum, and the weighted sum of the value rows. No law of arithmetic joins the two sides beyond that
  identity, so the precondition is not opened. The blocks tile each result array, so each call's array is
  `Cert.Attn.attnArr` of the arrays it reads; the layout stretches around the calls are the same functions in
  both programs. The three frames are the generated ones (the reference's is its generated run with the result
  dropped); the idealization rewrote nothing, so `preserves` is trivial.
-/
import proofs.«164915_j68642167324784_1_alg».proof.Defs
import proofs.«164915_j68642167324784_1_alg».proof.Proof.Gen.Kernel
import proofs.«164915_j68642167324784_1_alg».proof.Proof.Gen.Kernel.Frame
import proofs.«164915_j68642167324784_1_alg».proof.Proof.Gen.KernelIdeal
import proofs.«164915_j68642167324784_1_alg».proof.Proof.Gen.KernelIdeal.Frame
import proofs.«164915_j68642167324784_1_alg».proof.Proof.Gen.ReferenceIdeal
import proofs.«164915_j68642167324784_1_alg».proof.Proof.Gen.ReferenceIdeal.Run
import proofs.«164915_j68642167324784_1_alg».proof.Proof.Gen.ReferenceIdeal.Read
import proofs.«164915_j68642167324784_1_alg».proof.Proof.Gen.Pre_finite_inputs
import proofs.«164915_j68642167324784_1_alg».proof.Proof.ValueRun
import proofs.«164915_j68642167324784_1_alg».proof.Proof.KerValue
import proofs.«164915_j68642167324784_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The two programs compute one function -/

/-- The two programs' whole-program functions are the same function: the same layout changes (stated in each
    program over its own shape names) around the same two attentions. -/
theorem out_same (x0 x1 x2 : FVec Ideal Cert.KernelIdeal.S2x384x8x96x96 .f32) (x3 x4 : FVec Ideal Cert.KernelIdeal.S6x1x1 .f32) :
    Cert.ReferenceIdeal.Whole.out x0 x1 x2 x3 x4 = Cert.KernelIdeal.Whole.out x0 x1 x2 x3 x4 := rfl

/-- From memories agreeing on the arguments both programs run and end with the result array at the one function
    of the arguments: the kernel program by its run with the result named and the closed form of that result,
    the reference by its generated run and the reading of its term. -/
theorem algebraic : Cert.algebraic_KernelIdeal_ReferenceIdeal := by
  intro m ρ m' ρ' _ hagree
  refine ⟨fun c => Cert.KernelIdeal.Whole.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.out_eq m ρ c), (h c).2⟩)
      (Cert.KernelIdeal.ValueRun.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v90_eq, Cert.ReferenceIdeal.Whole.out_eq,
      (hagree c).1, (hagree c).2.1, (hagree c).2.2.1, (hagree c).2.2.2.1, (hagree c).2.2.2.2]
    exact out_same _ _ _ _ _

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
